-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v15)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v15) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v28) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S500000x256 : Shape := ⟨2, ![500000, 256]⟩
abbrev S500000 : Shape := ⟨1, ![500000]⟩
abbrev S256x16 : Shape := ⟨2, ![256, 16]⟩
abbrev S16x256 : Shape := ⟨2, ![16, 256]⟩
abbrev S_ : Shape := ⟨0, ![]⟩

class Facts : Prop where
  bcast_S_S500000x256 : S_.BroadcastsInDim S500000x256 (![] : Fin 0 → Fin S500000x256.rank)
  reducesTo_S500000x256_S_d0_1 : S500000x256.ReducesTo [0, 1] S_
  h_S_ : 0 < S_.numel
  bcast_S_S256x16 : S_.BroadcastsInDim S256x16 (![] : Fin 0 → Fin S256x16.rank)
  reducesTo_S256x16_S_d0_1 : S256x16.ReducesTo [0, 1] S_
  bcast_S_S16x256 : S_.BroadcastsInDim S16x256 (![] : Fin 0 → Fin S16x256.rank)
  reducesTo_S16x256_S_d0_1 : S16x256.ReducesTo [0, 1] S_
  bcast_S_S500000 : S_.BroadcastsInDim S500000 (![] : Fin 0 → Fin S500000.rank)
  reducesTo_S500000_S_d0 : S500000.ReducesTo [0] S_

variable [Facts]

def fn_part1 {F : FTy → Type} [FloatOps F] (main_arg1 : IVec S500000 32) (main_v13 : IVec S_ 1) (main_v15 : IVec S500000 1) (main_c_5 : IVec S_ 32) : IVec S_ 1 :=
  let main_v16 : IVec S500000 32 := broadcastInDim S500000 ![] bcast_S_S500000 main_c_5
  let main_v17 : IVec S500000 1 := cmpi .slt main_arg1 main_v16
  let main_v18 : IVec S500000 1 := andi main_v15 main_v17
  let main_c_6 : IVec S_ 1 := constantI S_ 1 1#1
  let main_v19 : IVec S_ 1 := (fun x v => Host.reduce IntOp.andi x v reducesTo_S500000_S_d0 h_S_) main_v18 main_c_6
  let main_v20 : IVec S_ 1 := andi main_v13 main_v19
  main_v20

def fn {F : FTy → Type} [FloatOps F] (main_arg0 : FVec F S500000x256 .f32) (main_arg1 : IVec S500000 32) (main_arg2 : FVec F S256x16 .f32) (main_arg3 : FVec F S16x256 .f32) : IVec S_ 1 :=
  let main_v0 : FVec F S500000x256 .f32 := Host.absf main_arg0
  let main_cst : FVec F S_ .f32 := constant S_ .f32 0x7F800000#32
  let main_v1 : FVec F S500000x256 .f32 := broadcastInDim S500000x256 ![] bcast_S_S500000x256 main_cst
  let main_v2 : IVec S500000x256 1 := cmpf .olt main_v0 main_v1
  let main_c : IVec S_ 1 := constantI S_ 1 1#1
  let main_v3 : IVec S_ 1 := (fun x v => Host.reduce IntOp.andi x v reducesTo_S500000x256_S_d0_1 h_S_) main_v2 main_c
  let main_v4 : FVec F S256x16 .f32 := Host.absf main_arg2
  let main_cst_0 : FVec F S_ .f32 := constant S_ .f32 0x7F800000#32
  let main_v5 : FVec F S256x16 .f32 := broadcastInDim S256x16 ![] bcast_S_S256x16 main_cst_0
  let main_v6 : IVec S256x16 1 := cmpf .olt main_v4 main_v5
  let main_c_1 : IVec S_ 1 := constantI S_ 1 1#1
  let main_v7 : IVec S_ 1 := (fun x v => Host.reduce IntOp.andi x v reducesTo_S256x16_S_d0_1 h_S_) main_v6 main_c_1
  let main_v8 : IVec S_ 1 := andi main_v3 main_v7
  let main_v9 : FVec F S16x256 .f32 := Host.absf main_arg3
  let main_cst_2 : FVec F S_ .f32 := constant S_ .f32 0x7F800000#32
  let main_v10 : FVec F S16x256 .f32 := broadcastInDim S16x256 ![] bcast_S_S16x256 main_cst_2
  let main_v11 : IVec S16x256 1 := cmpf .olt main_v9 main_v10
  let main_c_3 : IVec S_ 1 := constantI S_ 1 1#1
  let main_v12 : IVec S_ 1 := (fun x v => Host.reduce IntOp.andi x v reducesTo_S16x256_S_d0_1 h_S_) main_v11 main_c_3
  let main_v13 : IVec S_ 1 := andi main_v8 main_v12
  let main_c_4 : IVec S_ 32 := constantI S_ 32 0#32
  let main_v14 : IVec S500000 32 := broadcastInDim S500000 ![] bcast_S_S500000 main_c_4
  let main_v15 : IVec S500000 1 := cmpi .sge main_arg1 main_v14
  let main_c_5 : IVec S_ 32 := constantI S_ 32 512#32
  fn_part1 (F := F) main_arg1 main_v13 main_v15 main_c_5
-- ==== Kernel.lean ====
abbrev S500000x256 : Shape := ⟨2, ![500000, 256]⟩
abbrev S500000 : Shape := ⟨1, ![500000]⟩
abbrev S256x16 : Shape := ⟨2, ![256, 16]⟩
abbrev S16x256 : Shape := ⟨2, ![16, 256]⟩
abbrev S_ : Shape := ⟨0, ![]⟩
abbrev S501760x256 : Shape := ⟨2, ![501760, 256]⟩
abbrev S501760 : Shape := ⟨1, ![501760]⟩
abbrev S501760x1 : Shape := ⟨2, ![501760, 1]⟩
abbrev S512x256 : Shape := ⟨2, ![512, 256]⟩
abbrev S2048x256 : Shape := ⟨2, ![2048, 256]⟩
abbrev S2048x1 : Shape := ⟨2, ![2048, 1]⟩
abbrev S2048x512 : Shape := ⟨2, ![2048, 512]⟩
abbrev S512 : Shape := ⟨1, ![512]⟩
abbrev S500000x1 : Shape := ⟨2, ![500000, 1]⟩
abbrev S512x1 : Shape := ⟨2, ![512, 1]⟩
abbrev S512x16 : Shape := ⟨2, ![512, 16]⟩

abbrev nBuf : Space → Nat
  | .hbm => 27
  | .vmem => 17
  | .smem => 0
  | _ => 0

abbrev bufTy : (tb : Table) → Fin (tcTables nBuf tb) → BufTy
  | .hbm, ⟨0, _⟩ => ⟨S500000x256, .f32⟩
  | .hbm, ⟨1, _⟩ => ⟨S500000, .i32⟩
  | .hbm, ⟨2, _⟩ => ⟨S256x16, .f32⟩
  | .hbm, ⟨3, _⟩ => ⟨S16x256, .f32⟩
  | .hbm, ⟨4, _⟩ => ⟨S_, .i32⟩
  | .hbm, ⟨5, _⟩ => ⟨S_, .f32⟩
  | .hbm, ⟨6, _⟩ => ⟨S501760x256, .f32⟩
  | .hbm, ⟨7, _⟩ => ⟨S_, .i32⟩
  | .hbm, ⟨8, _⟩ => ⟨S_, .i32⟩
  | .hbm, ⟨9, _⟩ => ⟨S501760, .i32⟩
  | .hbm, ⟨10, _⟩ => ⟨S501760x1, .i32⟩
  | .hbm, ⟨11, _⟩ => ⟨S512x256, .f32⟩
  | .hbm, ⟨12, _⟩ => ⟨S_, .f32⟩
  | .hbm, ⟨13, _⟩ => ⟨S500000, .f32⟩
  | .hbm, ⟨14, _⟩ => ⟨S_, .f32⟩
  | .hbm, ⟨15, _⟩ => ⟨S512, .f32⟩
  | .hbm, ⟨16, _⟩ => ⟨S500000x1, .i32⟩
  | .hbm, ⟨17, _⟩ => ⟨S512, .f32⟩
  | .hbm, ⟨18, _⟩ => ⟨S_, .f32⟩
  | .hbm, ⟨19, _⟩ => ⟨S512, .f32⟩
  | .hbm, ⟨20, _⟩ => ⟨S512, .f32⟩
  | .hbm, ⟨21, _⟩ => ⟨S512x1, .f32⟩
  | .hbm, ⟨22, _⟩ => ⟨S512x256, .f32⟩
  | .hbm, ⟨23, _⟩ => ⟨S512x256, .f32⟩
  | .hbm, ⟨24, _⟩ => ⟨S512x256, .f32⟩
  | .hbm, ⟨25, _⟩ => ⟨S501760x256, .f32⟩
  | .hbm, ⟨26, _⟩ => ⟨S500000x256, .f32⟩
  | .local _ .vmem, ⟨0, _⟩ => ⟨S2048x256, .f32⟩
  | .local _ .vmem, ⟨1, _⟩ => ⟨S2048x256, .f32⟩
  | .local _ .vmem, ⟨2, _⟩ => ⟨S2048x1, .i32⟩
  | .local _ .vmem, ⟨3, _⟩ => ⟨S2048x1, .i32⟩
  | .local _ .vmem, ⟨4, _⟩ => ⟨S512x256, .f32⟩
  | .local _ .vmem, ⟨5, _⟩ => ⟨S512x256, .f32⟩
  | .local _ .vmem, ⟨6, _⟩ => ⟨S512x256, .f32⟩
  | .local _ .vmem, ⟨7, _⟩ => ⟨S256x16, .f32⟩
  | .local _ .vmem, ⟨8, _⟩ => ⟨S16x256, .f32⟩
  | .local _ .vmem, ⟨9, _⟩ => ⟨S512x256, .f32⟩
  | .local _ .vmem, ⟨10, _⟩ => ⟨S2048x256, .f32⟩
  | .local _ .vmem, ⟨11, _⟩ => ⟨S2048x256, .f32⟩
  | .local _ .vmem, ⟨12, _⟩ => ⟨S2048x1, .i32⟩
  | .local _ .vmem, ⟨13, _⟩ => ⟨S2048x1, .i32⟩
  | .local _ .vmem, ⟨14, _⟩ => ⟨S512x256, .f32⟩
  | .local _ .vmem, ⟨15, _⟩ => ⟨S2048x256, .f32⟩
  | .local _ .vmem, ⟨16, _⟩ => ⟨S2048x256, .f32⟩
  | _, _ => ⟨S500000x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_c : Ref sig .tc := ⟨.hbm, 4, rfl⟩
abbrev main_call0_v0 : Ref sig .tc := ⟨.hbm, 5, rfl⟩
abbrev main_v0 : Ref sig .tc := ⟨.hbm, 6, rfl⟩
abbrev main_c_0 : Ref sig .tc := ⟨.hbm, 7, rfl⟩
abbrev main_call1_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_cst : Ref sig .tc := ⟨.hbm, 12, rfl⟩
abbrev main_v4 : Ref sig .tc := ⟨.hbm, 13, rfl⟩
abbrev main_cst_1 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_cst_2 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_scratch0 : Ref sig .tc := ⟨.vmem, 5, rfl⟩
abbrev cc1_stg0_0 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg3_0 : Ref sig .tc := ⟨.vmem, 9, rfl⟩
abbrev cc2_stg0_0 : Ref sig .tc := ⟨.vmem, 10, rfl⟩
abbrev cc2_stg0_1 : Ref sig .tc := ⟨.vmem, 11, rfl⟩
abbrev cc2_stg1_0 : Ref sig .tc := ⟨.vmem, 12, rfl⟩
abbrev cc2_stg1_1 : Ref sig .tc := ⟨.vmem, 13, rfl⟩
abbrev cc2_stg2_0 : Ref sig .tc := ⟨.vmem, 14, rfl⟩
abbrev cc2_stg3_0 : Ref sig .tc := ⟨.vmem, 15, rfl⟩
abbrev cc2_stg3_1 : Ref sig .tc := ⟨.vmem, 16, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc1_sem0_0 : DmaSem sig := 5
abbrev cc1_sem1_0 : DmaSem sig := 6
abbrev cc1_sem2_0 : DmaSem sig := 7
abbrev cc1_sem3_0 : DmaSem sig := 8
abbrev cc2_sem0_0 : DmaSem sig := 9
abbrev cc2_sem0_1 : DmaSem sig := 10
abbrev cc2_sem1_0 : DmaSem sig := 11
abbrev cc2_sem1_1 : DmaSem sig := 12
abbrev cc2_sem2_0 : DmaSem sig := 13
abbrev cc2_sem3_0 : DmaSem sig := 14
abbrev cc2_sem3_1 : DmaSem sig := 15

abbrev nD : Nat := 1
abbrev τ : Topo := Topo.v7x

variable {F : FTy → Type} [FloatOps F]

abbrev grid0 : Pipeline.Grid := ⟨1, ![245], ![false]⟩

def k0_cond2 (i : grid0.Coords) : BitVec 1 :=
  let arg0 : BitVec 32 := BitVec.ofNat 32 (i 0).val
  let c244_i32 : BitVec 32 := 244#32
  let v20 : BitVec 1 := Scalar.cmpi .eq arg0 c244_i32
  let v21 : BitVec 32 := Scalar.extui v20
  let c0_i32_8 : BitVec 32 := 0#32
  let v22 : BitVec 1 := Scalar.cmpi .ne v21 c0_i32_8
  v22

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S2048x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2048x1 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S512x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev grid1 : Pipeline.Grid := ⟨1, ![1], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage1_0 : Fin 1 → Memref sig .tc .vmem S512x256 .f32 := fun | 0 => Memref.whole cc1_stg0_0 | ⟨_ + 1, h⟩ => absurd h (Nat.not_lt.2 (Nat.le_add_left _ _))
abbrev sem1_0 : Fin 1 → DmaSem sig := fun | 0 => cc1_sem0_0 | ⟨_ + 1, h⟩ => absurd h (Nat.not_lt.2 (Nat.le_add_left _ _))
abbrev reads1_0 : Fin grid1.rank → Bool := ![false]

abbrev stage1_1 : Fin 1 → Memref sig .tc .vmem S256x16 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S16x256 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S512x256 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev grid2 : Pipeline.Grid := ⟨1, ![245], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S2048x256 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S2048x1 .i32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 1 → Memref sig .tc .vmem S512x256 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 2 → Memref sig .tc .vmem S2048x256 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]

class Facts₀ : Prop where
  pads_S500000x256_S501760x256_017600_000 : S500000x256.Pads (![0, 0] : Fin 2 → Nat) ![1760, 0] ![0, 0] S501760x256
  h_S_ : 0 < S_.numel
  pads_S500000_S501760_017600 : S500000.Pads (![0] : Fin 1 → Nat) ![1760] ![0] S501760
  shapeCasts_S501760_S501760x1 : S501760.ShapeCasts S501760x1
  inb_S512x256_S512x256_0_0 : ∀ a, (![0, 0] : Fin 2 → Nat) a + S512x256.size a ≤ S512x256.size a
  h_S512x256 : 0 < S512x256.numel
  shapeCasts_S512x256_S512x256 : S512x256.ShapeCasts S512x256
  inb_S2048x1_S2048x1_0_0 : ∀ a, (![0, 0] : Fin 2 → Nat) a + S2048x1.size a ≤ S2048x1.size a
  h_S2048x1 : 0 < S2048x1.numel
  shapeCasts_S2048x1_S2048x1 : S2048x1.ShapeCasts S2048x1
  iota_S2048x512_d1_w32 : S2048x512.Iotas .tc 32 [1]
  broadcasts_S2048x1_S2048x512 : S2048x1.Broadcasts S2048x512
  natLt_1_32 : 1 < 32
  bitsLt_bf16_f32 : FTy.bits .bf16 < FTy.bits .f32
  inb_S2048x256_S2048x256_0_0 : ∀ a, (![0, 0] : Fin 2 → Nat) a + S2048x256.size a ≤ S2048x256.size a
  h_S2048x256 : 0 < S2048x256.numel
  shapeCasts_S2048x256_S2048x256 : S2048x256.ShapeCasts S2048x256
  bcast_S_S500000 : S_.BroadcastsInDim S500000 (![] : Fin 0 → Fin S500000.rank)
  bcast_S_S512 : S_.BroadcastsInDim S512 (![] : Fin 0 → Fin S512.rank)
  bcast_S500000_S500000x1_0 : S500000.BroadcastsInDim S500000x1 (![0] : Fin 1 → Fin S500000x1.rank)
  bcast_S512_S512x1_0 : S512.BroadcastsInDim S512x1 (![0] : Fin 1 → Fin S512x1.rank)
  bcast_S512x1_S512x256_0_1 : S512x1.BroadcastsInDim S512x256 (![0, 1] : Fin 2 → Fin S512x256.rank)
  inb_S256x16_S256x16_0_0 : ∀ a, (![0, 0] : Fin 2 → Nat) a + S256x16.size a ≤ S256x16.size a
  h_S256x16 : 0 < S256x16.numel
  inb_S16x256_S16x256_0_0 : ∀ a, (![0, 0] : Fin 2 → Nat) a + S16x256.size a ≤ S16x256.size a
  h_S16x256 : 0 < S16x256.numel
  slices_S501760x256_S500000x256_0_0 : S501760x256.Slices ![0, 0] S500000x256
  dot_S2048x512_S2048x256_S512x256_0_0_1_1_n_n_wf : DotDims.WF S2048x512 S2048x256 S512x256 [0] [0] [1] [1] [] []
  scatter_S512_S500000x1_S500000_n_0_0_1_wf : ScatterDims.WF S512 S500000x1 S500000 [] [0] [0] 1
  dot_S512x256_S256x16_S512x16_1_0_0_1_n_n_wf : DotDims.WF S512x256 S256x16 S512x16 [1] [0] [0] [1] [] []
  dot_S512x16_S16x256_S512x256_1_0_0_1_n_n_wf : DotDims.WF S512x16 S16x256 S512x256 [1] [0] [0] [1] [] []
  dot_S2048x512_S512x256_S2048x256_1_0_0_1_n_n_wf : DotDims.WF S2048x512 S512x256 S2048x256 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2048x256.size a ≤ S501760x256.size a
  hwx0_0 : ∀ i : grid0.Coords, EltTy.bits .f32 = 32 ∨ (Rect.block (s := S501760x256) S2048x256.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2048x1.size a ≤ S501760x1.size a
  hwx0_1 : ∀ i : grid0.Coords, EltTy.bits .i32 = 32 ∨ (Rect.block (s := S501760x1) S2048x1.size (cc0_transform_1 i) (hinb0_1 i)).WholeWords (EltTy.packing .i32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S512x256.size a ≤ S512x256.size a
  hwx0_2 : ∀ i : grid0.Coords, EltTy.bits .f32 = 32 ∨ (Rect.block (s := S512x256) S512x256.size (cc0_transform_2 i) (hinb0_2 i)).WholeWords (EltTy.packing .f32)
  hrank1 : 0 < grid1.rank
  hstage1_0 : ∀ j, (stage1_0 j).IsWhole
  nbuf1_0 : grid1.bufCount reads1_0 true = 1
  hreads1_0 : ∀ i i' : grid1.Coords, (∀ a, reads1_0 a = true → i a = i' a) → cc1_transform_0 i = cc1_transform_0 i'
  hinb1_0 : ∀ (i : grid1.Coords) a, (cc1_transform_0 i a + 1) * S512x256.size a ≤ S512x256.size a
  hwx1_0 : ∀ i : grid1.Coords, EltTy.bits .f32 = 32 ∨ (Rect.block (s := S512x256) S512x256.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S256x16.size a ≤ S256x16.size a
  hwx1_1 : ∀ i : grid1.Coords, EltTy.bits .f32 = 32 ∨ (Rect.block (s := S256x16) S256x16.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S16x256.size a ≤ S16x256.size a
  hwx1_2 : ∀ i : grid1.Coords, EltTy.bits .f32 = 32 ∨ (Rect.block (s := S16x256) S16x256.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S512x256.size a ≤ S512x256.size a
  hwx1_3 : ∀ i : grid1.Coords, EltTy.bits .f32 = 32 ∨ (Rect.block (s := S512x256) S512x256.size (cc1_transform_3 i) (hinb1_3 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S2048x256.size a ≤ S501760x256.size a
  hwx2_0 : ∀ i : grid2.Coords, EltTy.bits .f32 = 32 ∨ (Rect.block (s := S501760x256) S2048x256.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S2048x1.size a ≤ S501760x1.size a
  hwx2_1 : ∀ i : grid2.Coords, EltTy.bits .i32 = 32 ∨ (Rect.block (s := S501760x1) S2048x1.size (cc2_transform_1 i) (hinb2_1 i)).WholeWords (EltTy.packing .i32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S512x256.size a ≤ S512x256.size a
  hwx2_2 : ∀ i : grid2.Coords, EltTy.bits .f32 = 32 ∨ (Rect.block (s := S512x256) S512x256.size (cc2_transform_2 i) (hinb2_2 i)).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S2048x256.size a ≤ S501760x256.size a
  hwx2_3 : ∀ i : grid2.Coords, EltTy.bits .f32 = 32 ∨ (Rect.block (s := S501760x256) S2048x256.size (cc2_transform_3 i) (hinb2_3 i)).WholeWords (EltTy.packing .f32)

variable [Facts₀]

def dot_S2048x512_S2048x256_S512x256_0_0_1_1_n_n : DotDims S2048x512 S2048x256 S512x256 where
  lhsContracting := [0]
  rhsContracting := [0]
  lhsNonContracting := [1]
  rhsNonContracting := [1]
  lhsBatch := []
  rhsBatch := []
  wf := dot_S2048x512_S2048x256_S512x256_0_0_1_1_n_n_wf
def scatter_S512_S500000x1_S500000_n_0_0_1 : ScatterDims S512 S500000x1 S500000 where
  updateWindowDims := []
  insertedWindowDims := [0]
  scatterDimsToOperandDims := [0]
  indexVectorDim := 1
  wf := scatter_S512_S500000x1_S500000_n_0_0_1_wf
def dot_S512x256_S256x16_S512x16_1_0_0_1_n_n : DotDims S512x256 S256x16 S512x16 where
  lhsContracting := [1]
  rhsContracting := [0]
  lhsNonContracting := [0]
  rhsNonContracting := [1]
  lhsBatch := []
  rhsBatch := []
  wf := dot_S512x256_S256x16_S512x16_1_0_0_1_n_n_wf
def dot_S512x16_S16x256_S512x256_1_0_0_1_n_n : DotDims S512x16 S16x256 S512x256 where
  lhsContracting := [1]
  rhsContracting := [0]
  lhsNonContracting := [0]
  rhsNonContracting := [1]
  lhsBatch := []
  rhsBatch := []
  wf := dot_S512x16_S16x256_S512x256_1_0_0_1_n_n_wf
def dot_S2048x512_S512x256_S2048x256_1_0_0_1_n_n : DotDims S2048x512 S512x256 S2048x256 where
  lhsContracting := [1]
  rhsContracting := [0]
  lhsNonContracting := [0]
  rhsNonContracting := [1]
  lhsBatch := []
  rhsBatch := []
  wf := dot_S2048x512_S512x256_S2048x256_1_0_0_1_n_n_wf

abbrev win0_0 : Pipeline.Window sig grid0 :=
  Pipeline.Window.ofSpec (Memref.whole main_v0) S2048x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v2) S2048x1.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v3) S512x256.size cc0_transform_2 reads0_2 true true 1 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev idle0 : Fin 3 → grid0.Coords → Bool := fun | 0 => fun _ => false | 1 => fun _ => false | 2 => fun i => !(k0_cond2 i == 1#1) | ⟨_ + 3, h⟩ => absurd h (Nat.not_lt.2 (Nat.le_add_left _ _))

abbrev win1_0 : Pipeline.Window sig grid1 :=
  Pipeline.Window.ofSpec (Memref.whole main_v12) S512x256.size cc1_transform_0 reads1_0 false true 1 stage1_0 sem1_0
    hrank1 hreads1_0 hinb1_0 nbuf1_0 (Memref.isWhole_whole _) hwx1_0 hstage1_0

abbrev win1_1 : Pipeline.Window sig grid1 :=
  Pipeline.Window.ofSpec (Memref.whole main_arg2) S256x16.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_arg3) S16x256.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v13) S512x256.size cc1_transform_3 reads1_3 true true 1 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev win2_0 : Pipeline.Window sig grid2 :=
  Pipeline.Window.ofSpec (Memref.whole main_v0) S2048x256.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v2) S2048x1.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v13) S512x256.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v14) S2048x256.size cc2_transform_3 reads2_3 true false 2 stage2_3 sem2_3
    hrank2 hreads2_3 hinb2_3 nbuf2_3 (Memref.isWhole_whole _) hwx2_3 hstage2_3

abbrev win2 : Fin 4 → Pipeline.Window sig grid2 := fun | 0 => win2_0 | 1 => win2_1 | 2 => win2_2 | 3 => win2_3 | ⟨_ + 4, h⟩ => absurd h (Nat.not_lt.2 (Nat.le_add_left _ _))
abbrev spec2 : Fin 4 → Pipeline.WinSpec sig grid2.rank := fun w => (win2 w).toWinSpec

class Facts : Prop extends Facts₀ where

variable [Facts]
-- ==== ReferenceIdeal.lean ====
abbrev S500000x256 : Shape := ⟨2, ![500000, 256]⟩
abbrev S500000 : Shape := ⟨1, ![500000]⟩
abbrev S256x16 : Shape := ⟨2, ![256, 16]⟩
abbrev S16x256 : Shape := ⟨2, ![16, 256]⟩
abbrev S_ : Shape := ⟨0, ![]⟩
abbrev S512x256 : Shape := ⟨2, ![512, 256]⟩
abbrev S500000x1 : Shape := ⟨2, ![500000, 1]⟩
abbrev S512 : Shape := ⟨1, ![512]⟩
abbrev S512x1 : Shape := ⟨2, ![512, 1]⟩
abbrev S512x16 : Shape := ⟨2, ![512, 16]⟩

abbrev nBuf : Space → Nat
  | .hbm => 43
  | .vmem => 0
  | .smem => 0
  | _ => 0

abbrev bufTy : (tb : Table) → Fin (tcTables nBuf tb) → BufTy
  | .hbm, ⟨0, _⟩ => ⟨S500000x256, .f32⟩
  | .hbm, ⟨1, _⟩ => ⟨S500000, .i32⟩
  | .hbm, ⟨2, _⟩ => ⟨S256x16, .f32⟩
  | .hbm, ⟨3, _⟩ => ⟨S16x256, .f32⟩
  | .hbm, ⟨4, _⟩ => ⟨S_, .f32⟩
  | .hbm, ⟨5, _⟩ => ⟨S512x256, .f32⟩
  | .hbm, ⟨6, _⟩ => ⟨S500000x1, .i32⟩
  | .hbm, ⟨7, _⟩ => ⟨S512x256, .f32⟩
  | .hbm, ⟨8, _⟩ => ⟨S_, .f32⟩
  | .hbm, ⟨9, _⟩ => ⟨S500000, .f32⟩
  | .hbm, ⟨10, _⟩ => ⟨S_, .f32⟩
  | .hbm, ⟨11, _⟩ => ⟨S512, .f32⟩
  | .hbm, ⟨12, _⟩ => ⟨S500000x1, .i32⟩
  | .hbm, ⟨13, _⟩ => ⟨S512, .f32⟩
  | .hbm, ⟨14, _⟩ => ⟨S_, .f32⟩
  | .hbm, ⟨15, _⟩ => ⟨S512, .f32⟩
  | .hbm, ⟨16, _⟩ => ⟨S512, .f32⟩
  | .hbm, ⟨17, _⟩ => ⟨S512x1, .f32⟩
  | .hbm, ⟨18, _⟩ => ⟨S512x256, .f32⟩
  | .hbm, ⟨19, _⟩ => ⟨S512x256, .f32⟩
  | .hbm, ⟨20, _⟩ => ⟨S512x16, .f32⟩
  | .hbm, ⟨21, _⟩ => ⟨S_, .f32⟩
  | .hbm, ⟨22, _⟩ => ⟨S512x16, .f32⟩
  | .hbm, ⟨23, _⟩ => ⟨S512x16, .f32⟩
  | .hbm, ⟨24, _⟩ => ⟨S512x256, .f32⟩
  | .hbm, ⟨25, _⟩ => ⟨S512x256, .f32⟩
  | .hbm, ⟨26, _⟩ => ⟨S512x256, .f32⟩
  | .hbm, ⟨27, _⟩ => ⟨S_, .f32⟩
  | .hbm, ⟨28, _⟩ => ⟨S512x256, .f32⟩
  | .hbm, ⟨29, _⟩ => ⟨S512x256, .f32⟩
  | .hbm, ⟨30, _⟩ => ⟨S_, .f32⟩
  | .hbm, ⟨31, _⟩ => ⟨S512x256, .f32⟩
  | .hbm, ⟨32, _⟩ => ⟨S512x256, .f32⟩
  | .hbm, ⟨33, _⟩ => ⟨S_, .i32⟩
  | .hbm, ⟨34, _⟩ => ⟨S500000, .i32⟩
  | .hbm, ⟨35, _⟩ => ⟨S500000, .i1⟩
  | .hbm, ⟨36, _⟩ => ⟨S_, .i32⟩
  | .hbm, ⟨37, _⟩ => ⟨S500000, .i32⟩
  | .hbm, ⟨38, _⟩ => ⟨S500000, .i32⟩
  | .hbm, ⟨39, _⟩ => ⟨S500000, .i32⟩
  | .hbm, ⟨40, _⟩ => ⟨S500000x1, .i32⟩
  | .hbm, ⟨41, _⟩ => ⟨S500000x256, .f32⟩
  | .hbm, ⟨42, _⟩ => ⟨S500000x256, .f32⟩
  | _, _ => ⟨S500000x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_cst_1 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst_2 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_call0_cst : Ref sig .tc := ⟨.hbm, 21, rfl⟩
abbrev main_call0_v0 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_cst_3 : Ref sig .tc := ⟨.hbm, 27, rfl⟩
abbrev main_v17 : Ref sig .tc := ⟨.hbm, 28, rfl⟩
abbrev main_v18 : Ref sig .tc := ⟨.hbm, 29, rfl⟩
abbrev main_cst_4 : Ref sig .tc := ⟨.hbm, 30, rfl⟩
abbrev main_v19 : Ref sig .tc := ⟨.hbm, 31, rfl⟩
abbrev main_v20 : Ref sig .tc := ⟨.hbm, 32, rfl⟩
abbrev main_c : Ref sig .tc := ⟨.hbm, 33, rfl⟩
abbrev main_v21 : Ref sig .tc := ⟨.hbm, 34, rfl⟩
abbrev main_v22 : Ref sig .tc := ⟨.hbm, 35, rfl⟩
abbrev main_c_5 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩

abbrev nD : Nat := 1
abbrev τ : Topo := Topo.v7x

variable {F : FTy → Type} [FloatOps F]

class Facts₀ : Prop where
  bcast_S_S512x256 : S_.BroadcastsInDim S512x256 (![] : Fin 0 → Fin S512x256.rank)
  bcast_S500000_S500000x1_0 : S500000.BroadcastsInDim S500000x1 (![0] : Fin 1 → Fin S500000x1.rank)
  bcast_S_S500000 : S_.BroadcastsInDim S500000 (![] : Fin 0 → Fin S500000.rank)
  bcast_S_S512 : S_.BroadcastsInDim S512 (![] : Fin 0 → Fin S512.rank)
  bcast_S512_S512x1_0 : S512.BroadcastsInDim S512x1 (![0] : Fin 1 → Fin S512x1.rank)
  bcast_S512x1_S512x256_0_1 : S512x1.BroadcastsInDim S512x256 (![0, 1] : Fin 2 → Fin S512x256.rank)
  bcast_S_S512x16 : S_.BroadcastsInDim S512x16 (![] : Fin 0 → Fin S512x16.rank)
  scatter_S512x256_S500000x1_S500000x256_1_0_0_1_wf : ScatterDims.WF S512x256 S500000x1 S500000x256 [1] [0] [0] 1
  scatter_S512_S500000x1_S500000_n_0_0_1_wf : ScatterDims.WF S512 S500000x1 S500000 [] [0] [0] 1
  dot_S512x256_S256x16_S512x16_1_0_0_1_n_n_wf : DotDims.WF S512x256 S256x16 S512x16 [1] [0] [0] [1] [] []
  dot_S512x16_S16x256_S512x256_1_0_0_1_n_n_wf : DotDims.WF S512x16 S16x256 S512x256 [1] [0] [0] [1] [] []
  gather_S512x256_S500000x1_S500000x256_1_0_n_n_0_1_1256_wf : GatherDims.WF S512x256 S500000x1 S500000x256 [1] [0] [] [0] [] 1 ![1, 256]

variable [Facts₀]

def scatter_S512x256_S500000x1_S500000x256_1_0_0_1 : ScatterDims S512x256 S500000x1 S500000x256 where
  updateWindowDims := [1]
  insertedWindowDims := [0]
  scatterDimsToOperandDims := [0]
  indexVectorDim := 1
  wf := scatter_S512x256_S500000x1_S500000x256_1_0_0_1_wf
def scatter_S512_S500000x1_S500000_n_0_0_1 : ScatterDims S512 S500000x1 S500000 where
  updateWindowDims := []
  insertedWindowDims := [0]
  scatterDimsToOperandDims := [0]
  indexVectorDim := 1
  wf := scatter_S512_S500000x1_S500000_n_0_0_1_wf
def dot_S512x256_S256x16_S512x16_1_0_0_1_n_n : DotDims S512x256 S256x16 S512x16 where
  lhsContracting := [1]
  rhsContracting := [0]
  lhsNonContracting := [0]
  rhsNonContracting := [1]
  lhsBatch := []
  rhsBatch := []
  wf := dot_S512x256_S256x16_S512x16_1_0_0_1_n_n_wf
def dot_S512x16_S16x256_S512x256_1_0_0_1_n_n : DotDims S512x16 S16x256 S512x256 where
  lhsContracting := [1]
  rhsContracting := [0]
  lhsNonContracting := [0]
  rhsNonContracting := [1]
  lhsBatch := []
  rhsBatch := []
  wf := dot_S512x16_S16x256_S512x256_1_0_0_1_n_n_wf
def gather_S512x256_S500000x1_S500000x256_1_0_n_n_0_1_1256 : GatherDims S512x256 S500000x1 S500000x256 where
  offsetDims := [1]
  collapsedSliceDims := [0]
  operandBatchingDims := []
  startIndicesBatchingDims := []
  startIndexMap := [0]
  indexVectorDim := 1
  sliceSizes := ![1, 256]
  wf := gather_S512x256_S500000x1_S500000x256_1_0_n_n_0_1_1256_wf

class Facts : Prop extends Facts₀ where

variable [Facts]
-- ==== Proof.K.Reg0.lean ====
/- The first kernel region (the segment sum, 245 grid points): the kernel keeps a running [512 × 256] accumulator in a
   scratch buffer of its own. At the first point the accumulator is reset to zero; at every point the payload of the
   point's graph-id block and rows block is added to it; at the last point it is copied to the output block, which is
   written back there and idle elsewhere. This module states, at a parameter `V` (the buffer contents when the region is
   entered), what the scratch holds after each point (`acc0`, by recursion on the point), the body's triple in each of the
   three control cases (first point, a middle point, last point), the region invariant that carries the scratch from
   point to point beside the other scoped buffers at unknown contents, and the pipeline's proof data with its body
   obligation. -/
import proofs.«417222_j31860067402236_1_alg».proof.Proof.Gen.Kernel.Launch
import proofs.«417222_j31860067402236_1_alg».proof.Proof.Gen.Kernel.Skeleton
import proofs.«417222_j31860067402236_1_alg».proof.Proof.Gen.Kernel.Points
import Idealize.ShloMosaic.Lib.Pipeline.FrameBody
import Idealize.ShloMosaic.Lib.Pipeline.Value
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The body's two conditions, in closed form -/

/-- The first condition of the body (reset the accumulator): the grid coordinate is 0. -/
abbrev cond0_0 (i : grid0.Coords) : Prop := (Scalar.cmpi .ne (Scalar.extui (Scalar.cmpi .eq (BitVec.ofNat 32 (i 0).val) 0#32)) 0#32) = 1#1
/-- It holds at the first point only. -/
theorem hcond0_0 : ∀ t : Fin cfg0.N, cond0_0 (grid0.coords t) ↔ t.val = 0 :=
  (by decide +kernel : ∀ t : Fin grid0.N, cond0_0 (grid0.coords t) ↔ t.val = 0)

/-- The second condition of the body (copy the accumulator out): the grid coordinate is 244. -/
abbrev cond0_1 (i : grid0.Coords) : Prop := k0_cond2 i = 1#1
/-- It holds at the last point only. -/
theorem hcond0_1 : ∀ t : Fin cfg0.N, cond0_1 (grid0.coords t) ↔ t.val = 244 :=
  (by decide +kernel : ∀ t : Fin grid0.N, cond0_1 (grid0.coords t) ↔ t.val = 244)

/-! ## Where the windows are idle -/

theorem liveAt0_0 : ∀ t : Fin cfg0.N, cfg0.idle 0 (grid0.coords t) = false := by decide +kernel
theorem liveAt0_1 : ∀ t : Fin cfg0.N, cfg0.idle 1 (grid0.coords t) = false := by decide +kernel
/-- Off the last point the output window is idle and not written back. -/
theorem idleAt0_2 : ∀ t : Fin cfg0.N, ¬cond0_1 (grid0.coords t) → cfg0.idle 2 (grid0.coords t) = true := by decide +kernel
theorem noFlush0_2 : ∀ t : Fin cfg0.N, ¬cond0_1 (grid0.coords t) → (cfg0.win 2).flush t = false := by decide +kernel
/-- At the last point it is live. -/
theorem liveAt0_2 : ∀ t : Fin cfg0.N, cond0_1 (grid0.coords t) → cfg0.idle 2 (grid0.coords t) = false := by decide +kernel

/-! ## The staging memrefs, the scratch, the other scoped buffers -/

/-- Each window's current staging memref at point `t`, as the pipeline passes it to the body, and its wholeness. -/
abbrev ms0_0 (t : Fin cfg0.N) : Memref sig .tc .vmem S2048x256 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S2048x1 .i32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S512x256 .f32 := win0_2.stage (cfg0.slots t 2)
abbrev hs0_2 (t : Fin cfg0.N) : (ms0_2 t).IsWhole := hstage0_2 ((cfg0.slots t 2).cast nbuf0_2)
/-- The scratch operand: a whole scoped buffer of the kernel's own, carried from point to point. -/
abbrev scM0_0 : Memref sig .tc .vmem S512x256 .f32 := Memref.whole cc0_scratch0
/-- The same as a view, through which its contents are stated. -/
abbrev VS0_0 : View sig .tc .vmem S512x256 .f32 := scM0_0.view
/-- One staging buffer of the output window, through which its contents are stated. -/
abbrev VO0_2 : View sig .tc .vmem S512x256 .f32 := (Memref.whole cc0_stg2_0 : Memref sig .tc .vmem S512x256 .f32).view

/-- The eleven scoped buffers of the core that are neither a staging buffer of this region nor its scratch, each at
    some contents: this region never touches them. -/
def r0_others (c : Dev nD) : sProp 𝕄 :=
  iprop((∃ f : Buf (Elt F) ((c : Thread nD τ).loc cc1_stg0_0), ((c : Thread nD τ).loc cc1_stg0_0) ↦{fullShare} f) ∗ (∃ f : Buf (Elt F) ((c : Thread nD τ).loc cc1_stg1_0), ((c : Thread nD τ).loc cc1_stg1_0) ↦{fullShare} f) ∗ (∃ f : Buf (Elt F) ((c : Thread nD τ).loc cc1_stg2_0), ((c : Thread nD τ).loc cc1_stg2_0) ↦{fullShare} f) ∗ (∃ f : Buf (Elt F) ((c : Thread nD τ).loc cc1_stg3_0), ((c : Thread nD τ).loc cc1_stg3_0) ↦{fullShare} f) ∗ (∃ f : Buf (Elt F) ((c : Thread nD τ).loc cc2_stg0_0), ((c : Thread nD τ).loc cc2_stg0_0) ↦{fullShare} f) ∗ (∃ f : Buf (Elt F) ((c : Thread nD τ).loc cc2_stg0_1), ((c : Thread nD τ).loc cc2_stg0_1) ↦{fullShare} f) ∗ (∃ f : Buf (Elt F) ((c : Thread nD τ).loc cc2_stg1_0), ((c : Thread nD τ).loc cc2_stg1_0) ↦{fullShare} f) ∗ (∃ f : Buf (Elt F) ((c : Thread nD τ).loc cc2_stg1_1), ((c : Thread nD τ).loc cc2_stg1_1) ↦{fullShare} f) ∗ (∃ f : Buf (Elt F) ((c : Thread nD τ).loc cc2_stg2_0), ((c : Thread nD τ).loc cc2_stg2_0) ↦{fullShare} f) ∗ (∃ f : Buf (Elt F) ((c : Thread nD τ).loc cc2_stg3_0), ((c : Thread nD τ).loc cc2_stg3_0) ↦{fullShare} f) ∗ (∃ f : Buf (Elt F) ((c : Thread nD τ).loc cc2_stg3_1), ((c : Thread nD τ).loc cc2_stg3_1) ↦{fullShare} f))

/-- What the launch hands the region: the scratch as a memref owned at some contents, the other scoped buffers, and
    the generator register at some state. -/
theorem PhiA0_eq (c : Dev nD) :
    (Pipeline.ΦA spec0 c : sProp 𝕄)
      = iprop(iprop((∃ d, owns (c : Thread nD τ) scM0_0 fullShare d) ∗ r0_others (F := F) c) ∗ (∃ r, prngReg c r)) := by
  unfold Pipeline.ΦA; rw [scopedRest0_eq]; unfold r0_others; simp only [scM0_0, owns_whole]; try rfl

/-! ## The body in its three cases, on any whole memrefs -/

set_option maxHeartbeats 1000000 in
/-- FIRST POINT (reset taken, copy-out not taken). On whole memrefs — the two inputs' at their contents, the output's at
    contents handed back untouched, the scratch at anything — the body runs to the continuation holding the inputs' and
    the output's as they were and the scratch with the pieces of its two stores written (the list is the witness the
    run finds). -/
noncomputable def r0_runA (c : Dev nD) (i : grid0.Coords) (arg1 : Memref sig .tc .vmem S2048x256 .f32) (harg1 : arg1.IsWhole) (arg2 : Memref sig .tc .vmem S2048x1 .i32) (harg2 : arg2.IsWhole) (arg3 : Memref sig .tc .vmem S512x256 .f32) (harg3 : arg3.IsWhole) (arg4 : Memref sig .tc .vmem S512x256 .f32) (harg4 : arg4.IsWhole) (hc0 : cond0_0 i) (hc1 : ¬cond0_1 i)
    (x0 : Vec F S2048x256 .f32) (x1 : Vec F S2048x1 .i32) :
    { LS0 : List (View.Piece (Elt F) S512x256 .f32) //
      ∀ (xi2 : Vec F S512x256 .f32) (E : Set ℕ) (K : PUnit → sProp 𝕄),
        iprop(owns (c : Thread nD τ) arg1 fullShare x0 ∗ owns (c : Thread nD τ) arg2 fullShare x1 ∗ owns (c : Thread nD τ) arg3 fullShare xi2 ∗ (∃ d, owns (c : Thread nD τ) arg4 fullShare d)
            ∗ (iprop(owns (c : Thread nD τ) arg1 fullShare x0 ∗ owns (c : Thread nD τ) arg2 fullShare x1 ∗ owns (c : Thread nD τ) arg3 fullShare xi2 ∗ (∃ f, arg4.view.loc (c : Thread nD τ) ↦[arg4.view.set]{fullShare} arg4.view.writes (Elt F) f LS0)) -∗ K ⟨⟩))
          ⊢ wp frame (wpE (defs₀ (F := F)) Variants.none c none) E (cc0__segsum_kernel i arg1 harg1 arg2 harg2 arg3 harg3 arg4 harg4) K } := by
  refine ⟨?_, fun xi2 E K => ?run⟩
  case run =>
    simp only [cc0__segsum_kernel_eq_skeleton]; unfold cc0__segsum_kernel_skel
    unfold owns
    iintro ⟨⟨%f0, %hf0, H0⟩, ⟨%f1, %hf1, H1⟩, ⟨%f2, %hf2, H2⟩, ⟨%ds0, %fs0, -, HS0⟩, Hk⟩
    obtain rfl := harg1.eq_unread hf0; obtain rfl := harg2.eq_unread hf1; obtain rfl := harg3.eq_unread hf2
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    iexists _; iexact HS0

set_option maxHeartbeats 1000000 in
/-- A MIDDLE POINT (neither taken). As the first point, but the scratch is handed in at the contents the point before
    left, which the one store's payload reads. -/
noncomputable def r0_runB (c : Dev nD) (i : grid0.Coords) (arg1 : Memref sig .tc .vmem S2048x256 .f32) (harg1 : arg1.IsWhole) (arg2 : Memref sig .tc .vmem S2048x1 .i32) (harg2 : arg2.IsWhole) (arg3 : Memref sig .tc .vmem S512x256 .f32) (harg3 : arg3.IsWhole) (arg4 : Memref sig .tc .vmem S512x256 .f32) (harg4 : arg4.IsWhole) (hc0 : ¬cond0_0 i) (hc1 : ¬cond0_1 i)
    (x0 : Vec F S2048x256 .f32) (x1 : Vec F S2048x1 .i32) (xs0 : Vec F S512x256 .f32) :
    { LS0 : List (View.Piece (Elt F) S512x256 .f32) //
      ∀ (xi2 : Vec F S512x256 .f32) (E : Set ℕ) (K : PUnit → sProp 𝕄),
        iprop(owns (c : Thread nD τ) arg1 fullShare x0 ∗ owns (c : Thread nD τ) arg2 fullShare x1 ∗ owns (c : Thread nD τ) arg3 fullShare xi2 ∗ owns (c : Thread nD τ) arg4 fullShare xs0
            ∗ (iprop(owns (c : Thread nD τ) arg1 fullShare x0 ∗ owns (c : Thread nD τ) arg2 fullShare x1 ∗ owns (c : Thread nD τ) arg3 fullShare xi2 ∗ (∃ f, arg4.view.loc (c : Thread nD τ) ↦[arg4.view.set]{fullShare} arg4.view.writes (Elt F) f LS0)) -∗ K ⟨⟩))
          ⊢ wp frame (wpE (defs₀ (F := F)) Variants.none c none) E (cc0__segsum_kernel i arg1 harg1 arg2 harg2 arg3 harg3 arg4 harg4) K } := by
  refine ⟨?_, fun xi2 E K => ?run⟩
  case run =>
    simp only [cc0__segsum_kernel_eq_skeleton]; unfold cc0__segsum_kernel_skel
    unfold owns
    iintro ⟨⟨%f0, %hf0, H0⟩, ⟨%f1, %hf1, H1⟩, ⟨%f2, %hf2, H2⟩, ⟨%fs0, %hfs0, HS0⟩, Hk⟩
    obtain rfl := harg1.eq_unread hf0; obtain rfl := harg2.eq_unread hf1; obtain rfl := harg3.eq_unread hf2
    obtain rfl := harg4.eq_unread hfs0
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    iexists _; iexact HS0

set_option maxHeartbeats 1000000 in
/-- THE LAST POINT (reset not taken, copy-out taken). The output's memref is handed in at anything and comes back with
    the pieces of its one store written; the scratch as at a middle point. -/
noncomputable def r0_runC (c : Dev nD) (i : grid0.Coords) (arg1 : Memref sig .tc .vmem S2048x256 .f32) (harg1 : arg1.IsWhole) (arg2 : Memref sig .tc .vmem S2048x1 .i32) (harg2 : arg2.IsWhole) (arg3 : Memref sig .tc .vmem S512x256 .f32) (harg3 : arg3.IsWhole) (arg4 : Memref sig .tc .vmem S512x256 .f32) (harg4 : arg4.IsWhole) (hc0 : ¬cond0_0 i) (hc1 : cond0_1 i)
    (x0 : Vec F S2048x256 .f32) (x1 : Vec F S2048x1 .i32) (xs0 : Vec F S512x256 .f32) :
    Σ' (L2 : List (View.Piece (Elt F) S512x256 .f32)), { LS0 : List (View.Piece (Elt F) S512x256 .f32) //
      ∀ (E : Set ℕ) (K : PUnit → sProp 𝕄),
        iprop(owns (c : Thread nD τ) arg1 fullShare x0 ∗ owns (c : Thread nD τ) arg2 fullShare x1 ∗ (∃ d, owns (c : Thread nD τ) arg3 fullShare d) ∗ owns (c : Thread nD τ) arg4 fullShare xs0
            ∗ (iprop(owns (c : Thread nD τ) arg1 fullShare x0 ∗ owns (c : Thread nD τ) arg2 fullShare x1 ∗ (∃ f, arg3.view.loc (c : Thread nD τ) ↦[arg3.view.set]{fullShare} arg3.view.writes (Elt F) f L2) ∗ (∃ f, arg4.view.loc (c : Thread nD τ) ↦[arg4.view.set]{fullShare} arg4.view.writes (Elt F) f LS0)) -∗ K ⟨⟩))
          ⊢ wp frame (wpE (defs₀ (F := F)) Variants.none c none) E (cc0__segsum_kernel i arg1 harg1 arg2 harg2 arg3 harg3 arg4 harg4) K } := by
  refine ⟨?_, ?_, fun E K => ?run⟩
  case run =>
    simp only [cc0__segsum_kernel_eq_skeleton]; unfold cc0__segsum_kernel_skel
    unfold owns
    iintro ⟨⟨%f0, %hf0, H0⟩, ⟨%f1, %hf1, H1⟩, ⟨%d2, %f2, -, H2⟩, ⟨%fs0, %hfs0, HS0⟩, Hk⟩
    obtain rfl := harg1.eq_unread hf0; obtain rfl := harg2.eq_unread hf1
    obtain rfl := harg4.eq_unread hfs0
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]; · iexists _; iexact H2
    iexists _; iexact HS0

/-! ## What each case leaves, as a value -/

theorem r0_hz : (![0, 0] : Fin 2 → Nat) = fun _ => 0 := funext fun a => by fin_cases a <;> rfl

/-- The first point's stores cover the scratch. -/
theorem r0_scoverA (c : Dev nD) (i : grid0.Coords) (arg1 : Memref sig .tc .vmem S2048x256 .f32) (harg1 : arg1.IsWhole) (arg2 : Memref sig .tc .vmem S2048x1 .i32) (harg2 : arg2.IsWhole) (arg3 : Memref sig .tc .vmem S512x256 .f32) (harg3 : arg3.IsWhole) (arg4 : Memref sig .tc .vmem S512x256 .f32) (harg4 : arg4.IsWhole) (hc0 : cond0_0 i) (hc1 : ¬cond0_1 i)
    (x0 : Vec F S2048x256 .f32) (x1 : Vec F S2048x1 .i32) (y : S512x256.Idx) :
    ∃ pc ∈ (r0_runA c i arg1 harg1 arg2 harg2 arg3 harg3 arg4 harg4 hc0 hc1 x0 x1).1, y ∈ pc.1.set :=
  View.cover_of_tiledL (r0_runA c i arg1 harg1 arg2 harg2 arg3 harg3 arg4 harg4 hc0 hc1 x0 x1).1 S512x256.size (by sl_kernel_rfl) y

/-- What the first point leaves in the scratch: its pieces read back. -/
def r0_soutA (c : Dev nD) (i : grid0.Coords) (arg1 : Memref sig .tc .vmem S2048x256 .f32) (harg1 : arg1.IsWhole) (arg2 : Memref sig .tc .vmem S2048x1 .i32) (harg2 : arg2.IsWhole) (arg3 : Memref sig .tc .vmem S512x256 .f32) (harg3 : arg3.IsWhole) (arg4 : Memref sig .tc .vmem S512x256 .f32) (harg4 : arg4.IsWhole) (hc0 : cond0_0 i) (hc1 : ¬cond0_1 i)
    (x0 : Vec F S2048x256 .f32) (x1 : Vec F S2048x1 .i32) : Vec F S512x256 .f32 :=
  VS0_0.read (Elt F) (VS0_0.writes (Elt F) VS0_0.junk (r0_runA c i arg1 harg1 arg2 harg2 arg3 harg3 arg4 harg4 hc0 hc1 x0 x1).1)

/-- It is the payload of the two blocks over the zero block the reset stored. -/
theorem r0_soutA_eq (c : Dev nD) (i : grid0.Coords) (arg1 : Memref sig .tc .vmem S2048x256 .f32) (harg1 : arg1.IsWhole) (arg2 : Memref sig .tc .vmem S2048x1 .i32) (harg2 : arg2.IsWhole) (arg3 : Memref sig .tc .vmem S512x256 .f32) (harg3 : arg3.IsWhole) (arg4 : Memref sig .tc .vmem S512x256 .f32) (harg4 : arg4.IsWhole) (hc0 : cond0_0 i) (hc1 : ¬cond0_1 i)
    (x0 : Vec F S2048x256 .f32) (x1 : Vec F S2048x1 .i32) :
    r0_soutA c i arg1 harg1 arg2 harg2 arg3 harg3 arg4 harg4 hc0 hc1 x0 x1 = k0_pay2 x1 x0 (k0_pay1 (F := F)) := by
  unfold r0_soutA
  rw [View.read_writes_eq_canon _ _ _ (r0_scoverA c i arg1 harg1 arg2 harg2 arg3 harg3 arg4 harg4 hc0 hc1 x0 x1)]
  unfold r0_runA
  dsimp only
  sl_unfold_words
  rw [View.canon_cons_unit_zero (S := S512x256) r0_hz, View.readCov_unit_zero (S := S512x256) _ r0_hz]
  simp only [View.readAt_eq_ld, harg1.read_unread, harg2.read_unread, View.ld_unit_zero (S := S2048x256) r0_hz, View.ld_unit_zero (S := S2048x1) r0_hz]

/-- A middle point's one store covers the scratch. -/
theorem r0_scoverB (c : Dev nD) (i : grid0.Coords) (arg1 : Memref sig .tc .vmem S2048x256 .f32) (harg1 : arg1.IsWhole) (arg2 : Memref sig .tc .vmem S2048x1 .i32) (harg2 : arg2.IsWhole) (arg3 : Memref sig .tc .vmem S512x256 .f32) (harg3 : arg3.IsWhole) (arg4 : Memref sig .tc .vmem S512x256 .f32) (harg4 : arg4.IsWhole) (hc0 : ¬cond0_0 i) (hc1 : ¬cond0_1 i)
    (x0 : Vec F S2048x256 .f32) (x1 : Vec F S2048x1 .i32) (xs0 : Vec F S512x256 .f32) (y : S512x256.Idx) :
    ∃ pc ∈ (r0_runB c i arg1 harg1 arg2 harg2 arg3 harg3 arg4 harg4 hc0 hc1 x0 x1 xs0).1, y ∈ pc.1.set :=
  View.cover_of_tiledL (r0_runB c i arg1 harg1 arg2 harg2 arg3 harg3 arg4 harg4 hc0 hc1 x0 x1 xs0).1 S512x256.size (by sl_kernel_rfl) y

/-- What a middle point leaves in the scratch. -/
def r0_soutB (c : Dev nD) (i : grid0.Coords) (arg1 : Memref sig .tc .vmem S2048x256 .f32) (harg1 : arg1.IsWhole) (arg2 : Memref sig .tc .vmem S2048x1 .i32) (harg2 : arg2.IsWhole) (arg3 : Memref sig .tc .vmem S512x256 .f32) (harg3 : arg3.IsWhole) (arg4 : Memref sig .tc .vmem S512x256 .f32) (harg4 : arg4.IsWhole) (hc0 : ¬cond0_0 i) (hc1 : ¬cond0_1 i)
    (x0 : Vec F S2048x256 .f32) (x1 : Vec F S2048x1 .i32) (xs0 : Vec F S512x256 .f32) : Vec F S512x256 .f32 :=
  VS0_0.read (Elt F) (VS0_0.writes (Elt F) VS0_0.junk (r0_runB c i arg1 harg1 arg2 harg2 arg3 harg3 arg4 harg4 hc0 hc1 x0 x1 xs0).1)

/-- It is the payload of the two blocks over what the scratch held. -/
theorem r0_soutB_eq (c : Dev nD) (i : grid0.Coords) (arg1 : Memref sig .tc .vmem S2048x256 .f32) (harg1 : arg1.IsWhole) (arg2 : Memref sig .tc .vmem S2048x1 .i32) (harg2 : arg2.IsWhole) (arg3 : Memref sig .tc .vmem S512x256 .f32) (harg3 : arg3.IsWhole) (arg4 : Memref sig .tc .vmem S512x256 .f32) (harg4 : arg4.IsWhole) (hc0 : ¬cond0_0 i) (hc1 : ¬cond0_1 i)
    (x0 : Vec F S2048x256 .f32) (x1 : Vec F S2048x1 .i32) (xs0 : Vec F S512x256 .f32) :
    r0_soutB c i arg1 harg1 arg2 harg2 arg3 harg3 arg4 harg4 hc0 hc1 x0 x1 xs0 = k0_pay2 x1 x0 xs0 := by
  unfold r0_soutB
  rw [View.read_writes_eq_canon _ _ _ (r0_scoverB c i arg1 harg1 arg2 harg2 arg3 harg3 arg4 harg4 hc0 hc1 x0 x1 xs0)]
  unfold r0_runB
  dsimp only
  sl_unfold_words
  rw [View.canon_cons_unit_zero (S := S512x256) r0_hz]
  simp only [View.readAt_eq_ld, harg1.read_unread, harg2.read_unread, harg4.read_unread, View.ld_unit_zero (S := S2048x256) r0_hz, View.ld_unit_zero (S := S2048x1) r0_hz, View.ld_unit_zero (S := S512x256) r0_hz]

/-- The last point's one store into the scratch covers it, -/
theorem r0_scoverC (c : Dev nD) (i : grid0.Coords) (arg1 : Memref sig .tc .vmem S2048x256 .f32) (harg1 : arg1.IsWhole) (arg2 : Memref sig .tc .vmem S2048x1 .i32) (harg2 : arg2.IsWhole) (arg3 : Memref sig .tc .vmem S512x256 .f32) (harg3 : arg3.IsWhole) (arg4 : Memref sig .tc .vmem S512x256 .f32) (harg4 : arg4.IsWhole) (hc0 : ¬cond0_0 i) (hc1 : cond0_1 i)
    (x0 : Vec F S2048x256 .f32) (x1 : Vec F S2048x1 .i32) (xs0 : Vec F S512x256 .f32) (y : S512x256.Idx) :
    ∃ pc ∈ (r0_runC c i arg1 harg1 arg2 harg2 arg3 harg3 arg4 harg4 hc0 hc1 x0 x1 xs0).2.1, y ∈ pc.1.set :=
  View.cover_of_tiledL (r0_runC c i arg1 harg1 arg2 harg2 arg3 harg3 arg4 harg4 hc0 hc1 x0 x1 xs0).2.1 S512x256.size (by sl_kernel_rfl) y

/-- and its one store into the output block covers that. -/
theorem r0_coverC (c : Dev nD) (i : grid0.Coords) (arg1 : Memref sig .tc .vmem S2048x256 .f32) (harg1 : arg1.IsWhole) (arg2 : Memref sig .tc .vmem S2048x1 .i32) (harg2 : arg2.IsWhole) (arg3 : Memref sig .tc .vmem S512x256 .f32) (harg3 : arg3.IsWhole) (arg4 : Memref sig .tc .vmem S512x256 .f32) (harg4 : arg4.IsWhole) (hc0 : ¬cond0_0 i) (hc1 : cond0_1 i)
    (x0 : Vec F S2048x256 .f32) (x1 : Vec F S2048x1 .i32) (xs0 : Vec F S512x256 .f32) (y : S512x256.Idx) :
    ∃ pc ∈ (r0_runC c i arg1 harg1 arg2 harg2 arg3 harg3 arg4 harg4 hc0 hc1 x0 x1 xs0).1, y ∈ pc.1.set :=
  View.cover_of_tiledL (r0_runC c i arg1 harg1 arg2 harg2 arg3 harg3 arg4 harg4 hc0 hc1 x0 x1 xs0).1 S512x256.size (by sl_kernel_rfl) y

/-- What the last point leaves in the scratch, -/
def r0_soutC (c : Dev nD) (i : grid0.Coords) (arg1 : Memref sig .tc .vmem S2048x256 .f32) (harg1 : arg1.IsWhole) (arg2 : Memref sig .tc .vmem S2048x1 .i32) (harg2 : arg2.IsWhole) (arg3 : Memref sig .tc .vmem S512x256 .f32) (harg3 : arg3.IsWhole) (arg4 : Memref sig .tc .vmem S512x256 .f32) (harg4 : arg4.IsWhole) (hc0 : ¬cond0_0 i) (hc1 : cond0_1 i)
    (x0 : Vec F S2048x256 .f32) (x1 : Vec F S2048x1 .i32) (xs0 : Vec F S512x256 .f32) : Vec F S512x256 .f32 :=
  VS0_0.read (Elt F) (VS0_0.writes (Elt F) VS0_0.junk (r0_runC c i arg1 harg1 arg2 harg2 arg3 harg3 arg4 harg4 hc0 hc1 x0 x1 xs0).2.1)

/-- and in the output block. -/
def r0_outC (c : Dev nD) (i : grid0.Coords) (arg1 : Memref sig .tc .vmem S2048x256 .f32) (harg1 : arg1.IsWhole) (arg2 : Memref sig .tc .vmem S2048x1 .i32) (harg2 : arg2.IsWhole) (arg3 : Memref sig .tc .vmem S512x256 .f32) (harg3 : arg3.IsWhole) (arg4 : Memref sig .tc .vmem S512x256 .f32) (harg4 : arg4.IsWhole) (hc0 : ¬cond0_0 i) (hc1 : cond0_1 i)
    (x0 : Vec F S2048x256 .f32) (x1 : Vec F S2048x1 .i32) (xs0 : Vec F S512x256 .f32) : Vec F S512x256 .f32 :=
  VO0_2.read (Elt F) (VO0_2.writes (Elt F) VO0_2.junk (r0_runC c i arg1 harg1 arg2 harg2 arg3 harg3 arg4 harg4 hc0 hc1 x0 x1 xs0).1)

/-- The scratch: the payload over what it held, as at a middle point. -/
theorem r0_soutC_eq (c : Dev nD) (i : grid0.Coords) (arg1 : Memref sig .tc .vmem S2048x256 .f32) (harg1 : arg1.IsWhole) (arg2 : Memref sig .tc .vmem S2048x1 .i32) (harg2 : arg2.IsWhole) (arg3 : Memref sig .tc .vmem S512x256 .f32) (harg3 : arg3.IsWhole) (arg4 : Memref sig .tc .vmem S512x256 .f32) (harg4 : arg4.IsWhole) (hc0 : ¬cond0_0 i) (hc1 : cond0_1 i)
    (x0 : Vec F S2048x256 .f32) (x1 : Vec F S2048x1 .i32) (xs0 : Vec F S512x256 .f32) :
    r0_soutC c i arg1 harg1 arg2 harg2 arg3 harg3 arg4 harg4 hc0 hc1 x0 x1 xs0 = k0_pay2 x1 x0 xs0 := by
  unfold r0_soutC
  rw [View.read_writes_eq_canon _ _ _ (r0_scoverC c i arg1 harg1 arg2 harg2 arg3 harg3 arg4 harg4 hc0 hc1 x0 x1 xs0)]
  unfold r0_runC
  dsimp only
  sl_unfold_words
  rw [View.canon_cons_unit_zero (S := S512x256) r0_hz]
  simp only [View.readAt_eq_ld, harg1.read_unread, harg2.read_unread, harg4.read_unread, View.ld_unit_zero (S := S2048x256) r0_hz, View.ld_unit_zero (S := S2048x1) r0_hz, View.ld_unit_zero (S := S512x256) r0_hz]

/-- The output block: the scratch read back after that store, the same value. -/
theorem r0_outC_eq (c : Dev nD) (i : grid0.Coords) (arg1 : Memref sig .tc .vmem S2048x256 .f32) (harg1 : arg1.IsWhole) (arg2 : Memref sig .tc .vmem S2048x1 .i32) (harg2 : arg2.IsWhole) (arg3 : Memref sig .tc .vmem S512x256 .f32) (harg3 : arg3.IsWhole) (arg4 : Memref sig .tc .vmem S512x256 .f32) (harg4 : arg4.IsWhole) (hc0 : ¬cond0_0 i) (hc1 : cond0_1 i)
    (x0 : Vec F S2048x256 .f32) (x1 : Vec F S2048x1 .i32) (xs0 : Vec F S512x256 .f32) :
    r0_outC c i arg1 harg1 arg2 harg2 arg3 harg3 arg4 harg4 hc0 hc1 x0 x1 xs0 = k0_pay2 x1 x0 xs0 := by
  unfold r0_outC
  rw [View.read_writes_eq_canon _ _ _ (r0_coverC c i arg1 harg1 arg2 harg2 arg3 harg3 arg4 harg4 hc0 hc1 x0 x1 xs0)]
  unfold r0_runC
  dsimp only
  sl_unfold_words
  rw [View.canon_cons_unit_zero (S := S512x256) r0_hz, View.readCov_unit_zero (S := S512x256) _ r0_hz]
  simp only [View.readAt_eq_ld, harg1.read_unread, harg2.read_unread, harg4.read_unread, View.ld_unit_zero (S := S2048x256) r0_hz, View.ld_unit_zero (S := S2048x1) r0_hz, View.ld_unit_zero (S := S512x256) r0_hz]

section
variable (V : (c : Dev nD) → (b : Ref sig .tc) → Buf (Elt F) ((c : Thread nD τ).loc b))

/-! ## The windows' blocks and the running accumulator -/

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- An input window's current staging buffer holds its block at every point. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-- THE ACCUMULATION. What the scratch holds after point `n`: after the first point the payload of its two blocks over
    the zero block; after a later point the payload of its two blocks over what the point before left. -/
def acc0 (c : Dev nD) : (n : ℕ) → n < cfg0.N → Vec F S512x256 .f32
  | 0, h => k0_pay2 (iblk0 V c 1 ⟨0, h⟩) (iblk0 V c 0 ⟨0, h⟩) (k0_pay1 (F := F))
  | n + 1, h => k0_pay2 (iblk0 V c 1 ⟨n + 1, h⟩) (iblk0 V c 0 ⟨n + 1, h⟩) (acc0 c n (Nat.lt_of_succ_lt h))

theorem acc0_zero (c : Dev nD) (h : 0 < cfg0.N) :
    acc0 V c 0 h = k0_pay2 (iblk0 V c 1 ⟨0, h⟩) (iblk0 V c 0 ⟨0, h⟩) (k0_pay1 (F := F)) := rfl
theorem acc0_succ (c : Dev nD) (n : ℕ) (h : n + 1 < cfg0.N) :
    acc0 V c (n + 1) h = k0_pay2 (iblk0 V c 1 ⟨n + 1, h⟩) (iblk0 V c 0 ⟨n + 1, h⟩) (acc0 V c n (Nat.lt_of_succ_lt h)) := rfl

/-- At the first point, stated at the point. -/
theorem r0_acc_first (c : Dev nD) (t : Fin cfg0.N) (hz : t.val = 0) :
    acc0 V c t.val t.isLt = k0_pay2 (iblk0 V c 1 t) (iblk0 V c 0 t) (k0_pay1 (F := F)) := by
  obtain ⟨n, hn⟩ := t
  cases n with
  | zero => rfl
  | succ n => exact absurd hz (Nat.succ_ne_zero n)

/-- At a later point, stated at the point. -/
theorem r0_acc_later (c : Dev nD) (t : Fin cfg0.N) (hz : t.val ≠ 0) :
    acc0 V c t.val t.isLt = k0_pay2 (iblk0 V c 1 t) (iblk0 V c 0 t) (acc0 V c (t.val - 1) (Nat.lt_of_le_of_lt (Nat.sub_le _ _) t.isLt)) := by
  obtain ⟨n, hn⟩ := t
  cases n with
  | zero => exact absurd rfl hz
  | succ n => rfl

/-! ## The region invariant -/

/-- Before position `n`: before the first point what the launch hands over (the scratch at anything); afterwards the
    scratch at what the point before left in it, the other scoped buffers at some contents, and the generator register
    at some state. -/
def PhiS0 (c : Dev nD) : (n : ℕ) → n ≤ cfg0.N → sProp 𝕄
  | 0, _ => Pipeline.ΦA spec0 c
  | n + 1, hn => iprop(iprop(owns (c : Thread nD τ) scM0_0 fullShare (acc0 V c n hn) ∗ r0_others (F := F) c) ∗ (∃ r, prngReg c r))

theorem PhiS0_zero (c : Dev nD) (n : ℕ) (h : n ≤ cfg0.N) (hz : n = 0) : PhiS0 V c n h = Pipeline.ΦA spec0 c := by
  subst hz; rfl

theorem PhiS0_succ (c : Dev nD) (n : ℕ) (hn : n < cfg0.N) :
    PhiS0 V c (n + 1) hn = iprop(iprop(owns (c : Thread nD τ) scM0_0 fullShare (acc0 V c n hn) ∗ r0_others (F := F) c) ∗ (∃ r, prngReg c r)) := rfl

theorem PhiS0_pos (c : Dev nD) (n : ℕ) (h : n ≤ cfg0.N) (hz : n ≠ 0) :
    PhiS0 V c n h = iprop(iprop(owns (c : Thread nD τ) scM0_0 fullShare (acc0 V c (n - 1) (by omega)) ∗ r0_others (F := F) c) ∗ (∃ r, prngReg c r)) := by
  cases n with
  | zero => exact absurd rfl hz
  | succ n => rfl

/-! ## The pipeline's proof data -/

/-- The proof data of the region on core `c`: the arrays as the region finds them; after the body at point `t` each
    input's buffer at its block, the output's at the accumulator (it is stored at the last point only; elsewhere the
    window is idle and nothing consults this); the invariant `PhiS0`; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => acc0 V c t.val t.isLt
  Φ t := PhiS0 V c t.val (Nat.le_of_lt_succ t.isLt)
  q _ := fullShare
  owed _ := 0

theorem A_eq0 (c : Dev nD) (w : Fin cfg0.W) : (dat0 V c).A w = V c (Pipeline.arrRef spec0 w) := by
  dsimp only [dat0]

theorem PhiS0_castSucc (c : Dev nD) (t : Fin cfg0.N) :
    (dat0 V c).Φ t.castSucc = PhiS0 V c t.val (Nat.le_of_lt t.isLt) := by
  dsimp only [dat0]; simp only [Fin.coe_castSucc]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = acc0 V c t.val t.isLt := by dsimp only [dat0]
theorem after0_2_last (c : Dev nD) (t : Fin cfg0.N) (ht : t.val = 244) : (dat0 V c).after 2 t = acc0 V c t.val t.isLt :=
  after0_2 V c t

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d

/-! ## The body obligation, at a generic point -/

/-- What the body is called with at point `t`, the windows one by one, -/
def bodyPre0 (c : Dev nD) (t : Fin cfg0.N) : sProp 𝕄 :=
  iprop((dat0 V c).Φ t.castSucc ∗ (dat0 V c).owesAt () t.castSucc
    ∗ (∃ d, owns (c : Thread nD τ) (ms0_0 t) fullShare ((dat0 V c).before 0 t d))
    ∗ (∃ d, owns (c : Thread nD τ) (ms0_1 t) fullShare ((dat0 V c).before 1 t d))
    ∗ (∃ d, owns (c : Thread nD τ) (ms0_2 t) fullShare ((dat0 V c).before 2 t d)))

/-- and what it returns. -/
def bodyPost0 (c : Dev nD) (t : Fin cfg0.N) : sProp 𝕄 :=
  iprop((dat0 V c).Φ t.succ ∗ (dat0 V c).owesAt () t.succ
    ∗ (dat0 V c).leavesExact 0 t
    ∗ (dat0 V c).leavesExact 1 t
    ∗ (dat0 V c).leavesExact 2 t)

set_option maxHeartbeats 4800000 in
/-- The body at any point. The inputs' memrefs hold their blocks; the closed forms of the two conditions say which of
    the three cases the point is in; the invariant hands the body the scratch at what the point before left (at anything
    at the first point) and takes it back at this point's accumulator; the other scoped buffers and the generator
    register pass through; off the last point the output's buffer is handed back untouched, at the last point it holds
    the accumulator. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1]
  rw [show (dat0 V c).owesAt () t.succ = (dat0 V c).owesAt () t.castSucc from rfl]
  rw [show (dat0 V c).Φ t.succ = PhiS0 V c (t.val + 1) t.isLt from rfl, PhiS0_succ]
  rw [show (dat0 V c).leavesExact 0 t = owns (c : Thread nD τ) (ms0_0 t) fullShare ((dat0 V c).after 0 t) from by
    unfold Dat.leavesExact; rw [liveAt0_0 t], after0_0]
  rw [show (dat0 V c).leavesExact 1 t = owns (c : Thread nD τ) (ms0_1 t) fullShare ((dat0 V c).after 1 t) from by
    unfold Dat.leavesExact; rw [liveAt0_1 t], after0_1]
  have hN : t.val < 245 := lt_of_lt_of_eq t.isLt (show cfg0.N = 245 from N_0)
  by_cases h0 : t.val = 0
  · have hc0 : cond0_0 (grid0.coords t) := (hcond0_0 t).mpr h0
    have hc1 : ¬cond0_1 (grid0.coords t) := fun h => by have := (hcond0_1 t).mp h; omega
    rw [Dat.leavesExact_idle (dat0 V c) 2 t (idleAt0_2 t hc1) (noFlush0_2 t hc1)]
    rw [r0_acc_first V c t h0]
    rw [PhiS0_castSucc V c t, PhiS0_zero V c _ _ h0, PhiA0_eq]
    iintro ⟨⟨⟨HS0, Hr⟩, Hg⟩, Ho, ⟨%d0, H0⟩, ⟨%d1, H1⟩, ⟨%d2, H2⟩⟩
    iapply ((r0_runA c (grid0.coords t) (ms0_0 t) (hs0_0 t) (ms0_1 t) (hs0_1 t) (ms0_2 t) (hs0_2 t) scM0_0 (Memref.isWhole_whole _) hc0 hc1 (iblk0 V c 0 t) (iblk0 V c 1 t)).2 _ Set.univ _)
    isplitl [H0]; · iexact H0
    isplitl [H1]; · iexact H1
    isplitl [H2]; · iexact H2
    isplitl [HS0]; · iexact HS0
    iintro ⟨H0, H1, H2, ⟨%es0, HS0⟩⟩
    isplitl [HS0 Hr Hg]
    · isplitl [HS0 Hr]
      · isplitl [HS0]
        · unfold owns; iexists _; isplitr
          swap; · iexact HS0
          ipureintro
          exact (View.read_writes_of_cover _ _ VS0_0 VS0_0.junk _ (r0_scoverA c (grid0.coords t) (ms0_0 t) (hs0_0 t) (ms0_1 t) (hs0_1 t) (ms0_2 t) (hs0_2 t) scM0_0 (Memref.isWhole_whole _) hc0 hc1 (iblk0 V c 0 t) (iblk0 V c 1 t))).trans
            (r0_soutA_eq c (grid0.coords t) (ms0_0 t) (hs0_0 t) (ms0_1 t) (hs0_1 t) (ms0_2 t) (hs0_2 t) scM0_0 (Memref.isWhole_whole _) hc0 hc1 (iblk0 V c 0 t) (iblk0 V c 1 t))
        iexact Hr
      iexact Hg
    isplitl [Ho]; · iexact Ho
    isplitl [H0]; · iexact H0
    isplitl [H1]; · iexact H1
    iexists _; iexact H2
  · have hc0 : ¬cond0_0 (grid0.coords t) := fun h => h0 ((hcond0_0 t).mp h)
    by_cases h1 : t.val = 244
    · have hc1 : cond0_1 (grid0.coords t) := (hcond0_1 t).mpr h1
      rw [show (dat0 V c).leavesExact 2 t = owns (c : Thread nD τ) (ms0_2 t) fullShare ((dat0 V c).after 2 t) from by
        unfold Dat.leavesExact; rw [liveAt0_2 t hc1], after0_2]
      rw [r0_acc_later V c t h0]
      rw [PhiS0_castSucc V c t, PhiS0_pos V c _ _ h0]
      iintro ⟨⟨⟨HS0, Hr⟩, Hg⟩, Ho, ⟨%d0, H0⟩, ⟨%d1, H1⟩, ⟨%d2, H2⟩⟩
      iapply ((r0_runC c (grid0.coords t) (ms0_0 t) (hs0_0 t) (ms0_1 t) (hs0_1 t) (ms0_2 t) (hs0_2 t) scM0_0 (Memref.isWhole_whole _) hc0 hc1 (iblk0 V c 0 t) (iblk0 V c 1 t) (acc0 V c (t.val - 1) (Nat.lt_of_le_of_lt (Nat.sub_le _ _) t.isLt))).2.2 Set.univ _)
      isplitl [H0]; · iexact H0
      isplitl [H1]; · iexact H1
      isplitl [H2]; · iexists _; iexact H2
      isplitl [HS0]; · iexact HS0
      iintro ⟨H0, H1, ⟨%e2, H2⟩, ⟨%es0, HS0⟩⟩
      isplitl [HS0 Hr Hg]
      · isplitl [HS0 Hr]
        · isplitl [HS0]
          · unfold owns; iexists _; isplitr
            swap; · iexact HS0
            ipureintro
            exact (View.read_writes_of_cover _ _ VS0_0 VS0_0.junk _ (r0_scoverC c (grid0.coords t) (ms0_0 t) (hs0_0 t) (ms0_1 t) (hs0_1 t) (ms0_2 t) (hs0_2 t) scM0_0 (Memref.isWhole_whole _) hc0 hc1 (iblk0 V c 0 t) (iblk0 V c 1 t) (acc0 V c (t.val - 1) (Nat.lt_of_le_of_lt (Nat.sub_le _ _) t.isLt)))).trans
              (r0_soutC_eq c (grid0.coords t) (ms0_0 t) (hs0_0 t) (ms0_1 t) (hs0_1 t) (ms0_2 t) (hs0_2 t) scM0_0 (Memref.isWhole_whole _) hc0 hc1 (iblk0 V c 0 t) (iblk0 V c 1 t) (acc0 V c (t.val - 1) (Nat.lt_of_le_of_lt (Nat.sub_le _ _) t.isLt)))
          iexact Hr
        iexact Hg
      isplitl [Ho]; · iexact Ho
      isplitl [H0]; · iexact H0
      isplitl [H1]; · iexact H1
      unfold owns; iexists _; isplitr
      swap; · iexact H2
      ipureintro
      exact (View.read_writes_of_cover _ _ VO0_2 VO0_2.junk _ (r0_coverC c (grid0.coords t) (ms0_0 t) (hs0_0 t) (ms0_1 t) (hs0_1 t) (ms0_2 t) (hs0_2 t) scM0_0 (Memref.isWhole_whole _) hc0 hc1 (iblk0 V c 0 t) (iblk0 V c 1 t) (acc0 V c (t.val - 1) (Nat.lt_of_le_of_lt (Nat.sub_le _ _) t.isLt)))).trans
        (r0_outC_eq c (grid0.coords t) (ms0_0 t) (hs0_0 t) (ms0_1 t) (hs0_1 t) (ms0_2 t) (hs0_2 t) scM0_0 (Memref.isWhole_whole _) hc0 hc1 (iblk0 V c 0 t) (iblk0 V c 1 t) (acc0 V c (t.val - 1) (Nat.lt_of_le_of_lt (Nat.sub_le _ _) t.isLt)))
    · have hc1 : ¬cond0_1 (grid0.coords t) := fun h => h1 ((hcond0_1 t).mp h)
      rw [Dat.leavesExact_idle (dat0 V c) 2 t (idleAt0_2 t hc1) (noFlush0_2 t hc1)]
      rw [r0_acc_later V c t h0]
      rw [PhiS0_castSucc V c t, PhiS0_pos V c _ _ h0]
      iintro ⟨⟨⟨HS0, Hr⟩, Hg⟩, Ho, ⟨%d0, H0⟩, ⟨%d1, H1⟩, ⟨%d2, H2⟩⟩
      iapply ((r0_runB c (grid0.coords t) (ms0_0 t) (hs0_0 t) (ms0_1 t) (hs0_1 t) (ms0_2 t) (hs0_2 t) scM0_0 (Memref.isWhole_whole _) hc0 hc1 (iblk0 V c 0 t) (iblk0 V c 1 t) (acc0 V c (t.val - 1) (Nat.lt_of_le_of_lt (Nat.sub_le _ _) t.isLt))).2 _ Set.univ _)
      isplitl [H0]; · iexact H0
      isplitl [H1]; · iexact H1
      isplitl [H2]; · iexact H2
      isplitl [HS0]; · iexact HS0
      iintro ⟨H0, H1, H2, ⟨%es0, HS0⟩⟩
      isplitl [HS0 Hr Hg]
      · isplitl [HS0 Hr]
        · isplitl [HS0]
          · unfold owns; iexists _; isplitr
            swap; · iexact HS0
            ipureintro
            exact (View.read_writes_of_cover _ _ VS0_0 VS0_0.junk _ (r0_scoverB c (grid0.coords t) (ms0_0 t) (hs0_0 t) (ms0_1 t) (hs0_1 t) (ms0_2 t) (hs0_2 t) scM0_0 (Memref.isWhole_whole _) hc0 hc1 (iblk0 V c 0 t) (iblk0 V c 1 t) (acc0 V c (t.val - 1) (Nat.lt_of_le_of_lt (Nat.sub_le _ _) t.isLt)))).trans
              (r0_soutB_eq c (grid0.coords t) (ms0_0 t) (hs0_0 t) (ms0_1 t) (hs0_1 t) (ms0_2 t) (hs0_2 t) scM0_0 (Memref.isWhole_whole _) hc0 hc1 (iblk0 V c 0 t) (iblk0 V c 1 t) (acc0 V c (t.val - 1) (Nat.lt_of_le_of_lt (Nat.sub_le _ _) t.isLt)))
          iexact Hr
        iexact Hg
      isplitl [Ho]; · iexact Ho
      isplitl [H0]; · iexact H0
      isplitl [H1]; · iexact H1
      iexists _; iexact H2

/-- The library's body obligation, at every point. -/
theorem body_obligation0 (c : Dev nD) : BodyObligation (dat0 (F := F) V c) (defs₀ (F := F)) Variants.none () Set.univ := fun t => by
  rw [bigSep_W0, bigSep_W0]
  exact sound_body0 V c t

/-- What the launch hands the region is the invariant before the first point. -/
theorem hin0 (c : Dev nD) : Pipeline.ΦA spec0 c ⊢ (dat0 V c).Φ 0 := by
  rw [show (dat0 V c).Φ 0 = PhiS0 V c 0 (Nat.zero_le _) from rfl, PhiS0_zero V c 0 _ rfl]
  try exact Idealize.SL.BI.Entails.refl _

/-- After any point the invariant gives back what the launch handed over: the scratch's contents are forgotten. -/
theorem Phi_out0 (c : Dev nD) (t : Fin (cfg0.N + 1)) (ht : t.val ≠ 0) : (dat0 V c).Φ t ⊢ Pipeline.ΦA spec0 c := by
  rw [show (dat0 V c).Φ t = PhiS0 V c t.val (Nat.le_of_lt_succ t.isLt) from rfl, PhiS0_pos V c _ _ ht, PhiA0_eq]
  iintro ⟨⟨HS0, Hr⟩, Hg⟩
  isplitl [HS0 Hr]
  · isplitl [HS0]
    · iexists _; iexact HS0
    iexact Hr
  iexact Hg

/-- The same after the last point. -/
theorem hout0 (c : Dev nD) : (dat0 V c).Φ (Fin.last cfg0.N) ⊢ Pipeline.ΦA spec0 c :=
  Phi_out0 V c _ (by rw [Fin.val_last]; have : cfg0.N = 245 := N_0; omega)

/-! ## The output array after the region -/

/-- The last point of the grid. -/
def r0_last : Fin cfg0.N := ⟨244, by have : cfg0.N = 245 := N_0; omega⟩

/-- The output window is written back at the last point only. -/
theorem r0_flush_last (t : Fin cfg0.N) (hf : (cfg0.win 2).flush t = true) : t = r0_last := by
  have h := (flush0_2 t).mp hf
  have hN : t.val < 245 := lt_of_lt_of_eq t.isLt (show cfg0.N = 245 from N_0)
  exact Fin.ext (by show t.val = 244; omega)

/-- What the last point writes back through the output window is the accumulator after it: the window's block is its
    whole array, read at zero offsets. -/
theorem r0_flushed_eq (c : Dev nD) (t : Fin cfg0.N) (hf : (cfg0.win 2).flush t = true) :
    (dat0 V c).flushed 2 t = ((cfg0.win 2).blk t).view.read (Elt F) (acc0 V c 244 (by have : cfg0.N = 245 := N_0; omega)) := by
  obtain rfl : t = r0_last := r0_flush_last t hf
  show (cfg0.win 2).cut (grid0.coords r0_last) ((dat0 V c).after 2 r0_last) = _
  rw [after0_2]
  have hz : (fun a => win0_2.index r0_last a * main_v3.ty.shape.size a) = fun _ => 0 := funext fun a => by fin_cases a <;> decide +kernel
  exact (Memref.read_access_unit_zero (Elt F) main_v3 hz (fun a => by rw [congrFun hz a]; simp)
    (acc0 V c 244 (by have : cfg0.N = 245 := N_0; omega))).symm

/-- The output window's array after the region: the last point's block covers it, so it holds the accumulator after the
    last point. -/
theorem arr0_final (c : Dev nD) : (dat0 V c).arrAt 2 cfg0.N = acc0 V c 244 (by have : cfg0.N = 245 := N_0; omega) :=
  (dat0 V c).arrAt_eq_of_cover 2 (acc0 V c 244 (by have : cfg0.N = 245 := N_0; omega))
    (fun t hf => r0_flushed_eq V c t hf) fun i =>
    ⟨r0_last, (flush0_2 r0_last).mpr (by decide), by
      show i ∈ ((View.whole main_v3).slice (win0_2.rect r0_last)).set
      rw [View.set_slice_whole, Rect.mem_set_unit]
      intro a
      have h0 : (i 0 : Nat) < 512 := (i 0).isLt
      have h1 : (i 1 : Nat) < 256 := (i 1).isLt
      match a with
      | ⟨0, _⟩ =>
        show win0_2.index r0_last 0 * win0_2.size 0 ≤ (i 0 : Nat) ∧ (i 0 : Nat) < win0_2.index r0_last 0 * win0_2.size 0 + win0_2.xsize (grid0.coords r0_last) 0
        rw [show win0_2.index r0_last 0 * win0_2.size 0 = 0 from by decide +kernel, show win0_2.xsize (grid0.coords r0_last) 0 = 512 from by decide +kernel]; omega
      | ⟨1, _⟩ =>
        show win0_2.index r0_last 1 * win0_2.size 1 ≤ (i 1 : Nat) ∧ (i 1 : Nat) < win0_2.index r0_last 1 * win0_2.size 1 + win0_2.xsize (grid0.coords r0_last) 1
        rw [show win0_2.index r0_last 1 * win0_2.size 1 = 0 from by decide +kernel, show win0_2.xsize (grid0.coords r0_last) 1 = 256 from by decide +kernel]; omega⟩

end

end Cert.Kernel.Hand

end
-- ==== Proof.K.Reg1.lean ====
/- The second kernel region (the squeeze-excite network, one grid point): what each window's staging buffer holds
   around the body, the body's triple, and the pipeline's proof data with its body obligation, all at a parameter
   `V`, the buffer contents when the region is entered. The output block is the one store of the body, the
   payload `k1_pay1` of the three input blocks. -/
import proofs.«417222_j31860067402236_1_alg».proof.Proof.Gen.Kernel.Launch
import proofs.«417222_j31860067402236_1_alg».proof.Proof.Gen.Kernel.Skeleton
import proofs.«417222_j31860067402236_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section
variable (V : (c : Dev nD) → (b : Ref sig .tc) → Buf (Elt F) ((c : Thread nD τ).loc b))

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- An input window's current staging buffer holds its block at every point. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

/-- The body's accesses: each a whole staging buffer. -/
abbrev r1_a : Rect S512x256 := Rect.unit (s := S512x256) ![0, 0] S512x256.size inb_S512x256_S512x256_0_0
abbrev r1_b : Rect S256x16 := Rect.unit (s := S256x16) ![0, 0] S256x16.size inb_S256x16_S256x16_0_0
abbrev r1_c : Rect S16x256 := Rect.unit (s := S16x256) ![0, 0] S16x256.size inb_S16x256_S16x256_0_0

/-- The output window's staging buffer after the body: its one store, of the payload of the three loads. -/
def out1_3 (x0 : Vec F S512x256 .f32) (x1 : Vec F S256x16 .f32) (x2 : Vec F S16x256 .f32) : Vec F S512x256 .f32 :=
  View.canon [⟨r1_a, k1_pay1 (View.ld x0 r1_a) (View.ld x1 r1_b) (View.ld x2 r1_c)⟩]

theorem cover1_3 (p0 : Vec F S512x256 .f32) (y : S512x256.Idx) :
    ∃ pc ∈ ([⟨r1_a, p0⟩] : List (View.Piece (Elt F) S512x256 .f32)), y ∈ pc.1.set :=
  View.cover_of_tiled [⟨r1_a, p0⟩] S512x256.size (by rfl) y

set_option maxHeartbeats 1000000 in
/-- The body on whole staging memrefs: the inputs' kept, the output's at `out1_3` of the inputs'. -/
theorem sound_kernel1 (c : Dev nD) (E : Set ℕ) (i : grid1.Coords)
    (arg1 : Memref sig .tc .vmem S512x256 .f32) (harg1 : arg1.IsWhole) (arg2 : Memref sig .tc .vmem S256x16 .f32) (harg2 : arg2.IsWhole)
    (arg3 : Memref sig .tc .vmem S16x256 .f32) (harg3 : arg3.IsWhole) (arg4 : Memref sig .tc .vmem S512x256 .f32) (harg4 : arg4.IsWhole)
    (x0 : Vec F S512x256 .f32) (x1 : Vec F S256x16 .f32) (x2 : Vec F S16x256 .f32) (K : PUnit → sProp 𝕄) :
    iprop(owns (c : Thread nD τ) arg1 fullShare x0 ∗ owns (c : Thread nD τ) arg2 fullShare x1 ∗ owns (c : Thread nD τ) arg3 fullShare x2
        ∗ (∃ d, owns (c : Thread nD τ) arg4 fullShare d)
        ∗ (iprop(owns (c : Thread nD τ) arg1 fullShare x0 ∗ owns (c : Thread nD τ) arg2 fullShare x1 ∗ owns (c : Thread nD τ) arg3 fullShare x2
            ∗ owns (c : Thread nD τ) arg4 fullShare (out1_3 x0 x1 x2)) -∗ K ⟨⟩))
      ⊢ wp frame (wpE (defs₀ (F := F)) Variants.none c none) E (cc1__mlp_kernel i arg1 harg1 arg2 harg2 arg3 harg3 arg4 harg4) K := by
  simp only [cc1__mlp_kernel_eq_skeleton]; unfold cc1__mlp_kernel_skel
  unfold owns
  iintro ⟨⟨%f0, %hf0, H0⟩, ⟨%f1, %hf1, H1⟩, ⟨%f2, %hf2, H2⟩, ⟨%d3, %f3, -, H3⟩, Hk⟩
  subst hf0; subst hf1; subst hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover1_3 _)

/-- The proof data of the region on core `c`. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => out1_3 (iblk1 V c 0 t) (iblk1 V c 1 t) (iblk1 V c 2 t)
  Φ _ := Pipeline.ΦA spec1 c
  q _ := fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) :
    (dat1 V c).after 3 t = out1_3 (iblk1 V c 0 t) (iblk1 V c 1 t) (iblk1 V c 2 t) := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d

def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d)))

def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t))

theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2]
  rw [show (dat1 V c).Φ t.succ = (dat1 V c).Φ t.castSucc from rfl,
    show (dat1 V c).owesAt () t.succ = (dat1 V c).owesAt () t.castSucc from rfl,
    after1_0, after1_1, after1_2, after1_3]
  iintro ⟨HΦ, Ho, ⟨%d0, H0⟩, ⟨%d1, H1⟩, ⟨%d2, H2⟩, ⟨%d3, H3⟩⟩
  iapply (sound_kernel1 c Set.univ _ _ _ _ _ _ _ _ _ (iblk1 V c 0 t) (iblk1 V c 1 t) (iblk1 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

theorem body_obligation1 (c : Dev nD) : BodyObligation (dat1 (F := F) V c) (defs₀ (F := F)) Variants.none () Set.univ := fun t => by
  rw [bigSep_W1, bigSep_W1]
  exact sound_body1 V c t

end

end Cert.Kernel.Hand

end
-- ==== Proof.K.Reg2.lean ====
/- The third kernel region (the gather of the per-graph scale by a one-hot product, times the rows), 245 grid points
   of 2048 rows each: what each window's staging buffer holds around the body, the body's triple, and the pipeline's
   proof data with its body obligation, at a parameter `V`, the buffer contents when the region is entered. The
   output block is the one store of the body, the payload `k2_pay1` of the three input blocks. -/
import proofs.«417222_j31860067402236_1_alg».proof.Proof.Gen.Kernel.Launch
import proofs.«417222_j31860067402236_1_alg».proof.Proof.Gen.Kernel.Skeleton
import proofs.«417222_j31860067402236_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section
variable (V : (c : Dev nD) → (b : Ref sig .tc) → Buf (Elt F) ((c : Thread nD τ).loc b))

/-- Window `w`'s block at point `t`, read off its array as the region finds it. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- An input window's current staging buffer holds its block at every point, fetched there or not (the per-graph
    scale is fetched once: its block index never moves). -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)
theorem before2_2_of {c : Dev nD} (dat : Dat τ (Elt F) Unit ℕ (UR sig nD τ) ℕ cfg2 c) (hA : dat.A 2 = V c (Pipeline.arrRef spec2 2))
    (hafter : ∀ t, dat.after 2 t = iblk2 V c 2 t) (t : Fin cfg2.N) (d) : dat.before 2 t d = iblk2 V c 2 t :=
  (dat.before_in_eq_fetched 2 rfl (fun _ => rfl) (fun _ _ _ => rfl) (fun t => by rw [hafter]; unfold Dat.blockOf iblk2; rw [hA]; try rfl) t d).trans
    (by unfold Dat.fetched Dat.blockOf iblk2; rw [hA]; try rfl)

/-- The body's accesses: each a whole staging buffer. -/
abbrev r2_x : Rect S2048x256 := Rect.unit (s := S2048x256) ![0, 0] S2048x256.size inb_S2048x256_S2048x256_0_0
abbrev r2_b : Rect S2048x1 := Rect.unit (s := S2048x1) ![0, 0] S2048x1.size inb_S2048x1_S2048x1_0_0
abbrev r2_s : Rect S512x256 := Rect.unit (s := S512x256) ![0, 0] S512x256.size inb_S512x256_S512x256_0_0

/-- The output window's staging buffer after the body: its one store, of the payload of the three loads
    (the graph ids, the scale table, the rows). -/
def out2_3 (x0 : Vec F S2048x256 .f32) (x1 : Vec F S2048x1 .i32) (x2 : Vec F S512x256 .f32) : Vec F S2048x256 .f32 :=
  View.canon [⟨r2_x, k2_pay1 (View.ld x1 r2_b) (View.ld x2 r2_s) (View.ld x0 r2_x)⟩]

theorem cover2_3 (p0 : Vec F S2048x256 .f32) (y : S2048x256.Idx) :
    ∃ pc ∈ ([⟨r2_x, p0⟩] : List (View.Piece (Elt F) S2048x256 .f32)), y ∈ pc.1.set :=
  View.cover_of_tiled [⟨r2_x, p0⟩] S2048x256.size (by rfl) y

set_option maxHeartbeats 1000000 in
/-- The body on whole staging memrefs: the inputs' kept, the output's at `out2_3` of the inputs'. -/
theorem sound_kernel2 (c : Dev nD) (E : Set ℕ) (i : grid2.Coords)
    (arg1 : Memref sig .tc .vmem S2048x256 .f32) (harg1 : arg1.IsWhole) (arg2 : Memref sig .tc .vmem S2048x1 .i32) (harg2 : arg2.IsWhole)
    (arg3 : Memref sig .tc .vmem S512x256 .f32) (harg3 : arg3.IsWhole) (arg4 : Memref sig .tc .vmem S2048x256 .f32) (harg4 : arg4.IsWhole)
    (x0 : Vec F S2048x256 .f32) (x1 : Vec F S2048x1 .i32) (x2 : Vec F S512x256 .f32) (K : PUnit → sProp 𝕄) :
    iprop(owns (c : Thread nD τ) arg1 fullShare x0 ∗ owns (c : Thread nD τ) arg2 fullShare x1 ∗ owns (c : Thread nD τ) arg3 fullShare x2
        ∗ (∃ d, owns (c : Thread nD τ) arg4 fullShare d)
        ∗ (iprop(owns (c : Thread nD τ) arg1 fullShare x0 ∗ owns (c : Thread nD τ) arg2 fullShare x1 ∗ owns (c : Thread nD τ) arg3 fullShare x2
            ∗ owns (c : Thread nD τ) arg4 fullShare (out2_3 x0 x1 x2)) -∗ K ⟨⟩))
      ⊢ wp frame (wpE (defs₀ (F := F)) Variants.none c none) E (cc2__mul_kernel i arg1 harg1 arg2 harg2 arg3 harg3 arg4 harg4) K := by
  simp only [cc2__mul_kernel_eq_skeleton]; unfold cc2__mul_kernel_skel
  unfold owns
  iintro ⟨⟨%f0, %hf0, H0⟩, ⟨%f1, %hf1, H1⟩, ⟨%f2, %hf2, H2⟩, ⟨%d3, %f3, -, H3⟩, Hk⟩
  subst hf0; subst hf1; subst hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover2_3 _)

/-- The proof data of the region on core `c`. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => out2_3 (iblk2 V c 0 t) (iblk2 V c 1 t) (iblk2 V c 2 t)
  Φ _ := Pipeline.ΦA spec2 c
  q _ := fullShare
  owed _ := 0

theorem A_eq2 (c : Dev nD) (w : Fin cfg2.W) : (dat2 V c).A w = V c (Pipeline.arrRef spec2 w) := by
  dsimp only [dat2]

theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) :
    (dat2 V c).after 3 t = out2_3 (iblk2 V c 0 t) (iblk2 V c 1 t) (iblk2 V c 2 t) := by dsimp only [dat2]

theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d
theorem before2_2 (c : Dev nD) (t : Fin cfg2.N) (d) : (dat2 V c).before 2 t d = iblk2 V c 2 t :=
  before2_2_of V (dat2 V c) (A_eq2 V c 2) (after2_2 V c) t d

def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d))
    ∗ (∃ d, owns (c : Thread nD τ) (st2_3 t) fullShare ((dat2 V c).before 3 t d)))

def bodyPost2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t)
    ∗ owns (c : Thread nD τ) (st2_3 t) fullShare ((dat2 V c).after 3 t))

theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2]
  rw [show (dat2 V c).Φ t.succ = (dat2 V c).Φ t.castSucc from rfl,
    show (dat2 V c).owesAt () t.succ = (dat2 V c).owesAt () t.castSucc from rfl,
    after2_0, after2_1, after2_2, after2_3]
  iintro ⟨HΦ, Ho, ⟨%d0, H0⟩, ⟨%d1, H1⟩, ⟨%d2, H2⟩, ⟨%d3, H3⟩⟩
  iapply (sound_kernel2 c Set.univ _ _ _ _ _ _ _ _ _ (iblk2 V c 0 t) (iblk2 V c 1 t) (iblk2 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

theorem body_obligation2 (c : Dev nD) : BodyObligation (dat2 (F := F) V c) (defs₀ (F := F)) Variants.none () Set.univ := fun t => by
  rw [bigSep_W2, bigSep_W2]
  exact sound_body2 V c t

end

end Cert.Kernel.Hand

end
-- ==== Proof.K.Run.lean ====
/- The whole program as a run: the contents of the unscoped buffers at each boundary of @main (the launch memory
   folded through the host stretches and the three kernel regions: a region leaves its arrays at what its pipeline
   computes from the proof data and every other buffer as it found it), the three regions as segments between those
   boundaries, and the launch. Every weakly fair execution terminates with each unscoped buffer at the last
   boundary's contents; read at the argument arrays, which no stretch writes and no region changes, that is the
   frame. -/
import proofs.«417222_j31860067402236_1_alg».proof.Proof.Gen.Kernel.Launch
import proofs.«417222_j31860067402236_1_alg».proof.Proof.Gen.Kernel.Skeleton
import proofs.«417222_j31860067402236_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic
import proofs.«417222_j31860067402236_1_alg».proof.Proof.Gen.Kernel.Regions
import proofs.«417222_j31860067402236_1_alg».proof.Proof.K.Reg0
import proofs.«417222_j31860067402236_1_alg».proof.Proof.K.Reg1
import proofs.«417222_j31860067402236_1_alg».proof.Proof.K.Reg2

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffer contents at each boundary of @main -/

/-- The first region's entry contents: the launch memory after the five host stretches before it (the padded rows,
    the padded and reshaped graph ids). -/
abbrev Vr0 : (c : Dev nD) → (b : Ref sig .tc) → Buf (Elt F) ((c : Thread nD τ).loc b) := fun c b => V5 m c b
/-- At the first region's exit: its arrays at what the pipeline leaves, every other buffer as entered. -/
def W6 (c : Dev nD) : Valuation τ sig (Elt F) :=
  Pipeline.withArrays spec0 c (V5 m c) fun w => (dat0 (Vr0 m) c).arrAt w cfg0.N
theorem W6_arr (c : Dev nD) (w : Fin cfg0.W) :
    W6 m c (Proc.devRef .tc (Pipeline.arrRef spec0 w)) = (dat0 (Vr0 m) c).arrAt w cfg0.N := by
  unfold W6; exact Pipeline.withArrays_arr spec0 launch0.win.arr_inj c _ _ w
theorem W6_of_ne (c : Dev nD) (b : Ref sig .tc) (hb : ∀ w, Pipeline.arrRef spec0 w ≠ b) :
    W6 m c (Proc.devRef .tc b) = V5 m c (Proc.devRef .tc b) := by
  unfold W6; exact Pipeline.withArrays_of_ne spec0 c _ _ b hb
abbrev Vx0 : (c : Dev nD) → (b : Ref sig .tc) → Buf (Elt F) ((c : Thread nD τ).loc b) := fun c b => W6 m c b
theorem hF0 (c : Dev nD) (w : Fin cfg0.W) : (dat0 (Vr0 m) c).arrAt w cfg0.N = Vx0 m c (Pipeline.arrRef spec0 w) :=
  (W6_arr m c w).symm
theorem hrest0 (c : Dev nD) : ∀ b, b ∉ Finset.univ.image (Pipeline.arrRef spec0) → Vx0 m c b = Vr0 m c b :=
  fun b hb => W6_of_ne m c b fun w e => hb (Finset.mem_image.mpr ⟨w, Finset.mem_univ _, e⟩)

/-- After the count-and-divide stretch: the second region's entry contents. -/
abbrev W7 : Dev nD → Valuation τ sig (Elt F) := fun c => StableHlo.after hostOps1 (W6 m c)
abbrev Vr1 : (c : Dev nD) → (b : Ref sig .tc) → Buf (Elt F) ((c : Thread nD τ).loc b) := fun c b => W7 m c b
def W8 (c : Dev nD) : Valuation τ sig (Elt F) :=
  Pipeline.withArrays spec1 c (W7 m c) fun w => (dat1 (Vr1 m) c).arrAt w cfg1.N
theorem W8_arr (c : Dev nD) (w : Fin cfg1.W) :
    W8 m c (Proc.devRef .tc (Pipeline.arrRef spec1 w)) = (dat1 (Vr1 m) c).arrAt w cfg1.N := by
  unfold W8; exact Pipeline.withArrays_arr spec1 launch1.win.arr_inj c _ _ w
theorem W8_of_ne (c : Dev nD) (b : Ref sig .tc) (hb : ∀ w, Pipeline.arrRef spec1 w ≠ b) :
    W8 m c (Proc.devRef .tc b) = W7 m c (Proc.devRef .tc b) := by
  unfold W8; exact Pipeline.withArrays_of_ne spec1 c _ _ b hb
/-- The second region's exit contents are the third's entry contents: no host line between them. -/
abbrev Vr2 : (c : Dev nD) → (b : Ref sig .tc) → Buf (Elt F) ((c : Thread nD τ).loc b) := fun c b => W8 m c b
theorem hF1 (c : Dev nD) (w : Fin cfg1.W) : (dat1 (Vr1 m) c).arrAt w cfg1.N = Vr2 m c (Pipeline.arrRef spec1 w) :=
  (W8_arr m c w).symm
theorem hrest1 (c : Dev nD) : ∀ b, b ∉ Finset.univ.image (Pipeline.arrRef spec1) → Vr2 m c b = Vr1 m c b :=
  fun b hb => W8_of_ne m c b fun w e => hb (Finset.mem_image.mpr ⟨w, Finset.mem_univ _, e⟩)
def W9 (c : Dev nD) : Valuation τ sig (Elt F) :=
  Pipeline.withArrays spec2 c (W8 m c) fun w => (dat2 (Vr2 m) c).arrAt w cfg2.N
theorem W9_arr (c : Dev nD) (w : Fin cfg2.W) :
    W9 m c (Proc.devRef .tc (Pipeline.arrRef spec2 w)) = (dat2 (Vr2 m) c).arrAt w cfg2.N := by
  unfold W9; exact Pipeline.withArrays_arr spec2 launch2.win.arr_inj c _ _ w
theorem W9_of_ne (c : Dev nD) (b : Ref sig .tc) (hb : ∀ w, Pipeline.arrRef spec2 w ≠ b) :
    W9 m c (Proc.devRef .tc b) = W8 m c (Proc.devRef .tc b) := by
  unfold W9; exact Pipeline.withArrays_of_ne spec2 c _ _ b hb
abbrev Vx2 : (c : Dev nD) → (b : Ref sig .tc) → Buf (Elt F) ((c : Thread nD τ).loc b) := fun c b => W9 m c b
theorem hF2 (c : Dev nD) (w : Fin cfg2.W) : (dat2 (Vr2 m) c).arrAt w cfg2.N = Vx2 m c (Pipeline.arrRef spec2 w) :=
  (W9_arr m c w).symm
theorem hrest2 (c : Dev nD) : ∀ b, b ∉ Finset.univ.image (Pipeline.arrRef spec2) → Vx2 m c b = Vr2 m c b :=
  fun b hb => W9_of_ne m c b fun w e => hb (Finset.mem_image.mpr ⟨w, Finset.mem_univ _, e⟩)
/-- After the closing slice: what the program returns with. -/
abbrev W10 : Dev nD → Valuation τ sig (Elt F) := fun c => StableHlo.after hostOps3 (W9 m c)

/-! ## The proof data family and the thread state -/

/-- Every pipeline's proof data, each at its region's entry contents. -/
def pdats : (p : Fin 3) → (c : Dev nD) → Dat τ (Elt F) Unit ℕ (UR sig nD τ) ℕ (Pipeline.pin (pcfgs (F := F)) adm p) c
  | ⟨0, _⟩ => fun c => dat0 (Vr0 m) c
  | ⟨1, _⟩ => fun c => dat1 (Vr1 m) c
  | ⟨2, _⟩ => fun c => dat2 (Vr2 m) c
abbrev 𝒱₀ : Variants := Variants.none
/-- No core owes another anything. -/
abbrev L : GSem nD τ sig → Finset Unit := fun _ => ∅
abbrev lv : GSem nD τ sig → Unit → ℕ := fun _ _ => 0
/-- What rides beside the buffers through every segment: the generator register at some state and nothing owed. -/
abbrev R (c : Dev nD) : sProp 𝕄 := iprop((∃ r, prngReg c r) ∗ ∃ W, owes (c : Thread nD τ) (0 : CellTallies nD τ sig Unit) W)
/-- A host stretch as a segment over the unscoped buffers. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
abbrev Tₙ (c : Dev nD) : sProp 𝕄 := iprop(StableHlo.held (c : Thread nD τ) (Pipeline.ucRefs τ sig) (W10 m c) ∗ ∃ r, prngReg c r)

/-! ## The regions as segments -/

set_option backward.isDefEq.respectTransparency.types false in
/-- The first region over the thread state: entered from every unscoped buffer at the contents after the five host
    stretches, left with its arrays at what the pipeline computes. -/
def reg0 : Pipeline.RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (body_obligation0 (Vr0 m) c).loose
  hwaits := Pipeline.hwaits_of_owed_zero _ _ _ _ L lv 0 fun _ _ => rfl
  pre c := iprop(StableHlo.held (c : Thread nD τ) (Pipeline.ucRefs τ sig) (V5 m c) ∗ R c)
  post c := iprop(StableHlo.held (c : Thread nD τ) (Pipeline.ucRefs τ sig) (W6 m c) ∗ R c)
  X c := iprop(∃ r, prngReg c r)
  Y c := iprop(∃ r, prngReg c r)
  Z c := Pipeline.unscopedRest (Ix := Unit) (Name := ℕ) (U := UR sig nD τ) (Lvl := ℕ) spec0 c (Vr0 m c)
  hentry c := by
    rw [Pipeline.ownSems0_none]
    have hsplit := Pipeline.arrays_of_unscopedBufs (p := 0) (pcfgs (F := F)) adm (pdats m) launch0.win launch0.arr_whole c
      ((pdats m 0 c).share_full fun _ => rfl) (Vr0 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine (?_ : iprop((∃ r, prngReg c r) ∗ Pipeline.prefHeld (pcfgs (F := F) 0).pre c (fun _ => fullShare) (adm (F := F) 0).1
        ∗ Pipeline.scopedRest (Pipeline.pin (pcfgs (F := F)) adm 0).spec c) ⊢ (Pipeline.ΦA spec0 c : sProp 𝕄)).trans (hin0 (Vr0 m) c)
    unfold Pipeline.ΦA
    iintro ⟨Hp, -, Hr⟩
    isplitl [Hr]; · iexact Hr
    iexact Hp
  hout c := by
    rw [Pipeline.ownSems0_none]
    refine (hout0 (Vr0 m) c).trans ?_
    unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (Vr0 m c) (Vx0 m c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- The second region over the thread state. -/
def reg1 : Pipeline.RegionSeg (pcfgs (F := F)) adm (pdats m) () defs₀ 𝒱₀ L lv 1 where
  win := launch1.win.to₀
  block_pos := launch1.block_pos
  stage_whole := launch1.stage_whole
  K := PEmpty
  osem k := k.elim
  ho := Pipeline.OwnSemFacts.none _
  hbody c := (body_obligation1 (Vr1 m) c).loose
  hwaits := Pipeline.hwaits_of_owed_zero _ _ _ _ L lv 1 fun _ _ => rfl
  pre c := iprop(StableHlo.held (c : Thread nD τ) (Pipeline.ucRefs τ sig) (W7 m c) ∗ R c)
  post c := iprop(StableHlo.held (c : Thread nD τ) (Pipeline.ucRefs τ sig) (W8 m c) ∗ R c)
  X c := iprop(∃ r, prngReg c r)
  Y c := iprop(∃ r, prngReg c r)
  Z c := Pipeline.unscopedRest (Ix := Unit) (Name := ℕ) (U := UR sig nD τ) (Lvl := ℕ) spec1 c (Vr1 m c)
  hentry c := by
    rw [Pipeline.ownSems0_none]
    have hsplit := Pipeline.arrays_of_unscopedBufs (p := 1) (pcfgs (F := F)) adm (pdats m) launch1.win launch1.arr_whole c
      ((pdats m 1 c).share_full fun _ => rfl) (Vr1 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (Vr1 m c) (Vr2 m c) ((pdats m 1 c).arrAt · cfg1.N) (hF1 m c) (hrest1 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- The third region over the thread state. -/
def reg2 : Pipeline.RegionSeg (pcfgs (F := F)) adm (pdats m) () defs₀ 𝒱₀ L lv 2 where
  win := launch2.win.to₀
  block_pos := launch2.block_pos
  stage_whole := launch2.stage_whole
  K := PEmpty
  osem k := k.elim
  ho := Pipeline.OwnSemFacts.none _
  hbody c := (body_obligation2 (Vr2 m) c).loose
  hwaits := Pipeline.hwaits_of_owed_zero _ _ _ _ L lv 2 fun _ _ => rfl
  pre c := iprop(StableHlo.held (c : Thread nD τ) (Pipeline.ucRefs τ sig) (W8 m c) ∗ R c)
  post c := iprop(StableHlo.held (c : Thread nD τ) (Pipeline.ucRefs τ sig) (W9 m c) ∗ R c)
  X c := iprop(∃ r, prngReg c r)
  Y c := iprop(∃ r, prngReg c r)
  Z c := Pipeline.unscopedRest (Ix := Unit) (Name := ℕ) (U := UR sig nD τ) (Lvl := ℕ) spec2 c (Vr2 m c)
  hentry c := by
    rw [Pipeline.ownSems0_none]
    have hsplit := Pipeline.arrays_of_unscopedBufs (p := 2) (pcfgs (F := F)) adm (pdats m) launch2.win launch2.arr_whole c
      ((pdats m 2 c).share_full fun _ => rfl) (Vr2 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 2 c).Φ 0 = Pipeline.ΦA spec2 c from rfl]; unfold Pipeline.ΦA
    iintro ⟨Hp, -, Hr⟩
    isplitl [Hr]; · iexact Hr
    iexact Hp
  hout c := by
    rw [Pipeline.ownSems0_none, show (pdats m 2 c).Φ (Fin.last _) = Pipeline.ΦA spec2 c from rfl]; unfold Pipeline.ΦA
    iintro ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (pdats m) ((pdats m 2 c).share_full fun _ => rfl)
      (Vr2 m c) (Vx2 m c) ((pdats m 2 c).arrAt · cfg2.N) (hF2 m c) (hrest2 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## @main as segments, and the launch -/

/-- @main's ten segments in order. -/
abbrev segs : List (Pipeline.Seg (pcfgs (F := F)) adm (pdats m) () defs₀ 𝒱₀ L lv) :=
  [ .host (hseg hostOps0 hostOps0_sub hostOps0_fresh (V0 m)),
    .host (hseg hostOps0_1 hostOps0_1_sub hostOps0_1_fresh (V1 m)),
    .host (hseg hostOps0_2 hostOps0_2_sub hostOps0_2_fresh (V2 m)),
    .host (hseg hostOps0_3 hostOps0_3_sub hostOps0_3_fresh (V3 m)),
    .host (hseg hostOps0_4 hostOps0_4_sub hostOps0_4_fresh (V4 m)),
    .region (reg0 m),
    .host (hseg hostOps1 hostOps1_sub hostOps1_fresh (W6 m)),
    .region (reg1 m),
    .region (reg2 m),
    .host (hseg hostOps3 hostOps3_sub hostOps3_fresh (W9 m)) ]

theorem main_run (c : Dev nD) : main (F := F) c = Pipeline.Seg.run (segs m) := by
  rw [main_chain c, Pipeline.Seg.run_eq_chain]
  rfl

set_option backward.isDefEq.respectTransparency.types false in
/-- THE RUN: from any memory with zero counters every weakly fair execution of @main terminates, nothing faulting,
    and every final state holds each unscoped buffer at the last boundary's contents. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W10 m c b) :=
  Pipeline.θ_run_regions_kit (pcfgs (F := F)) adm (pdats m) () cellOf_inj emb₁ defs₀ 𝒱₀ L lv m ρ main (segs m)
    (fun c Q => by rw [main_run m c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (V0 m c) ∗ R c)) (Tₙ := Tₙ m)
    (hch := ⟨fun _ => .rfl, fun _ => .rfl, fun _ => .rfl, fun _ => .rfl, fun _ => .rfl, fun _ => .rfl, fun _ => .rfl, fun _ => .rfl, fun _ => .rfl, fun _ => .rfl,
      fun c => by
        show iprop(StableHlo.held (c : Thread nD τ) (Pipeline.ucRefs τ sig) (W10 m c) ∗ R c) ⊢ _
        iintro ⟨Hh, Hp, HO⟩
        isplitl [Hh Hp]
        · isplitl [Hh]; · iexact Hh
          iexact Hp
        iexact HO⟩)
    (hinit := by
      refine Pipeline.initEach L lv fun c => ?_
      rw [show unscopedBufs c (fun b => m ((c : Thread nD τ).loc b)) = StableHlo.held (c : Thread nD τ) (Pipeline.ucRefs τ sig) (V0 m c)
        from Pipeline.unscopedBufs_held c (V0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W10 m c b)
    (hfin := fun c s' => by
      iintro ⟨⟨Hh, -⟩, HSI⟩
      unfold StableHlo.held
      imodintro
      iapply (pointsTo_read_all (Pipeline.ucRefs τ sig) (fun b => (((c : Thread nD τ)).1, b)) (W10 m c) s')
      isplitl [Hh] <;> iassumption)
    (hQ := fun s h c => h c)

/-! ## The arguments end as launched -/

theorem W10_of (c : Dev nD) (r : Ref sig .tc) (h : r ∉ hostOps3_W) : W10 m c r = W9 m c r :=
  StableHlo.after_of_writes_sub hostOps3 _ hostOps3_writes h
theorem W7_of (c : Dev nD) (r : Ref sig .tc) (h : r ∉ hostOps1_W) : W7 m c r = W6 m c r :=
  StableHlo.after_of_writes_sub hostOps1 _ hostOps1_writes h
/-- A buffer no host stretch before the first region writes holds its launch contents at that region's entry. -/
theorem V5_launch (c : Dev nD) (r : Ref sig .tc) (h0 : r ∉ hostOps0_W) (h1 : r ∉ hostOps0_1_W) (h2 : r ∉ hostOps0_2_W)
    (h3 : r ∉ hostOps0_3_W) (h4 : r ∉ hostOps0_4_W) : V5 m c r = m ((c : Thread nD τ).loc r) :=
  (V5_of m c r h4).trans <| (V4_of m c r h3).trans <| (V3_of m c r h2).trans <| (V2_of m c r h1).trans <| (V1_of m c r h0).trans rfl

theorem W10_main_arg0 (c : Dev nD) : W10 m c main_arg0 = m ((c : Thread nD τ).loc main_arg0) :=
  (W10_of m c main_arg0 (by decide)).trans <| (W9_of_ne m c main_arg0 (by decide)).trans <| (W8_of_ne m c main_arg0 (by decide)).trans <|
    (W7_of m c main_arg0 (by decide)).trans <| (W6_of_ne m c main_arg0 (by decide)).trans <|
    V5_launch m c main_arg0 (by decide) (by decide) (by decide) (by decide) (by decide)
theorem W10_main_arg1 (c : Dev nD) : W10 m c main_arg1 = m ((c : Thread nD τ).loc main_arg1) :=
  (W10_of m c main_arg1 (by decide)).trans <| (W9_of_ne m c main_arg1 (by decide)).trans <| (W8_of_ne m c main_arg1 (by decide)).trans <|
    (W7_of m c main_arg1 (by decide)).trans <| (W6_of_ne m c main_arg1 (by decide)).trans <|
    V5_launch m c main_arg1 (by decide) (by decide) (by decide) (by decide) (by decide)
/-- The second region reads the two weight arrays through input windows: it leaves them as it found them. -/
theorem W8_main_arg2 (c : Dev nD) : W8 m c main_arg2 = W7 m c main_arg2 :=
  (W8_arr m c 1).trans (((dat1 (Vr1 m) c).arrAt_in 1 rfl _).trans (A_eq1 (Vr1 m) c 1))
theorem W8_main_arg3 (c : Dev nD) : W8 m c main_arg3 = W7 m c main_arg3 :=
  (W8_arr m c 2).trans (((dat1 (Vr1 m) c).arrAt_in 2 rfl _).trans (A_eq1 (Vr1 m) c 2))
theorem W10_main_arg2 (c : Dev nD) : W10 m c main_arg2 = m ((c : Thread nD τ).loc main_arg2) :=
  (W10_of m c main_arg2 (by decide)).trans <| (W9_of_ne m c main_arg2 (by decide)).trans <| (W8_main_arg2 m c).trans <|
    (W7_of m c main_arg2 (by decide)).trans <| (W6_of_ne m c main_arg2 (by decide)).trans <|
    V5_launch m c main_arg2 (by decide) (by decide) (by decide) (by decide) (by decide)
theorem W10_main_arg3 (c : Dev nD) : W10 m c main_arg3 = m ((c : Thread nD τ).loc main_arg3) :=
  (W10_of m c main_arg3 (by decide)).trans <| (W9_of_ne m c main_arg3 (by decide)).trans <| (W8_main_arg3 m c).trans <|
    (W7_of m c main_arg3 (by decide)).trans <| (W6_of_ne m c main_arg3 (by decide)).trans <|
    V5_launch m c main_arg3 (by decide) (by decide) (by decide) (by decide) (by decide)

/-- THE RUN with the result named and the arguments read back: every weakly fair execution terminates, the result
    buffer holds the last boundary's contents and each argument array its launch contents. -/
theorem run_named : θ_run defs (onTc (τ := τ) (main (F := F))) ⟨m, fun _ => 0, ρ⟩ (fun r => ∀ c : Dev nD,
      r.2.mem ((c.tc : Thread nD τ).loc main_v15) = W10 m c main_v15
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun r h c =>
    ⟨h c _ (mem_uc main_v15 (by decide)),
     (h c _ (mem_uc main_arg0 (by decide))).trans (W10_main_arg0 m c),
     (h c _ (mem_uc main_arg1 (by decide))).trans (W10_main_arg1 m c),
     (h c _ (mem_uc main_arg2 (by decide))).trans (W10_main_arg2 m c),
     (h c _ (mem_uc main_arg3 (by decide))).trans (W10_main_arg3 m c)⟩) (run_all m ρ)

/-- THE FRAME: the program runs to the end, nothing faulting, and its argument arrays end as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun r h c => (h c).2) (run_named m ρ)

end Cert.Kernel.Hand

end
-- ==== Proof.KI.Reg0.lean ====
/- The first kernel region (the segment sum, 245 grid points): the kernel keeps a running [512 × 256] accumulator in a
   scratch buffer of its own. At the first point the accumulator is reset to zero; at every point the payload of the
   point's graph-id block and rows block is added to it; at the last point it is copied to the output block, which is
   written back there and idle elsewhere. This module states, at a parameter `V` (the buffer contents when the region is
   entered), what the scratch holds after each point (`acc0`, by recursion on the point), the body's triple in each of the
   three control cases (first point, a middle point, last point), the region invariant that carries the scratch from
   point to point beside the other scoped buffers at unknown contents, and the pipeline's proof data with its body
   obligation. -/
import proofs.«417222_j31860067402236_1_alg».proof.Proof.Gen.KernelIdeal.Launch
import proofs.«417222_j31860067402236_1_alg».proof.Proof.Gen.KernelIdeal.Skeleton
import proofs.«417222_j31860067402236_1_alg».proof.Proof.Gen.KernelIdeal.Points
import Idealize.ShloMosaic.Lib.Pipeline.FrameBody
import Idealize.ShloMosaic.Lib.Pipeline.Value
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The body's two conditions, in closed form -/

/-- The first condition of the body (reset the accumulator): the grid coordinate is 0. -/
abbrev cond0_0 (i : grid0.Coords) : Prop := (Scalar.cmpi .ne (Scalar.extui (Scalar.cmpi .eq (BitVec.ofNat 32 (i 0).val) 0#32)) 0#32) = 1#1
/-- It holds at the first point only. -/
theorem hcond0_0 : ∀ t : Fin cfg0.N, cond0_0 (grid0.coords t) ↔ t.val = 0 :=
  (by decide +kernel : ∀ t : Fin grid0.N, cond0_0 (grid0.coords t) ↔ t.val = 0)

/-- The second condition of the body (copy the accumulator out): the grid coordinate is 244. -/
abbrev cond0_1 (i : grid0.Coords) : Prop := k0_cond2 i = 1#1
/-- It holds at the last point only. -/
theorem hcond0_1 : ∀ t : Fin cfg0.N, cond0_1 (grid0.coords t) ↔ t.val = 244 :=
  (by decide +kernel : ∀ t : Fin grid0.N, cond0_1 (grid0.coords t) ↔ t.val = 244)

/-! ## Where the windows are idle -/

theorem liveAt0_0 : ∀ t : Fin cfg0.N, cfg0.idle 0 (grid0.coords t) = false := by decide +kernel
theorem liveAt0_1 : ∀ t : Fin cfg0.N, cfg0.idle 1 (grid0.coords t) = false := by decide +kernel
/-- Off the last point the output window is idle and not written back. -/
theorem idleAt0_2 : ∀ t : Fin cfg0.N, ¬cond0_1 (grid0.coords t) → cfg0.idle 2 (grid0.coords t) = true := by decide +kernel
theorem noFlush0_2 : ∀ t : Fin cfg0.N, ¬cond0_1 (grid0.coords t) → (cfg0.win 2).flush t = false := by decide +kernel
/-- At the last point it is live. -/
theorem liveAt0_2 : ∀ t : Fin cfg0.N, cond0_1 (grid0.coords t) → cfg0.idle 2 (grid0.coords t) = false := by decide +kernel

/-! ## The staging memrefs, the scratch, the other scoped buffers -/

/-- Each window's current staging memref at point `t`, as the pipeline passes it to the body, and its wholeness. -/
abbrev ms0_0 (t : Fin cfg0.N) : Memref sig .tc .vmem S2048x256 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S2048x1 .i32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S512x256 .f32 := win0_2.stage (cfg0.slots t 2)
abbrev hs0_2 (t : Fin cfg0.N) : (ms0_2 t).IsWhole := hstage0_2 ((cfg0.slots t 2).cast nbuf0_2)
/-- The scratch operand: a whole scoped buffer of the kernel's own, carried from point to point. -/
abbrev scM0_0 : Memref sig .tc .vmem S512x256 .f32 := Memref.whole cc0_scratch0
/-- The same as a view, through which its contents are stated. -/
abbrev VS0_0 : View sig .tc .vmem S512x256 .f32 := scM0_0.view
/-- One staging buffer of the output window, through which its contents are stated. -/
abbrev VO0_2 : View sig .tc .vmem S512x256 .f32 := (Memref.whole cc0_stg2_0 : Memref sig .tc .vmem S512x256 .f32).view

/-- The eleven scoped buffers of the core that are neither a staging buffer of this region nor its scratch, each at
    some contents: this region never touches them. -/
def r0_others (c : Dev nD) : sProp 𝕄 :=
  iprop((∃ f : Buf (Elt F) ((c : Thread nD τ).loc cc1_stg0_0), ((c : Thread nD τ).loc cc1_stg0_0) ↦{fullShare} f) ∗ (∃ f : Buf (Elt F) ((c : Thread nD τ).loc cc1_stg1_0), ((c : Thread nD τ).loc cc1_stg1_0) ↦{fullShare} f) ∗ (∃ f : Buf (Elt F) ((c : Thread nD τ).loc cc1_stg2_0), ((c : Thread nD τ).loc cc1_stg2_0) ↦{fullShare} f) ∗ (∃ f : Buf (Elt F) ((c : Thread nD τ).loc cc1_stg3_0), ((c : Thread nD τ).loc cc1_stg3_0) ↦{fullShare} f) ∗ (∃ f : Buf (Elt F) ((c : Thread nD τ).loc cc2_stg0_0), ((c : Thread nD τ).loc cc2_stg0_0) ↦{fullShare} f) ∗ (∃ f : Buf (Elt F) ((c : Thread nD τ).loc cc2_stg0_1), ((c : Thread nD τ).loc cc2_stg0_1) ↦{fullShare} f) ∗ (∃ f : Buf (Elt F) ((c : Thread nD τ).loc cc2_stg1_0), ((c : Thread nD τ).loc cc2_stg1_0) ↦{fullShare} f) ∗ (∃ f : Buf (Elt F) ((c : Thread nD τ).loc cc2_stg1_1), ((c : Thread nD τ).loc cc2_stg1_1) ↦{fullShare} f) ∗ (∃ f : Buf (Elt F) ((c : Thread nD τ).loc cc2_stg2_0), ((c : Thread nD τ).loc cc2_stg2_0) ↦{fullShare} f) ∗ (∃ f : Buf (Elt F) ((c : Thread nD τ).loc cc2_stg3_0), ((c : Thread nD τ).loc cc2_stg3_0) ↦{fullShare} f) ∗ (∃ f : Buf (Elt F) ((c : Thread nD τ).loc cc2_stg3_1), ((c : Thread nD τ).loc cc2_stg3_1) ↦{fullShare} f))

/-- What the launch hands the region: the scratch as a memref owned at some contents, the other scoped buffers, and
    the generator register at some state. -/
theorem PhiA0_eq (c : Dev nD) :
    (Pipeline.ΦA spec0 c : sProp 𝕄)
      = iprop(iprop((∃ d, owns (c : Thread nD τ) scM0_0 fullShare d) ∗ r0_others (F := F) c) ∗ (∃ r, prngReg c r)) := by
  unfold Pipeline.ΦA; rw [scopedRest0_eq]; unfold r0_others; simp only [scM0_0, owns_whole]; try rfl

/-! ## The body in its three cases, on any whole memrefs -/

set_option maxHeartbeats 1000000 in
/-- FIRST POINT (reset taken, copy-out not taken). On whole memrefs — the two inputs' at their contents, the output's at
    contents handed back untouched, the scratch at anything — the body runs to the continuation holding the inputs' and
    the output's as they were and the scratch with the pieces of its two stores written (the list is the witness the
    run finds). -/
noncomputable def r0_runA (c : Dev nD) (i : grid0.Coords) (arg1 : Memref sig .tc .vmem S2048x256 .f32) (harg1 : arg1.IsWhole) (arg2 : Memref sig .tc .vmem S2048x1 .i32) (harg2 : arg2.IsWhole) (arg3 : Memref sig .tc .vmem S512x256 .f32) (harg3 : arg3.IsWhole) (arg4 : Memref sig .tc .vmem S512x256 .f32) (harg4 : arg4.IsWhole) (hc0 : cond0_0 i) (hc1 : ¬cond0_1 i)
    (x0 : Vec F S2048x256 .f32) (x1 : Vec F S2048x1 .i32) :
    { LS0 : List (View.Piece (Elt F) S512x256 .f32) //
      ∀ (xi2 : Vec F S512x256 .f32) (E : Set ℕ) (K : PUnit → sProp 𝕄),
        iprop(owns (c : Thread nD τ) arg1 fullShare x0 ∗ owns (c : Thread nD τ) arg2 fullShare x1 ∗ owns (c : Thread nD τ) arg3 fullShare xi2 ∗ (∃ d, owns (c : Thread nD τ) arg4 fullShare d)
            ∗ (iprop(owns (c : Thread nD τ) arg1 fullShare x0 ∗ owns (c : Thread nD τ) arg2 fullShare x1 ∗ owns (c : Thread nD τ) arg3 fullShare xi2 ∗ (∃ f, arg4.view.loc (c : Thread nD τ) ↦[arg4.view.set]{fullShare} arg4.view.writes (Elt F) f LS0)) -∗ K ⟨⟩))
          ⊢ wp frame (wpE (defs₀ (F := F)) Variants.none c none) E (cc0__segsum_kernel i arg1 harg1 arg2 harg2 arg3 harg3 arg4 harg4) K } := by
  refine ⟨?_, fun xi2 E K => ?run⟩
  case run =>
    simp only [cc0__segsum_kernel_eq_skeleton]; unfold cc0__segsum_kernel_skel
    unfold owns
    iintro ⟨⟨%f0, %hf0, H0⟩, ⟨%f1, %hf1, H1⟩, ⟨%f2, %hf2, H2⟩, ⟨%ds0, %fs0, -, HS0⟩, Hk⟩
    obtain rfl := harg1.eq_unread hf0; obtain rfl := harg2.eq_unread hf1; obtain rfl := harg3.eq_unread hf2
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    iexists _; iexact HS0

set_option maxHeartbeats 1000000 in
/-- A MIDDLE POINT (neither taken). As the first point, but the scratch is handed in at the contents the point before
    left, which the one store's payload reads. -/
noncomputable def r0_runB (c : Dev nD) (i : grid0.Coords) (arg1 : Memref sig .tc .vmem S2048x256 .f32) (harg1 : arg1.IsWhole) (arg2 : Memref sig .tc .vmem S2048x1 .i32) (harg2 : arg2.IsWhole) (arg3 : Memref sig .tc .vmem S512x256 .f32) (harg3 : arg3.IsWhole) (arg4 : Memref sig .tc .vmem S512x256 .f32) (harg4 : arg4.IsWhole) (hc0 : ¬cond0_0 i) (hc1 : ¬cond0_1 i)
    (x0 : Vec F S2048x256 .f32) (x1 : Vec F S2048x1 .i32) (xs0 : Vec F S512x256 .f32) :
    { LS0 : List (View.Piece (Elt F) S512x256 .f32) //
      ∀ (xi2 : Vec F S512x256 .f32) (E : Set ℕ) (K : PUnit → sProp 𝕄),
        iprop(owns (c : Thread nD τ) arg1 fullShare x0 ∗ owns (c : Thread nD τ) arg2 fullShare x1 ∗ owns (c : Thread nD τ) arg3 fullShare xi2 ∗ owns (c : Thread nD τ) arg4 fullShare xs0
            ∗ (iprop(owns (c : Thread nD τ) arg1 fullShare x0 ∗ owns (c : Thread nD τ) arg2 fullShare x1 ∗ owns (c : Thread nD τ) arg3 fullShare xi2 ∗ (∃ f, arg4.view.loc (c : Thread nD τ) ↦[arg4.view.set]{fullShare} arg4.view.writes (Elt F) f LS0)) -∗ K ⟨⟩))
          ⊢ wp frame (wpE (defs₀ (F := F)) Variants.none c none) E (cc0__segsum_kernel i arg1 harg1 arg2 harg2 arg3 harg3 arg4 harg4) K } := by
  refine ⟨?_, fun xi2 E K => ?run⟩
  case run =>
    simp only [cc0__segsum_kernel_eq_skeleton]; unfold cc0__segsum_kernel_skel
    unfold owns
    iintro ⟨⟨%f0, %hf0, H0⟩, ⟨%f1, %hf1, H1⟩, ⟨%f2, %hf2, H2⟩, ⟨%fs0, %hfs0, HS0⟩, Hk⟩
    obtain rfl := harg1.eq_unread hf0; obtain rfl := harg2.eq_unread hf1; obtain rfl := harg3.eq_unread hf2
    obtain rfl := harg4.eq_unread hfs0
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    iexists _; iexact HS0

set_option maxHeartbeats 1000000 in
/-- THE LAST POINT (reset not taken, copy-out taken). The output's memref is handed in at anything and comes back with
    the pieces of its one store written; the scratch as at a middle point. -/
noncomputable def r0_runC (c : Dev nD) (i : grid0.Coords) (arg1 : Memref sig .tc .vmem S2048x256 .f32) (harg1 : arg1.IsWhole) (arg2 : Memref sig .tc .vmem S2048x1 .i32) (harg2 : arg2.IsWhole) (arg3 : Memref sig .tc .vmem S512x256 .f32) (harg3 : arg3.IsWhole) (arg4 : Memref sig .tc .vmem S512x256 .f32) (harg4 : arg4.IsWhole) (hc0 : ¬cond0_0 i) (hc1 : cond0_1 i)
    (x0 : Vec F S2048x256 .f32) (x1 : Vec F S2048x1 .i32) (xs0 : Vec F S512x256 .f32) :
    Σ' (L2 : List (View.Piece (Elt F) S512x256 .f32)), { LS0 : List (View.Piece (Elt F) S512x256 .f32) //
      ∀ (E : Set ℕ) (K : PUnit → sProp 𝕄),
        iprop(owns (c : Thread nD τ) arg1 fullShare x0 ∗ owns (c : Thread nD τ) arg2 fullShare x1 ∗ (∃ d, owns (c : Thread nD τ) arg3 fullShare d) ∗ owns (c : Thread nD τ) arg4 fullShare xs0
            ∗ (iprop(owns (c : Thread nD τ) arg1 fullShare x0 ∗ owns (c : Thread nD τ) arg2 fullShare x1 ∗ (∃ f, arg3.view.loc (c : Thread nD τ) ↦[arg3.view.set]{fullShare} arg3.view.writes (Elt F) f L2) ∗ (∃ f, arg4.view.loc (c : Thread nD τ) ↦[arg4.view.set]{fullShare} arg4.view.writes (Elt F) f LS0)) -∗ K ⟨⟩))
          ⊢ wp frame (wpE (defs₀ (F := F)) Variants.none c none) E (cc0__segsum_kernel i arg1 harg1 arg2 harg2 arg3 harg3 arg4 harg4) K } := by
  refine ⟨?_, ?_, fun E K => ?run⟩
  case run =>
    simp only [cc0__segsum_kernel_eq_skeleton]; unfold cc0__segsum_kernel_skel
    unfold owns
    iintro ⟨⟨%f0, %hf0, H0⟩, ⟨%f1, %hf1, H1⟩, ⟨%d2, %f2, -, H2⟩, ⟨%fs0, %hfs0, HS0⟩, Hk⟩
    obtain rfl := harg1.eq_unread hf0; obtain rfl := harg2.eq_unread hf1
    obtain rfl := harg4.eq_unread hfs0
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]; · iexists _; iexact H2
    iexists _; iexact HS0

/-! ## What each case leaves, as a value -/

theorem r0_hz : (![0, 0] : Fin 2 → Nat) = fun _ => 0 := funext fun a => by fin_cases a <;> rfl

/-- The first point's stores cover the scratch. -/
theorem r0_scoverA (c : Dev nD) (i : grid0.Coords) (arg1 : Memref sig .tc .vmem S2048x256 .f32) (harg1 : arg1.IsWhole) (arg2 : Memref sig .tc .vmem S2048x1 .i32) (harg2 : arg2.IsWhole) (arg3 : Memref sig .tc .vmem S512x256 .f32) (harg3 : arg3.IsWhole) (arg4 : Memref sig .tc .vmem S512x256 .f32) (harg4 : arg4.IsWhole) (hc0 : cond0_0 i) (hc1 : ¬cond0_1 i)
    (x0 : Vec F S2048x256 .f32) (x1 : Vec F S2048x1 .i32) (y : S512x256.Idx) :
    ∃ pc ∈ (r0_runA c i arg1 harg1 arg2 harg2 arg3 harg3 arg4 harg4 hc0 hc1 x0 x1).1, y ∈ pc.1.set :=
  View.cover_of_tiledL (r0_runA c i arg1 harg1 arg2 harg2 arg3 harg3 arg4 harg4 hc0 hc1 x0 x1).1 S512x256.size (by sl_kernel_rfl) y

/-- What the first point leaves in the scratch: its pieces read back. -/
def r0_soutA (c : Dev nD) (i : grid0.Coords) (arg1 : Memref sig .tc .vmem S2048x256 .f32) (harg1 : arg1.IsWhole) (arg2 : Memref sig .tc .vmem S2048x1 .i32) (harg2 : arg2.IsWhole) (arg3 : Memref sig .tc .vmem S512x256 .f32) (harg3 : arg3.IsWhole) (arg4 : Memref sig .tc .vmem S512x256 .f32) (harg4 : arg4.IsWhole) (hc0 : cond0_0 i) (hc1 : ¬cond0_1 i)
    (x0 : Vec F S2048x256 .f32) (x1 : Vec F S2048x1 .i32) : Vec F S512x256 .f32 :=
  VS0_0.read (Elt F) (VS0_0.writes (Elt F) VS0_0.junk (r0_runA c i arg1 harg1 arg2 harg2 arg3 harg3 arg4 harg4 hc0 hc1 x0 x1).1)

/-- It is the payload of the two blocks over the zero block the reset stored. -/
theorem r0_soutA_eq (c : Dev nD) (i : grid0.Coords) (arg1 : Memref sig .tc .vmem S2048x256 .f32) (harg1 : arg1.IsWhole) (arg2 : Memref sig .tc .vmem S2048x1 .i32) (harg2 : arg2.IsWhole) (arg3 : Memref sig .tc .vmem S512x256 .f32) (harg3 : arg3.IsWhole) (arg4 : Memref sig .tc .vmem S512x256 .f32) (harg4 : arg4.IsWhole) (hc0 : cond0_0 i) (hc1 : ¬cond0_1 i)
    (x0 : Vec F S2048x256 .f32) (x1 : Vec F S2048x1 .i32) :
    r0_soutA c i arg1 harg1 arg2 harg2 arg3 harg3 arg4 harg4 hc0 hc1 x0 x1 = k0_pay2 x1 x0 (k0_pay1 (F := F)) := by
  unfold r0_soutA
  rw [View.read_writes_eq_canon _ _ _ (r0_scoverA c i arg1 harg1 arg2 harg2 arg3 harg3 arg4 harg4 hc0 hc1 x0 x1)]
  unfold r0_runA
  dsimp only
  sl_unfold_words
  rw [View.canon_cons_unit_zero (S := S512x256) r0_hz, View.readCov_unit_zero (S := S512x256) _ r0_hz]
  simp only [View.readAt_eq_ld, harg1.read_unread, harg2.read_unread, View.ld_unit_zero (S := S2048x256) r0_hz, View.ld_unit_zero (S := S2048x1) r0_hz]

/-- A middle point's one store covers the scratch. -/
theorem r0_scoverB (c : Dev nD) (i : grid0.Coords) (arg1 : Memref sig .tc .vmem S2048x256 .f32) (harg1 : arg1.IsWhole) (arg2 : Memref sig .tc .vmem S2048x1 .i32) (harg2 : arg2.IsWhole) (arg3 : Memref sig .tc .vmem S512x256 .f32) (harg3 : arg3.IsWhole) (arg4 : Memref sig .tc .vmem S512x256 .f32) (harg4 : arg4.IsWhole) (hc0 : ¬cond0_0 i) (hc1 : ¬cond0_1 i)
    (x0 : Vec F S2048x256 .f32) (x1 : Vec F S2048x1 .i32) (xs0 : Vec F S512x256 .f32) (y : S512x256.Idx) :
    ∃ pc ∈ (r0_runB c i arg1 harg1 arg2 harg2 arg3 harg3 arg4 harg4 hc0 hc1 x0 x1 xs0).1, y ∈ pc.1.set :=
  View.cover_of_tiledL (r0_runB c i arg1 harg1 arg2 harg2 arg3 harg3 arg4 harg4 hc0 hc1 x0 x1 xs0).1 S512x256.size (by sl_kernel_rfl) y

/-- What a middle point leaves in the scratch. -/
def r0_soutB (c : Dev nD) (i : grid0.Coords) (arg1 : Memref sig .tc .vmem S2048x256 .f32) (harg1 : arg1.IsWhole) (arg2 : Memref sig .tc .vmem S2048x1 .i32) (harg2 : arg2.IsWhole) (arg3 : Memref sig .tc .vmem S512x256 .f32) (harg3 : arg3.IsWhole) (arg4 : Memref sig .tc .vmem S512x256 .f32) (harg4 : arg4.IsWhole) (hc0 : ¬cond0_0 i) (hc1 : ¬cond0_1 i)
    (x0 : Vec F S2048x256 .f32) (x1 : Vec F S2048x1 .i32) (xs0 : Vec F S512x256 .f32) : Vec F S512x256 .f32 :=
  VS0_0.read (Elt F) (VS0_0.writes (Elt F) VS0_0.junk (r0_runB c i arg1 harg1 arg2 harg2 arg3 harg3 arg4 harg4 hc0 hc1 x0 x1 xs0).1)

/-- It is the payload of the two blocks over what the scratch held. -/
theorem r0_soutB_eq (c : Dev nD) (i : grid0.Coords) (arg1 : Memref sig .tc .vmem S2048x256 .f32) (harg1 : arg1.IsWhole) (arg2 : Memref sig .tc .vmem S2048x1 .i32) (harg2 : arg2.IsWhole) (arg3 : Memref sig .tc .vmem S512x256 .f32) (harg3 : arg3.IsWhole) (arg4 : Memref sig .tc .vmem S512x256 .f32) (harg4 : arg4.IsWhole) (hc0 : ¬cond0_0 i) (hc1 : ¬cond0_1 i)
    (x0 : Vec F S2048x256 .f32) (x1 : Vec F S2048x1 .i32) (xs0 : Vec F S512x256 .f32) :
    r0_soutB c i arg1 harg1 arg2 harg2 arg3 harg3 arg4 harg4 hc0 hc1 x0 x1 xs0 = k0_pay2 x1 x0 xs0 := by
  unfold r0_soutB
  rw [View.read_writes_eq_canon _ _ _ (r0_scoverB c i arg1 harg1 arg2 harg2 arg3 harg3 arg4 harg4 hc0 hc1 x0 x1 xs0)]
  unfold r0_runB
  dsimp only
  sl_unfold_words
  rw [View.canon_cons_unit_zero (S := S512x256) r0_hz]
  simp only [View.readAt_eq_ld, harg1.read_unread, harg2.read_unread, harg4.read_unread, View.ld_unit_zero (S := S2048x256) r0_hz, View.ld_unit_zero (S := S2048x1) r0_hz, View.ld_unit_zero (S := S512x256) r0_hz]

/-- The last point's one store into the scratch covers it, -/
theorem r0_scoverC (c : Dev nD) (i : grid0.Coords) (arg1 : Memref sig .tc .vmem S2048x256 .f32) (harg1 : arg1.IsWhole) (arg2 : Memref sig .tc .vmem S2048x1 .i32) (harg2 : arg2.IsWhole) (arg3 : Memref sig .tc .vmem S512x256 .f32) (harg3 : arg3.IsWhole) (arg4 : Memref sig .tc .vmem S512x256 .f32) (harg4 : arg4.IsWhole) (hc0 : ¬cond0_0 i) (hc1 : cond0_1 i)
    (x0 : Vec F S2048x256 .f32) (x1 : Vec F S2048x1 .i32) (xs0 : Vec F S512x256 .f32) (y : S512x256.Idx) :
    ∃ pc ∈ (r0_runC c i arg1 harg1 arg2 harg2 arg3 harg3 arg4 harg4 hc0 hc1 x0 x1 xs0).2.1, y ∈ pc.1.set :=
  View.cover_of_tiledL (r0_runC c i arg1 harg1 arg2 harg2 arg3 harg3 arg4 harg4 hc0 hc1 x0 x1 xs0).2.1 S512x256.size (by sl_kernel_rfl) y

/-- and its one store into the output block covers that. -/
theorem r0_coverC (c : Dev nD) (i : grid0.Coords) (arg1 : Memref sig .tc .vmem S2048x256 .f32) (harg1 : arg1.IsWhole) (arg2 : Memref sig .tc .vmem S2048x1 .i32) (harg2 : arg2.IsWhole) (arg3 : Memref sig .tc .vmem S512x256 .f32) (harg3 : arg3.IsWhole) (arg4 : Memref sig .tc .vmem S512x256 .f32) (harg4 : arg4.IsWhole) (hc0 : ¬cond0_0 i) (hc1 : cond0_1 i)
    (x0 : Vec F S2048x256 .f32) (x1 : Vec F S2048x1 .i32) (xs0 : Vec F S512x256 .f32) (y : S512x256.Idx) :
    ∃ pc ∈ (r0_runC c i arg1 harg1 arg2 harg2 arg3 harg3 arg4 harg4 hc0 hc1 x0 x1 xs0).1, y ∈ pc.1.set :=
  View.cover_of_tiledL (r0_runC c i arg1 harg1 arg2 harg2 arg3 harg3 arg4 harg4 hc0 hc1 x0 x1 xs0).1 S512x256.size (by sl_kernel_rfl) y

/-- What the last point leaves in the scratch, -/
def r0_soutC (c : Dev nD) (i : grid0.Coords) (arg1 : Memref sig .tc .vmem S2048x256 .f32) (harg1 : arg1.IsWhole) (arg2 : Memref sig .tc .vmem S2048x1 .i32) (harg2 : arg2.IsWhole) (arg3 : Memref sig .tc .vmem S512x256 .f32) (harg3 : arg3.IsWhole) (arg4 : Memref sig .tc .vmem S512x256 .f32) (harg4 : arg4.IsWhole) (hc0 : ¬cond0_0 i) (hc1 : cond0_1 i)
    (x0 : Vec F S2048x256 .f32) (x1 : Vec F S2048x1 .i32) (xs0 : Vec F S512x256 .f32) : Vec F S512x256 .f32 :=
  VS0_0.read (Elt F) (VS0_0.writes (Elt F) VS0_0.junk (r0_runC c i arg1 harg1 arg2 harg2 arg3 harg3 arg4 harg4 hc0 hc1 x0 x1 xs0).2.1)

/-- and in the output block. -/
def r0_outC (c : Dev nD) (i : grid0.Coords) (arg1 : Memref sig .tc .vmem S2048x256 .f32) (harg1 : arg1.IsWhole) (arg2 : Memref sig .tc .vmem S2048x1 .i32) (harg2 : arg2.IsWhole) (arg3 : Memref sig .tc .vmem S512x256 .f32) (harg3 : arg3.IsWhole) (arg4 : Memref sig .tc .vmem S512x256 .f32) (harg4 : arg4.IsWhole) (hc0 : ¬cond0_0 i) (hc1 : cond0_1 i)
    (x0 : Vec F S2048x256 .f32) (x1 : Vec F S2048x1 .i32) (xs0 : Vec F S512x256 .f32) : Vec F S512x256 .f32 :=
  VO0_2.read (Elt F) (VO0_2.writes (Elt F) VO0_2.junk (r0_runC c i arg1 harg1 arg2 harg2 arg3 harg3 arg4 harg4 hc0 hc1 x0 x1 xs0).1)

/-- The scratch: the payload over what it held, as at a middle point. -/
theorem r0_soutC_eq (c : Dev nD) (i : grid0.Coords) (arg1 : Memref sig .tc .vmem S2048x256 .f32) (harg1 : arg1.IsWhole) (arg2 : Memref sig .tc .vmem S2048x1 .i32) (harg2 : arg2.IsWhole) (arg3 : Memref sig .tc .vmem S512x256 .f32) (harg3 : arg3.IsWhole) (arg4 : Memref sig .tc .vmem S512x256 .f32) (harg4 : arg4.IsWhole) (hc0 : ¬cond0_0 i) (hc1 : cond0_1 i)
    (x0 : Vec F S2048x256 .f32) (x1 : Vec F S2048x1 .i32) (xs0 : Vec F S512x256 .f32) :
    r0_soutC c i arg1 harg1 arg2 harg2 arg3 harg3 arg4 harg4 hc0 hc1 x0 x1 xs0 = k0_pay2 x1 x0 xs0 := by
  unfold r0_soutC
  rw [View.read_writes_eq_canon _ _ _ (r0_scoverC c i arg1 harg1 arg2 harg2 arg3 harg3 arg4 harg4 hc0 hc1 x0 x1 xs0)]
  unfold r0_runC
  dsimp only
  sl_unfold_words
  rw [View.canon_cons_unit_zero (S := S512x256) r0_hz]
  simp only [View.readAt_eq_ld, harg1.read_unread, harg2.read_unread, harg4.read_unread, View.ld_unit_zero (S := S2048x256) r0_hz, View.ld_unit_zero (S := S2048x1) r0_hz, View.ld_unit_zero (S := S512x256) r0_hz]

/-- The output block: the scratch read back after that store, the same value. -/
theorem r0_outC_eq (c : Dev nD) (i : grid0.Coords) (arg1 : Memref sig .tc .vmem S2048x256 .f32) (harg1 : arg1.IsWhole) (arg2 : Memref sig .tc .vmem S2048x1 .i32) (harg2 : arg2.IsWhole) (arg3 : Memref sig .tc .vmem S512x256 .f32) (harg3 : arg3.IsWhole) (arg4 : Memref sig .tc .vmem S512x256 .f32) (harg4 : arg4.IsWhole) (hc0 : ¬cond0_0 i) (hc1 : cond0_1 i)
    (x0 : Vec F S2048x256 .f32) (x1 : Vec F S2048x1 .i32) (xs0 : Vec F S512x256 .f32) :
    r0_outC c i arg1 harg1 arg2 harg2 arg3 harg3 arg4 harg4 hc0 hc1 x0 x1 xs0 = k0_pay2 x1 x0 xs0 := by
  unfold r0_outC
  rw [View.read_writes_eq_canon _ _ _ (r0_coverC c i arg1 harg1 arg2 harg2 arg3 harg3 arg4 harg4 hc0 hc1 x0 x1 xs0)]
  unfold r0_runC
  dsimp only
  sl_unfold_words
  rw [View.canon_cons_unit_zero (S := S512x256) r0_hz, View.readCov_unit_zero (S := S512x256) _ r0_hz]
  simp only [View.readAt_eq_ld, harg1.read_unread, harg2.read_unread, harg4.read_unread, View.ld_unit_zero (S := S2048x256) r0_hz, View.ld_unit_zero (S := S2048x1) r0_hz, View.ld_unit_zero (S := S512x256) r0_hz]

section
variable (V : (c : Dev nD) → (b : Ref sig .tc) → Buf (Elt F) ((c : Thread nD τ).loc b))

/-! ## The windows' blocks and the running accumulator -/

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- An input window's current staging buffer holds its block at every point. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-- THE ACCUMULATION. What the scratch holds after point `n`: after the first point the payload of its two blocks over
    the zero block; after a later point the payload of its two blocks over what the point before left. -/
def acc0 (c : Dev nD) : (n : ℕ) → n < cfg0.N → Vec F S512x256 .f32
  | 0, h => k0_pay2 (iblk0 V c 1 ⟨0, h⟩) (iblk0 V c 0 ⟨0, h⟩) (k0_pay1 (F := F))
  | n + 1, h => k0_pay2 (iblk0 V c 1 ⟨n + 1, h⟩) (iblk0 V c 0 ⟨n + 1, h⟩) (acc0 c n (Nat.lt_of_succ_lt h))

theorem acc0_zero (c : Dev nD) (h : 0 < cfg0.N) :
    acc0 V c 0 h = k0_pay2 (iblk0 V c 1 ⟨0, h⟩) (iblk0 V c 0 ⟨0, h⟩) (k0_pay1 (F := F)) := rfl
theorem acc0_succ (c : Dev nD) (n : ℕ) (h : n + 1 < cfg0.N) :
    acc0 V c (n + 1) h = k0_pay2 (iblk0 V c 1 ⟨n + 1, h⟩) (iblk0 V c 0 ⟨n + 1, h⟩) (acc0 V c n (Nat.lt_of_succ_lt h)) := rfl

/-- At the first point, stated at the point. -/
theorem r0_acc_first (c : Dev nD) (t : Fin cfg0.N) (hz : t.val = 0) :
    acc0 V c t.val t.isLt = k0_pay2 (iblk0 V c 1 t) (iblk0 V c 0 t) (k0_pay1 (F := F)) := by
  obtain ⟨n, hn⟩ := t
  cases n with
  | zero => rfl
  | succ n => exact absurd hz (Nat.succ_ne_zero n)

/-- At a later point, stated at the point. -/
theorem r0_acc_later (c : Dev nD) (t : Fin cfg0.N) (hz : t.val ≠ 0) :
    acc0 V c t.val t.isLt = k0_pay2 (iblk0 V c 1 t) (iblk0 V c 0 t) (acc0 V c (t.val - 1) (Nat.lt_of_le_of_lt (Nat.sub_le _ _) t.isLt)) := by
  obtain ⟨n, hn⟩ := t
  cases n with
  | zero => exact absurd rfl hz
  | succ n => rfl

/-! ## The region invariant -/

/-- Before position `n`: before the first point what the launch hands over (the scratch at anything); afterwards the
    scratch at what the point before left in it, the other scoped buffers at some contents, and the generator register
    at some state. -/
def PhiS0 (c : Dev nD) : (n : ℕ) → n ≤ cfg0.N → sProp 𝕄
  | 0, _ => Pipeline.ΦA spec0 c
  | n + 1, hn => iprop(iprop(owns (c : Thread nD τ) scM0_0 fullShare (acc0 V c n hn) ∗ r0_others (F := F) c) ∗ (∃ r, prngReg c r))

theorem PhiS0_zero (c : Dev nD) (n : ℕ) (h : n ≤ cfg0.N) (hz : n = 0) : PhiS0 V c n h = Pipeline.ΦA spec0 c := by
  subst hz; rfl

theorem PhiS0_succ (c : Dev nD) (n : ℕ) (hn : n < cfg0.N) :
    PhiS0 V c (n + 1) hn = iprop(iprop(owns (c : Thread nD τ) scM0_0 fullShare (acc0 V c n hn) ∗ r0_others (F := F) c) ∗ (∃ r, prngReg c r)) := rfl

theorem PhiS0_pos (c : Dev nD) (n : ℕ) (h : n ≤ cfg0.N) (hz : n ≠ 0) :
    PhiS0 V c n h = iprop(iprop(owns (c : Thread nD τ) scM0_0 fullShare (acc0 V c (n - 1) (by omega)) ∗ r0_others (F := F) c) ∗ (∃ r, prngReg c r)) := by
  cases n with
  | zero => exact absurd rfl hz
  | succ n => rfl

/-! ## The pipeline's proof data -/

/-- The proof data of the region on core `c`: the arrays as the region finds them; after the body at point `t` each
    input's buffer at its block, the output's at the accumulator (it is stored at the last point only; elsewhere the
    window is idle and nothing consults this); the invariant `PhiS0`; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => acc0 V c t.val t.isLt
  Φ t := PhiS0 V c t.val (Nat.le_of_lt_succ t.isLt)
  q _ := fullShare
  owed _ := 0

theorem A_eq0 (c : Dev nD) (w : Fin cfg0.W) : (dat0 V c).A w = V c (Pipeline.arrRef spec0 w) := by
  dsimp only [dat0]

theorem PhiS0_castSucc (c : Dev nD) (t : Fin cfg0.N) :
    (dat0 V c).Φ t.castSucc = PhiS0 V c t.val (Nat.le_of_lt t.isLt) := by
  dsimp only [dat0]; simp only [Fin.coe_castSucc]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = acc0 V c t.val t.isLt := by dsimp only [dat0]
theorem after0_2_last (c : Dev nD) (t : Fin cfg0.N) (ht : t.val = 244) : (dat0 V c).after 2 t = acc0 V c t.val t.isLt :=
  after0_2 V c t

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d

/-! ## The body obligation, at a generic point -/

/-- What the body is called with at point `t`, the windows one by one, -/
def bodyPre0 (c : Dev nD) (t : Fin cfg0.N) : sProp 𝕄 :=
  iprop((dat0 V c).Φ t.castSucc ∗ (dat0 V c).owesAt () t.castSucc
    ∗ (∃ d, owns (c : Thread nD τ) (ms0_0 t) fullShare ((dat0 V c).before 0 t d))
    ∗ (∃ d, owns (c : Thread nD τ) (ms0_1 t) fullShare ((dat0 V c).before 1 t d))
    ∗ (∃ d, owns (c : Thread nD τ) (ms0_2 t) fullShare ((dat0 V c).before 2 t d)))

/-- and what it returns. -/
def bodyPost0 (c : Dev nD) (t : Fin cfg0.N) : sProp 𝕄 :=
  iprop((dat0 V c).Φ t.succ ∗ (dat0 V c).owesAt () t.succ
    ∗ (dat0 V c).leavesExact 0 t
    ∗ (dat0 V c).leavesExact 1 t
    ∗ (dat0 V c).leavesExact 2 t)

set_option maxHeartbeats 4800000 in
/-- The body at any point. The inputs' memrefs hold their blocks; the closed forms of the two conditions say which of
    the three cases the point is in; the invariant hands the body the scratch at what the point before left (at anything
    at the first point) and takes it back at this point's accumulator; the other scoped buffers and the generator
    register pass through; off the last point the output's buffer is handed back untouched, at the last point it holds
    the accumulator. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1]
  rw [show (dat0 V c).owesAt () t.succ = (dat0 V c).owesAt () t.castSucc from rfl]
  rw [show (dat0 V c).Φ t.succ = PhiS0 V c (t.val + 1) t.isLt from rfl, PhiS0_succ]
  rw [show (dat0 V c).leavesExact 0 t = owns (c : Thread nD τ) (ms0_0 t) fullShare ((dat0 V c).after 0 t) from by
    unfold Dat.leavesExact; rw [liveAt0_0 t], after0_0]
  rw [show (dat0 V c).leavesExact 1 t = owns (c : Thread nD τ) (ms0_1 t) fullShare ((dat0 V c).after 1 t) from by
    unfold Dat.leavesExact; rw [liveAt0_1 t], after0_1]
  have hN : t.val < 245 := lt_of_lt_of_eq t.isLt (show cfg0.N = 245 from N_0)
  by_cases h0 : t.val = 0
  · have hc0 : cond0_0 (grid0.coords t) := (hcond0_0 t).mpr h0
    have hc1 : ¬cond0_1 (grid0.coords t) := fun h => by have := (hcond0_1 t).mp h; omega
    rw [Dat.leavesExact_idle (dat0 V c) 2 t (idleAt0_2 t hc1) (noFlush0_2 t hc1)]
    rw [r0_acc_first V c t h0]
    rw [PhiS0_castSucc V c t, PhiS0_zero V c _ _ h0, PhiA0_eq]
    iintro ⟨⟨⟨HS0, Hr⟩, Hg⟩, Ho, ⟨%d0, H0⟩, ⟨%d1, H1⟩, ⟨%d2, H2⟩⟩
    iapply ((r0_runA c (grid0.coords t) (ms0_0 t) (hs0_0 t) (ms0_1 t) (hs0_1 t) (ms0_2 t) (hs0_2 t) scM0_0 (Memref.isWhole_whole _) hc0 hc1 (iblk0 V c 0 t) (iblk0 V c 1 t)).2 _ Set.univ _)
    isplitl [H0]; · iexact H0
    isplitl [H1]; · iexact H1
    isplitl [H2]; · iexact H2
    isplitl [HS0]; · iexact HS0
    iintro ⟨H0, H1, H2, ⟨%es0, HS0⟩⟩
    isplitl [HS0 Hr Hg]
    · isplitl [HS0 Hr]
      · isplitl [HS0]
        · unfold owns; iexists _; isplitr
          swap; · iexact HS0
          ipureintro
          exact (View.read_writes_of_cover _ _ VS0_0 VS0_0.junk _ (r0_scoverA c (grid0.coords t) (ms0_0 t) (hs0_0 t) (ms0_1 t) (hs0_1 t) (ms0_2 t) (hs0_2 t) scM0_0 (Memref.isWhole_whole _) hc0 hc1 (iblk0 V c 0 t) (iblk0 V c 1 t))).trans
            (r0_soutA_eq c (grid0.coords t) (ms0_0 t) (hs0_0 t) (ms0_1 t) (hs0_1 t) (ms0_2 t) (hs0_2 t) scM0_0 (Memref.isWhole_whole _) hc0 hc1 (iblk0 V c 0 t) (iblk0 V c 1 t))
        iexact Hr
      iexact Hg
    isplitl [Ho]; · iexact Ho
    isplitl [H0]; · iexact H0
    isplitl [H1]; · iexact H1
    iexists _; iexact H2
  · have hc0 : ¬cond0_0 (grid0.coords t) := fun h => h0 ((hcond0_0 t).mp h)
    by_cases h1 : t.val = 244
    · have hc1 : cond0_1 (grid0.coords t) := (hcond0_1 t).mpr h1
      rw [show (dat0 V c).leavesExact 2 t = owns (c : Thread nD τ) (ms0_2 t) fullShare ((dat0 V c).after 2 t) from by
        unfold Dat.leavesExact; rw [liveAt0_2 t hc1], after0_2]
      rw [r0_acc_later V c t h0]
      rw [PhiS0_castSucc V c t, PhiS0_pos V c _ _ h0]
      iintro ⟨⟨⟨HS0, Hr⟩, Hg⟩, Ho, ⟨%d0, H0⟩, ⟨%d1, H1⟩, ⟨%d2, H2⟩⟩
      iapply ((r0_runC c (grid0.coords t) (ms0_0 t) (hs0_0 t) (ms0_1 t) (hs0_1 t) (ms0_2 t) (hs0_2 t) scM0_0 (Memref.isWhole_whole _) hc0 hc1 (iblk0 V c 0 t) (iblk0 V c 1 t) (acc0 V c (t.val - 1) (Nat.lt_of_le_of_lt (Nat.sub_le _ _) t.isLt))).2.2 Set.univ _)
      isplitl [H0]; · iexact H0
      isplitl [H1]; · iexact H1
      isplitl [H2]; · iexists _; iexact H2
      isplitl [HS0]; · iexact HS0
      iintro ⟨H0, H1, ⟨%e2, H2⟩, ⟨%es0, HS0⟩⟩
      isplitl [HS0 Hr Hg]
      · isplitl [HS0 Hr]
        · isplitl [HS0]
          · unfold owns; iexists _; isplitr
            swap; · iexact HS0
            ipureintro
            exact (View.read_writes_of_cover _ _ VS0_0 VS0_0.junk _ (r0_scoverC c (grid0.coords t) (ms0_0 t) (hs0_0 t) (ms0_1 t) (hs0_1 t) (ms0_2 t) (hs0_2 t) scM0_0 (Memref.isWhole_whole _) hc0 hc1 (iblk0 V c 0 t) (iblk0 V c 1 t) (acc0 V c (t.val - 1) (Nat.lt_of_le_of_lt (Nat.sub_le _ _) t.isLt)))).trans
              (r0_soutC_eq c (grid0.coords t) (ms0_0 t) (hs0_0 t) (ms0_1 t) (hs0_1 t) (ms0_2 t) (hs0_2 t) scM0_0 (Memref.isWhole_whole _) hc0 hc1 (iblk0 V c 0 t) (iblk0 V c 1 t) (acc0 V c (t.val - 1) (Nat.lt_of_le_of_lt (Nat.sub_le _ _) t.isLt)))
          iexact Hr
        iexact Hg
      isplitl [Ho]; · iexact Ho
      isplitl [H0]; · iexact H0
      isplitl [H1]; · iexact H1
      unfold owns; iexists _; isplitr
      swap; · iexact H2
      ipureintro
      exact (View.read_writes_of_cover _ _ VO0_2 VO0_2.junk _ (r0_coverC c (grid0.coords t) (ms0_0 t) (hs0_0 t) (ms0_1 t) (hs0_1 t) (ms0_2 t) (hs0_2 t) scM0_0 (Memref.isWhole_whole _) hc0 hc1 (iblk0 V c 0 t) (iblk0 V c 1 t) (acc0 V c (t.val - 1) (Nat.lt_of_le_of_lt (Nat.sub_le _ _) t.isLt)))).trans
        (r0_outC_eq c (grid0.coords t) (ms0_0 t) (hs0_0 t) (ms0_1 t) (hs0_1 t) (ms0_2 t) (hs0_2 t) scM0_0 (Memref.isWhole_whole _) hc0 hc1 (iblk0 V c 0 t) (iblk0 V c 1 t) (acc0 V c (t.val - 1) (Nat.lt_of_le_of_lt (Nat.sub_le _ _) t.isLt)))
    · have hc1 : ¬cond0_1 (grid0.coords t) := fun h => h1 ((hcond0_1 t).mp h)
      rw [Dat.leavesExact_idle (dat0 V c) 2 t (idleAt0_2 t hc1) (noFlush0_2 t hc1)]
      rw [r0_acc_later V c t h0]
      rw [PhiS0_castSucc V c t, PhiS0_pos V c _ _ h0]
      iintro ⟨⟨⟨HS0, Hr⟩, Hg⟩, Ho, ⟨%d0, H0⟩, ⟨%d1, H1⟩, ⟨%d2, H2⟩⟩
      iapply ((r0_runB c (grid0.coords t) (ms0_0 t) (hs0_0 t) (ms0_1 t) (hs0_1 t) (ms0_2 t) (hs0_2 t) scM0_0 (Memref.isWhole_whole _) hc0 hc1 (iblk0 V c 0 t) (iblk0 V c 1 t) (acc0 V c (t.val - 1) (Nat.lt_of_le_of_lt (Nat.sub_le _ _) t.isLt))).2 _ Set.univ _)
      isplitl [H0]; · iexact H0
      isplitl [H1]; · iexact H1
      isplitl [H2]; · iexact H2
      isplitl [HS0]; · iexact HS0
      iintro ⟨H0, H1, H2, ⟨%es0, HS0⟩⟩
      isplitl [HS0 Hr Hg]
      · isplitl [HS0 Hr]
        · isplitl [HS0]
          · unfold owns; iexists _; isplitr
            swap; · iexact HS0
            ipureintro
            exact (View.read_writes_of_cover _ _ VS0_0 VS0_0.junk _ (r0_scoverB c (grid0.coords t) (ms0_0 t) (hs0_0 t) (ms0_1 t) (hs0_1 t) (ms0_2 t) (hs0_2 t) scM0_0 (Memref.isWhole_whole _) hc0 hc1 (iblk0 V c 0 t) (iblk0 V c 1 t) (acc0 V c (t.val - 1) (Nat.lt_of_le_of_lt (Nat.sub_le _ _) t.isLt)))).trans
              (r0_soutB_eq c (grid0.coords t) (ms0_0 t) (hs0_0 t) (ms0_1 t) (hs0_1 t) (ms0_2 t) (hs0_2 t) scM0_0 (Memref.isWhole_whole _) hc0 hc1 (iblk0 V c 0 t) (iblk0 V c 1 t) (acc0 V c (t.val - 1) (Nat.lt_of_le_of_lt (Nat.sub_le _ _) t.isLt)))
          iexact Hr
        iexact Hg
      isplitl [Ho]; · iexact Ho
      isplitl [H0]; · iexact H0
      isplitl [H1]; · iexact H1
      iexists _; iexact H2

/-- The library's body obligation, at every point. -/
theorem body_obligation0 (c : Dev nD) : BodyObligation (dat0 (F := F) V c) (defs₀ (F := F)) Variants.none () Set.univ := fun t => by
  rw [bigSep_W0, bigSep_W0]
  exact sound_body0 V c t

/-- What the launch hands the region is the invariant before the first point. -/
theorem hin0 (c : Dev nD) : Pipeline.ΦA spec0 c ⊢ (dat0 V c).Φ 0 := by
  rw [show (dat0 V c).Φ 0 = PhiS0 V c 0 (Nat.zero_le _) from rfl, PhiS0_zero V c 0 _ rfl]
  try exact Idealize.SL.BI.Entails.refl _

/-- After any point the invariant gives back what the launch handed over: the scratch's contents are forgotten. -/
theorem Phi_out0 (c : Dev nD) (t : Fin (cfg0.N + 1)) (ht : t.val ≠ 0) : (dat0 V c).Φ t ⊢ Pipeline.ΦA spec0 c := by
  rw [show (dat0 V c).Φ t = PhiS0 V c t.val (Nat.le_of_lt_succ t.isLt) from rfl, PhiS0_pos V c _ _ ht, PhiA0_eq]
  iintro ⟨⟨HS0, Hr⟩, Hg⟩
  isplitl [HS0 Hr]
  · isplitl [HS0]
    · iexists _; iexact HS0
    iexact Hr
  iexact Hg

/-- The same after the last point. -/
theorem hout0 (c : Dev nD) : (dat0 V c).Φ (Fin.last cfg0.N) ⊢ Pipeline.ΦA spec0 c :=
  Phi_out0 V c _ (by rw [Fin.val_last]; have : cfg0.N = 245 := N_0; omega)

/-! ## The output array after the region -/

/-- The last point of the grid. -/
def r0_last : Fin cfg0.N := ⟨244, by have : cfg0.N = 245 := N_0; omega⟩

/-- The output window is written back at the last point only. -/
theorem r0_flush_last (t : Fin cfg0.N) (hf : (cfg0.win 2).flush t = true) : t = r0_last := by
  have h := (flush0_2 t).mp hf
  have hN : t.val < 245 := lt_of_lt_of_eq t.isLt (show cfg0.N = 245 from N_0)
  exact Fin.ext (by show t.val = 244; omega)

/-- What the last point writes back through the output window is the accumulator after it: the window's block is its
    whole array, read at zero offsets. -/
theorem r0_flushed_eq (c : Dev nD) (t : Fin cfg0.N) (hf : (cfg0.win 2).flush t = true) :
    (dat0 V c).flushed 2 t = ((cfg0.win 2).blk t).view.read (Elt F) (acc0 V c 244 (by have : cfg0.N = 245 := N_0; omega)) := by
  obtain rfl : t = r0_last := r0_flush_last t hf
  show (cfg0.win 2).cut (grid0.coords r0_last) ((dat0 V c).after 2 r0_last) = _
  rw [after0_2]
  have hz : (fun a => win0_2.index r0_last a * main_v3.ty.shape.size a) = fun _ => 0 := funext fun a => by fin_cases a <;> decide +kernel
  exact (Memref.read_access_unit_zero (Elt F) main_v3 hz (fun a => by rw [congrFun hz a]; simp)
    (acc0 V c 244 (by have : cfg0.N = 245 := N_0; omega))).symm

/-- The output window's array after the region: the last point's block covers it, so it holds the accumulator after the
    last point. -/
theorem arr0_final (c : Dev nD) : (dat0 V c).arrAt 2 cfg0.N = acc0 V c 244 (by have : cfg0.N = 245 := N_0; omega) :=
  (dat0 V c).arrAt_eq_of_cover 2 (acc0 V c 244 (by have : cfg0.N = 245 := N_0; omega))
    (fun t hf => r0_flushed_eq V c t hf) fun i =>
    ⟨r0_last, (flush0_2 r0_last).mpr (by decide), by
      show i ∈ ((View.whole main_v3).slice (win0_2.rect r0_last)).set
      rw [View.set_slice_whole, Rect.mem_set_unit]
      intro a
      have h0 : (i 0 : Nat) < 512 := (i 0).isLt
      have h1 : (i 1 : Nat) < 256 := (i 1).isLt
      match a with
      | ⟨0, _⟩ =>
        show win0_2.index r0_last 0 * win0_2.size 0 ≤ (i 0 : Nat) ∧ (i 0 : Nat) < win0_2.index r0_last 0 * win0_2.size 0 + win0_2.xsize (grid0.coords r0_last) 0
        rw [show win0_2.index r0_last 0 * win0_2.size 0 = 0 from by decide +kernel, show win0_2.xsize (grid0.coords r0_last) 0 = 512 from by decide +kernel]; omega
      | ⟨1, _⟩ =>
        show win0_2.index r0_last 1 * win0_2.size 1 ≤ (i 1 : Nat) ∧ (i 1 : Nat) < win0_2.index r0_last 1 * win0_2.size 1 + win0_2.xsize (grid0.coords r0_last) 1
        rw [show win0_2.index r0_last 1 * win0_2.size 1 = 0 from by decide +kernel, show win0_2.xsize (grid0.coords r0_last) 1 = 256 from by decide +kernel]; omega⟩

end

end Cert.KernelIdeal.Hand

end
-- ==== Proof.KI.Reg1.lean ====
/- The second kernel region (the squeeze-excite network, one grid point): what each window's staging buffer holds
   around the body, the body's triple, and the pipeline's proof data with its body obligation, all at a parameter
   `V`, the buffer contents when the region is entered. The output block is the one store of the body, the
   payload `k1_pay1` of the three input blocks. -/
import proofs.«417222_j31860067402236_1_alg».proof.Proof.Gen.KernelIdeal.Launch
import proofs.«417222_j31860067402236_1_alg».proof.Proof.Gen.KernelIdeal.Skeleton
import proofs.«417222_j31860067402236_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section
variable (V : (c : Dev nD) → (b : Ref sig .tc) → Buf (Elt F) ((c : Thread nD τ).loc b))

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- An input window's current staging buffer holds its block at every point. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

/-- The body's accesses: each a whole staging buffer. -/
abbrev r1_a : Rect S512x256 := Rect.unit (s := S512x256) ![0, 0] S512x256.size inb_S512x256_S512x256_0_0
abbrev r1_b : Rect S256x16 := Rect.unit (s := S256x16) ![0, 0] S256x16.size inb_S256x16_S256x16_0_0
abbrev r1_c : Rect S16x256 := Rect.unit (s := S16x256) ![0, 0] S16x256.size inb_S16x256_S16x256_0_0

/-- The output window's staging buffer after the body: its one store, of the payload of the three loads. -/
def out1_3 (x0 : Vec F S512x256 .f32) (x1 : Vec F S256x16 .f32) (x2 : Vec F S16x256 .f32) : Vec F S512x256 .f32 :=
  View.canon [⟨r1_a, k1_pay1 (View.ld x0 r1_a) (View.ld x1 r1_b) (View.ld x2 r1_c)⟩]

theorem cover1_3 (p0 : Vec F S512x256 .f32) (y : S512x256.Idx) :
    ∃ pc ∈ ([⟨r1_a, p0⟩] : List (View.Piece (Elt F) S512x256 .f32)), y ∈ pc.1.set :=
  View.cover_of_tiled [⟨r1_a, p0⟩] S512x256.size (by rfl) y

set_option maxHeartbeats 1000000 in
/-- The body on whole staging memrefs: the inputs' kept, the output's at `out1_3` of the inputs'. -/
theorem sound_kernel1 (c : Dev nD) (E : Set ℕ) (i : grid1.Coords)
    (arg1 : Memref sig .tc .vmem S512x256 .f32) (harg1 : arg1.IsWhole) (arg2 : Memref sig .tc .vmem S256x16 .f32) (harg2 : arg2.IsWhole)
    (arg3 : Memref sig .tc .vmem S16x256 .f32) (harg3 : arg3.IsWhole) (arg4 : Memref sig .tc .vmem S512x256 .f32) (harg4 : arg4.IsWhole)
    (x0 : Vec F S512x256 .f32) (x1 : Vec F S256x16 .f32) (x2 : Vec F S16x256 .f32) (K : PUnit → sProp 𝕄) :
    iprop(owns (c : Thread nD τ) arg1 fullShare x0 ∗ owns (c : Thread nD τ) arg2 fullShare x1 ∗ owns (c : Thread nD τ) arg3 fullShare x2
        ∗ (∃ d, owns (c : Thread nD τ) arg4 fullShare d)
        ∗ (iprop(owns (c : Thread nD τ) arg1 fullShare x0 ∗ owns (c : Thread nD τ) arg2 fullShare x1 ∗ owns (c : Thread nD τ) arg3 fullShare x2
            ∗ owns (c : Thread nD τ) arg4 fullShare (out1_3 x0 x1 x2)) -∗ K ⟨⟩))
      ⊢ wp frame (wpE (defs₀ (F := F)) Variants.none c none) E (cc1__mlp_kernel i arg1 harg1 arg2 harg2 arg3 harg3 arg4 harg4) K := by
  simp only [cc1__mlp_kernel_eq_skeleton]; unfold cc1__mlp_kernel_skel
  unfold owns
  iintro ⟨⟨%f0, %hf0, H0⟩, ⟨%f1, %hf1, H1⟩, ⟨%f2, %hf2, H2⟩, ⟨%d3, %f3, -, H3⟩, Hk⟩
  subst hf0; subst hf1; subst hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover1_3 _)

/-- The proof data of the region on core `c`. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => out1_3 (iblk1 V c 0 t) (iblk1 V c 1 t) (iblk1 V c 2 t)
  Φ _ := Pipeline.ΦA spec1 c
  q _ := fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) :
    (dat1 V c).after 3 t = out1_3 (iblk1 V c 0 t) (iblk1 V c 1 t) (iblk1 V c 2 t) := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d

def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d)))

def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t))

theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2]
  rw [show (dat1 V c).Φ t.succ = (dat1 V c).Φ t.castSucc from rfl,
    show (dat1 V c).owesAt () t.succ = (dat1 V c).owesAt () t.castSucc from rfl,
    after1_0, after1_1, after1_2, after1_3]
  iintro ⟨HΦ, Ho, ⟨%d0, H0⟩, ⟨%d1, H1⟩, ⟨%d2, H2⟩, ⟨%d3, H3⟩⟩
  iapply (sound_kernel1 c Set.univ _ _ _ _ _ _ _ _ _ (iblk1 V c 0 t) (iblk1 V c 1 t) (iblk1 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

theorem body_obligation1 (c : Dev nD) : BodyObligation (dat1 (F := F) V c) (defs₀ (F := F)) Variants.none () Set.univ := fun t => by
  rw [bigSep_W1, bigSep_W1]
  exact sound_body1 V c t

end

end Cert.KernelIdeal.Hand

end
-- ==== Proof.KI.Reg2.lean ====
/- The third kernel region (the gather of the per-graph scale by a one-hot product, times the rows), 245 grid points
   of 2048 rows each: what each window's staging buffer holds around the body, the body's triple, and the pipeline's
   proof data with its body obligation, at a parameter `V`, the buffer contents when the region is entered. The
   output block is the one store of the body, the payload `k2_pay1` of the three input blocks. -/
import proofs.«417222_j31860067402236_1_alg».proof.Proof.Gen.KernelIdeal.Launch
import proofs.«417222_j31860067402236_1_alg».proof.Proof.Gen.KernelIdeal.Skeleton
import proofs.«417222_j31860067402236_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section
variable (V : (c : Dev nD) → (b : Ref sig .tc) → Buf (Elt F) ((c : Thread nD τ).loc b))

/-- Window `w`'s block at point `t`, read off its array as the region finds it. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- An input window's current staging buffer holds its block at every point, fetched there or not (the per-graph
    scale is fetched once: its block index never moves). -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)
theorem before2_2_of {c : Dev nD} (dat : Dat τ (Elt F) Unit ℕ (UR sig nD τ) ℕ cfg2 c) (hA : dat.A 2 = V c (Pipeline.arrRef spec2 2))
    (hafter : ∀ t, dat.after 2 t = iblk2 V c 2 t) (t : Fin cfg2.N) (d) : dat.before 2 t d = iblk2 V c 2 t :=
  (dat.before_in_eq_fetched 2 rfl (fun _ => rfl) (fun _ _ _ => rfl) (fun t => by rw [hafter]; unfold Dat.blockOf iblk2; rw [hA]; try rfl) t d).trans
    (by unfold Dat.fetched Dat.blockOf iblk2; rw [hA]; try rfl)

/-- The body's accesses: each a whole staging buffer. -/
abbrev r2_x : Rect S2048x256 := Rect.unit (s := S2048x256) ![0, 0] S2048x256.size inb_S2048x256_S2048x256_0_0
abbrev r2_b : Rect S2048x1 := Rect.unit (s := S2048x1) ![0, 0] S2048x1.size inb_S2048x1_S2048x1_0_0
abbrev r2_s : Rect S512x256 := Rect.unit (s := S512x256) ![0, 0] S512x256.size inb_S512x256_S512x256_0_0

/-- The output window's staging buffer after the body: its one store, of the payload of the three loads
    (the graph ids, the scale table, the rows). -/
def out2_3 (x0 : Vec F S2048x256 .f32) (x1 : Vec F S2048x1 .i32) (x2 : Vec F S512x256 .f32) : Vec F S2048x256 .f32 :=
  View.canon [⟨r2_x, k2_pay1 (View.ld x1 r2_b) (View.ld x2 r2_s) (View.ld x0 r2_x)⟩]

theorem cover2_3 (p0 : Vec F S2048x256 .f32) (y : S2048x256.Idx) :
    ∃ pc ∈ ([⟨r2_x, p0⟩] : List (View.Piece (Elt F) S2048x256 .f32)), y ∈ pc.1.set :=
  View.cover_of_tiled [⟨r2_x, p0⟩] S2048x256.size (by rfl) y

set_option maxHeartbeats 1000000 in
/-- The body on whole staging memrefs: the inputs' kept, the output's at `out2_3` of the inputs'. -/
theorem sound_kernel2 (c : Dev nD) (E : Set ℕ) (i : grid2.Coords)
    (arg1 : Memref sig .tc .vmem S2048x256 .f32) (harg1 : arg1.IsWhole) (arg2 : Memref sig .tc .vmem S2048x1 .i32) (harg2 : arg2.IsWhole)
    (arg3 : Memref sig .tc .vmem S512x256 .f32) (harg3 : arg3.IsWhole) (arg4 : Memref sig .tc .vmem S2048x256 .f32) (harg4 : arg4.IsWhole)
    (x0 : Vec F S2048x256 .f32) (x1 : Vec F S2048x1 .i32) (x2 : Vec F S512x256 .f32) (K : PUnit → sProp 𝕄) :
    iprop(owns (c : Thread nD τ) arg1 fullShare x0 ∗ owns (c : Thread nD τ) arg2 fullShare x1 ∗ owns (c : Thread nD τ) arg3 fullShare x2
        ∗ (∃ d, owns (c : Thread nD τ) arg4 fullShare d)
        ∗ (iprop(owns (c : Thread nD τ) arg1 fullShare x0 ∗ owns (c : Thread nD τ) arg2 fullShare x1 ∗ owns (c : Thread nD τ) arg3 fullShare x2
            ∗ owns (c : Thread nD τ) arg4 fullShare (out2_3 x0 x1 x2)) -∗ K ⟨⟩))
      ⊢ wp frame (wpE (defs₀ (F := F)) Variants.none c none) E (cc2__mul_kernel i arg1 harg1 arg2 harg2 arg3 harg3 arg4 harg4) K := by
  simp only [cc2__mul_kernel_eq_skeleton]; unfold cc2__mul_kernel_skel
  unfold owns
  iintro ⟨⟨%f0, %hf0, H0⟩, ⟨%f1, %hf1, H1⟩, ⟨%f2, %hf2, H2⟩, ⟨%d3, %f3, -, H3⟩, Hk⟩
  subst hf0; subst hf1; subst hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover2_3 _)

/-- The proof data of the region on core `c`. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => out2_3 (iblk2 V c 0 t) (iblk2 V c 1 t) (iblk2 V c 2 t)
  Φ _ := Pipeline.ΦA spec2 c
  q _ := fullShare
  owed _ := 0

theorem A_eq2 (c : Dev nD) (w : Fin cfg2.W) : (dat2 V c).A w = V c (Pipeline.arrRef spec2 w) := by
  dsimp only [dat2]

theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) :
    (dat2 V c).after 3 t = out2_3 (iblk2 V c 0 t) (iblk2 V c 1 t) (iblk2 V c 2 t) := by dsimp only [dat2]

theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d
theorem before2_2 (c : Dev nD) (t : Fin cfg2.N) (d) : (dat2 V c).before 2 t d = iblk2 V c 2 t :=
  before2_2_of V (dat2 V c) (A_eq2 V c 2) (after2_2 V c) t d

def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d))
    ∗ (∃ d, owns (c : Thread nD τ) (st2_3 t) fullShare ((dat2 V c).before 3 t d)))

def bodyPost2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t)
    ∗ owns (c : Thread nD τ) (st2_3 t) fullShare ((dat2 V c).after 3 t))

theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2]
  rw [show (dat2 V c).Φ t.succ = (dat2 V c).Φ t.castSucc from rfl,
    show (dat2 V c).owesAt () t.succ = (dat2 V c).owesAt () t.castSucc from rfl,
    after2_0, after2_1, after2_2, after2_3]
  iintro ⟨HΦ, Ho, ⟨%d0, H0⟩, ⟨%d1, H1⟩, ⟨%d2, H2⟩, ⟨%d3, H3⟩⟩
  iapply (sound_kernel2 c Set.univ _ _ _ _ _ _ _ _ _ (iblk2 V c 0 t) (iblk2 V c 1 t) (iblk2 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

theorem body_obligation2 (c : Dev nD) : BodyObligation (dat2 (F := F) V c) (defs₀ (F := F)) Variants.none () Set.univ := fun t => by
  rw [bigSep_W2, bigSep_W2]
  exact sound_body2 V c t

end

end Cert.KernelIdeal.Hand

end
-- ==== Proof.KI.Run.lean ====
/- The whole program as a run: the contents of the unscoped buffers at each boundary of @main (the launch memory
   folded through the host stretches and the three kernel regions: a region leaves its arrays at what its pipeline
   computes from the proof data and every other buffer as it found it), the three regions as segments between those
   boundaries, and the launch. Every weakly fair execution terminates with each unscoped buffer at the last
   boundary's contents; read at the argument arrays, which no stretch writes and no region changes, that is the
   frame. -/
import proofs.«417222_j31860067402236_1_alg».proof.Proof.Gen.KernelIdeal.Launch
import proofs.«417222_j31860067402236_1_alg».proof.Proof.Gen.KernelIdeal.Skeleton
import proofs.«417222_j31860067402236_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic
import proofs.«417222_j31860067402236_1_alg».proof.Proof.Gen.KernelIdeal.Regions
import proofs.«417222_j31860067402236_1_alg».proof.Proof.KI.Reg0
import proofs.«417222_j31860067402236_1_alg».proof.Proof.KI.Reg1
import proofs.«417222_j31860067402236_1_alg».proof.Proof.KI.Reg2

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffer contents at each boundary of @main -/

/-- The first region's entry contents: the launch memory after the five host stretches before it (the padded rows,
    the padded and reshaped graph ids). -/
abbrev Vr0 : (c : Dev nD) → (b : Ref sig .tc) → Buf (Elt F) ((c : Thread nD τ).loc b) := fun c b => V5 m c b
/-- At the first region's exit: its arrays at what the pipeline leaves, every other buffer as entered. -/
def W6 (c : Dev nD) : Valuation τ sig (Elt F) :=
  Pipeline.withArrays spec0 c (V5 m c) fun w => (dat0 (Vr0 m) c).arrAt w cfg0.N
theorem W6_arr (c : Dev nD) (w : Fin cfg0.W) :
    W6 m c (Proc.devRef .tc (Pipeline.arrRef spec0 w)) = (dat0 (Vr0 m) c).arrAt w cfg0.N := by
  unfold W6; exact Pipeline.withArrays_arr spec0 launch0.win.arr_inj c _ _ w
theorem W6_of_ne (c : Dev nD) (b : Ref sig .tc) (hb : ∀ w, Pipeline.arrRef spec0 w ≠ b) :
    W6 m c (Proc.devRef .tc b) = V5 m c (Proc.devRef .tc b) := by
  unfold W6; exact Pipeline.withArrays_of_ne spec0 c _ _ b hb
abbrev Vx0 : (c : Dev nD) → (b : Ref sig .tc) → Buf (Elt F) ((c : Thread nD τ).loc b) := fun c b => W6 m c b
theorem hF0 (c : Dev nD) (w : Fin cfg0.W) : (dat0 (Vr0 m) c).arrAt w cfg0.N = Vx0 m c (Pipeline.arrRef spec0 w) :=
  (W6_arr m c w).symm
theorem hrest0 (c : Dev nD) : ∀ b, b ∉ Finset.univ.image (Pipeline.arrRef spec0) → Vx0 m c b = Vr0 m c b :=
  fun b hb => W6_of_ne m c b fun w e => hb (Finset.mem_image.mpr ⟨w, Finset.mem_univ _, e⟩)

/-- After the count-and-divide stretch: the second region's entry contents. -/
abbrev W7 : Dev nD → Valuation τ sig (Elt F) := fun c => StableHlo.after hostOps1 (W6 m c)
abbrev Vr1 : (c : Dev nD) → (b : Ref sig .tc) → Buf (Elt F) ((c : Thread nD τ).loc b) := fun c b => W7 m c b
def W8 (c : Dev nD) : Valuation τ sig (Elt F) :=
  Pipeline.withArrays spec1 c (W7 m c) fun w => (dat1 (Vr1 m) c).arrAt w cfg1.N
theorem W8_arr (c : Dev nD) (w : Fin cfg1.W) :
    W8 m c (Proc.devRef .tc (Pipeline.arrRef spec1 w)) = (dat1 (Vr1 m) c).arrAt w cfg1.N := by
  unfold W8; exact Pipeline.withArrays_arr spec1 launch1.win.arr_inj c _ _ w
theorem W8_of_ne (c : Dev nD) (b : Ref sig .tc) (hb : ∀ w, Pipeline.arrRef spec1 w ≠ b) :
    W8 m c (Proc.devRef .tc b) = W7 m c (Proc.devRef .tc b) := by
  unfold W8; exact Pipeline.withArrays_of_ne spec1 c _ _ b hb
/-- The second region's exit contents are the third's entry contents: no host line between them. -/
abbrev Vr2 : (c : Dev nD) → (b : Ref sig .tc) → Buf (Elt F) ((c : Thread nD τ).loc b) := fun c b => W8 m c b
theorem hF1 (c : Dev nD) (w : Fin cfg1.W) : (dat1 (Vr1 m) c).arrAt w cfg1.N = Vr2 m c (Pipeline.arrRef spec1 w) :=
  (W8_arr m c w).symm
theorem hrest1 (c : Dev nD) : ∀ b, b ∉ Finset.univ.image (Pipeline.arrRef spec1) → Vr2 m c b = Vr1 m c b :=
  fun b hb => W8_of_ne m c b fun w e => hb (Finset.mem_image.mpr ⟨w, Finset.mem_univ _, e⟩)
def W9 (c : Dev nD) : Valuation τ sig (Elt F) :=
  Pipeline.withArrays spec2 c (W8 m c) fun w => (dat2 (Vr2 m) c).arrAt w cfg2.N
theorem W9_arr (c : Dev nD) (w : Fin cfg2.W) :
    W9 m c (Proc.devRef .tc (Pipeline.arrRef spec2 w)) = (dat2 (Vr2 m) c).arrAt w cfg2.N := by
  unfold W9; exact Pipeline.withArrays_arr spec2 launch2.win.arr_inj c _ _ w
theorem W9_of_ne (c : Dev nD) (b : Ref sig .tc) (hb : ∀ w, Pipeline.arrRef spec2 w ≠ b) :
    W9 m c (Proc.devRef .tc b) = W8 m c (Proc.devRef .tc b) := by
  unfold W9; exact Pipeline.withArrays_of_ne spec2 c _ _ b hb
abbrev Vx2 : (c : Dev nD) → (b : Ref sig .tc) → Buf (Elt F) ((c : Thread nD τ).loc b) := fun c b => W9 m c b
theorem hF2 (c : Dev nD) (w : Fin cfg2.W) : (dat2 (Vr2 m) c).arrAt w cfg2.N = Vx2 m c (Pipeline.arrRef spec2 w) :=
  (W9_arr m c w).symm
theorem hrest2 (c : Dev nD) : ∀ b, b ∉ Finset.univ.image (Pipeline.arrRef spec2) → Vx2 m c b = Vr2 m c b :=
  fun b hb => W9_of_ne m c b fun w e => hb (Finset.mem_image.mpr ⟨w, Finset.mem_univ _, e⟩)
/-- After the closing slice: what the program returns with. -/
abbrev W10 : Dev nD → Valuation τ sig (Elt F) := fun c => StableHlo.after hostOps3 (W9 m c)

/-! ## The proof data family and the thread state -/

/-- Every pipeline's proof data, each at its region's entry contents. -/
def pdats : (p : Fin 3) → (c : Dev nD) → Dat τ (Elt F) Unit ℕ (UR sig nD τ) ℕ (Pipeline.pin (pcfgs (F := F)) adm p) c
  | ⟨0, _⟩ => fun c => dat0 (Vr0 m) c
  | ⟨1, _⟩ => fun c => dat1 (Vr1 m) c
  | ⟨2, _⟩ => fun c => dat2 (Vr2 m) c
abbrev 𝒱₀ : Variants := Variants.none
/-- No core owes another anything. -/
abbrev L : GSem nD τ sig → Finset Unit := fun _ => ∅
abbrev lv : GSem nD τ sig → Unit → ℕ := fun _ _ => 0
/-- What rides beside the buffers through every segment: the generator register at some state and nothing owed. -/
abbrev R (c : Dev nD) : sProp 𝕄 := iprop((∃ r, prngReg c r) ∗ ∃ W, owes (c : Thread nD τ) (0 : CellTallies nD τ sig Unit) W)
/-- A host stretch as a segment over the unscoped buffers. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
abbrev Tₙ (c : Dev nD) : sProp 𝕄 := iprop(StableHlo.held (c : Thread nD τ) (Pipeline.ucRefs τ sig) (W10 m c) ∗ ∃ r, prngReg c r)

/-! ## The regions as segments -/

set_option backward.isDefEq.respectTransparency.types false in
/-- The first region over the thread state: entered from every unscoped buffer at the contents after the five host
    stretches, left with its arrays at what the pipeline computes. -/
def reg0 : Pipeline.RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (body_obligation0 (Vr0 m) c).loose
  hwaits := Pipeline.hwaits_of_owed_zero _ _ _ _ L lv 0 fun _ _ => rfl
  pre c := iprop(StableHlo.held (c : Thread nD τ) (Pipeline.ucRefs τ sig) (V5 m c) ∗ R c)
  post c := iprop(StableHlo.held (c : Thread nD τ) (Pipeline.ucRefs τ sig) (W6 m c) ∗ R c)
  X c := iprop(∃ r, prngReg c r)
  Y c := iprop(∃ r, prngReg c r)
  Z c := Pipeline.unscopedRest (Ix := Unit) (Name := ℕ) (U := UR sig nD τ) (Lvl := ℕ) spec0 c (Vr0 m c)
  hentry c := by
    rw [Pipeline.ownSems0_none]
    have hsplit := Pipeline.arrays_of_unscopedBufs (p := 0) (pcfgs (F := F)) adm (pdats m) launch0.win launch0.arr_whole c
      ((pdats m 0 c).share_full fun _ => rfl) (Vr0 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine (?_ : iprop((∃ r, prngReg c r) ∗ Pipeline.prefHeld (pcfgs (F := F) 0).pre c (fun _ => fullShare) (adm (F := F) 0).1
        ∗ Pipeline.scopedRest (Pipeline.pin (pcfgs (F := F)) adm 0).spec c) ⊢ (Pipeline.ΦA spec0 c : sProp 𝕄)).trans (hin0 (Vr0 m) c)
    unfold Pipeline.ΦA
    iintro ⟨Hp, -, Hr⟩
    isplitl [Hr]; · iexact Hr
    iexact Hp
  hout c := by
    rw [Pipeline.ownSems0_none]
    refine (hout0 (Vr0 m) c).trans ?_
    unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (Vr0 m c) (Vx0 m c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- The second region over the thread state. -/
def reg1 : Pipeline.RegionSeg (pcfgs (F := F)) adm (pdats m) () defs₀ 𝒱₀ L lv 1 where
  win := launch1.win.to₀
  block_pos := launch1.block_pos
  stage_whole := launch1.stage_whole
  K := PEmpty
  osem k := k.elim
  ho := Pipeline.OwnSemFacts.none _
  hbody c := (body_obligation1 (Vr1 m) c).loose
  hwaits := Pipeline.hwaits_of_owed_zero _ _ _ _ L lv 1 fun _ _ => rfl
  pre c := iprop(StableHlo.held (c : Thread nD τ) (Pipeline.ucRefs τ sig) (W7 m c) ∗ R c)
  post c := iprop(StableHlo.held (c : Thread nD τ) (Pipeline.ucRefs τ sig) (W8 m c) ∗ R c)
  X c := iprop(∃ r, prngReg c r)
  Y c := iprop(∃ r, prngReg c r)
  Z c := Pipeline.unscopedRest (Ix := Unit) (Name := ℕ) (U := UR sig nD τ) (Lvl := ℕ) spec1 c (Vr1 m c)
  hentry c := by
    rw [Pipeline.ownSems0_none]
    have hsplit := Pipeline.arrays_of_unscopedBufs (p := 1) (pcfgs (F := F)) adm (pdats m) launch1.win launch1.arr_whole c
      ((pdats m 1 c).share_full fun _ => rfl) (Vr1 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (Vr1 m c) (Vr2 m c) ((pdats m 1 c).arrAt · cfg1.N) (hF1 m c) (hrest1 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- The third region over the thread state. -/
def reg2 : Pipeline.RegionSeg (pcfgs (F := F)) adm (pdats m) () defs₀ 𝒱₀ L lv 2 where
  win := launch2.win.to₀
  block_pos := launch2.block_pos
  stage_whole := launch2.stage_whole
  K := PEmpty
  osem k := k.elim
  ho := Pipeline.OwnSemFacts.none _
  hbody c := (body_obligation2 (Vr2 m) c).loose
  hwaits := Pipeline.hwaits_of_owed_zero _ _ _ _ L lv 2 fun _ _ => rfl
  pre c := iprop(StableHlo.held (c : Thread nD τ) (Pipeline.ucRefs τ sig) (W8 m c) ∗ R c)
  post c := iprop(StableHlo.held (c : Thread nD τ) (Pipeline.ucRefs τ sig) (W9 m c) ∗ R c)
  X c := iprop(∃ r, prngReg c r)
  Y c := iprop(∃ r, prngReg c r)
  Z c := Pipeline.unscopedRest (Ix := Unit) (Name := ℕ) (U := UR sig nD τ) (Lvl := ℕ) spec2 c (Vr2 m c)
  hentry c := by
    rw [Pipeline.ownSems0_none]
    have hsplit := Pipeline.arrays_of_unscopedBufs (p := 2) (pcfgs (F := F)) adm (pdats m) launch2.win launch2.arr_whole c
      ((pdats m 2 c).share_full fun _ => rfl) (Vr2 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 2 c).Φ 0 = Pipeline.ΦA spec2 c from rfl]; unfold Pipeline.ΦA
    iintro ⟨Hp, -, Hr⟩
    isplitl [Hr]; · iexact Hr
    iexact Hp
  hout c := by
    rw [Pipeline.ownSems0_none, show (pdats m 2 c).Φ (Fin.last _) = Pipeline.ΦA spec2 c from rfl]; unfold Pipeline.ΦA
    iintro ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (pdats m) ((pdats m 2 c).share_full fun _ => rfl)
      (Vr2 m c) (Vx2 m c) ((pdats m 2 c).arrAt · cfg2.N) (hF2 m c) (hrest2 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## @main as segments, and the launch -/

/-- @main's ten segments in order. -/
abbrev segs : List (Pipeline.Seg (pcfgs (F := F)) adm (pdats m) () defs₀ 𝒱₀ L lv) :=
  [ .host (hseg hostOps0 hostOps0_sub hostOps0_fresh (V0 m)),
    .host (hseg hostOps0_1 hostOps0_1_sub hostOps0_1_fresh (V1 m)),
    .host (hseg hostOps0_2 hostOps0_2_sub hostOps0_2_fresh (V2 m)),
    .host (hseg hostOps0_3 hostOps0_3_sub hostOps0_3_fresh (V3 m)),
    .host (hseg hostOps0_4 hostOps0_4_sub hostOps0_4_fresh (V4 m)),
    .region (reg0 m),
    .host (hseg hostOps1 hostOps1_sub hostOps1_fresh (W6 m)),
    .region (reg1 m),
    .region (reg2 m),
    .host (hseg hostOps3 hostOps3_sub hostOps3_fresh (W9 m)) ]

theorem main_run (c : Dev nD) : main (F := F) c = Pipeline.Seg.run (segs m) := by
  rw [main_chain c, Pipeline.Seg.run_eq_chain]
  rfl

set_option backward.isDefEq.respectTransparency.types false in
/-- THE RUN: from any memory with zero counters every weakly fair execution of @main terminates, nothing faulting,
    and every final state holds each unscoped buffer at the last boundary's contents. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W10 m c b) :=
  Pipeline.θ_run_regions_kit (pcfgs (F := F)) adm (pdats m) () cellOf_inj emb₁ defs₀ 𝒱₀ L lv m ρ main (segs m)
    (fun c Q => by rw [main_run m c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (V0 m c) ∗ R c)) (Tₙ := Tₙ m)
    (hch := ⟨fun _ => .rfl, fun _ => .rfl, fun _ => .rfl, fun _ => .rfl, fun _ => .rfl, fun _ => .rfl, fun _ => .rfl, fun _ => .rfl, fun _ => .rfl, fun _ => .rfl,
      fun c => by
        show iprop(StableHlo.held (c : Thread nD τ) (Pipeline.ucRefs τ sig) (W10 m c) ∗ R c) ⊢ _
        iintro ⟨Hh, Hp, HO⟩
        isplitl [Hh Hp]
        · isplitl [Hh]; · iexact Hh
          iexact Hp
        iexact HO⟩)
    (hinit := by
      refine Pipeline.initEach L lv fun c => ?_
      rw [show unscopedBufs c (fun b => m ((c : Thread nD τ).loc b)) = StableHlo.held (c : Thread nD τ) (Pipeline.ucRefs τ sig) (V0 m c)
        from Pipeline.unscopedBufs_held c (V0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W10 m c b)
    (hfin := fun c s' => by
      iintro ⟨⟨Hh, -⟩, HSI⟩
      unfold StableHlo.held
      imodintro
      iapply (pointsTo_read_all (Pipeline.ucRefs τ sig) (fun b => (((c : Thread nD τ)).1, b)) (W10 m c) s')
      isplitl [Hh] <;> iassumption)
    (hQ := fun s h c => h c)

/-! ## The arguments end as launched -/

theorem W10_of (c : Dev nD) (r : Ref sig .tc) (h : r ∉ hostOps3_W) : W10 m c r = W9 m c r :=
  StableHlo.after_of_writes_sub hostOps3 _ hostOps3_writes h
theorem W7_of (c : Dev nD) (r : Ref sig .tc) (h : r ∉ hostOps1_W) : W7 m c r = W6 m c r :=
  StableHlo.after_of_writes_sub hostOps1 _ hostOps1_writes h
/-- A buffer no host stretch before the first region writes holds its launch contents at that region's entry. -/
theorem V5_launch (c : Dev nD) (r : Ref sig .tc) (h0 : r ∉ hostOps0_W) (h1 : r ∉ hostOps0_1_W) (h2 : r ∉ hostOps0_2_W)
    (h3 : r ∉ hostOps0_3_W) (h4 : r ∉ hostOps0_4_W) : V5 m c r = m ((c : Thread nD τ).loc r) :=
  (V5_of m c r h4).trans <| (V4_of m c r h3).trans <| (V3_of m c r h2).trans <| (V2_of m c r h1).trans <| (V1_of m c r h0).trans rfl

theorem W10_main_arg0 (c : Dev nD) : W10 m c main_arg0 = m ((c : Thread nD τ).loc main_arg0) :=
  (W10_of m c main_arg0 (by decide)).trans <| (W9_of_ne m c main_arg0 (by decide)).trans <| (W8_of_ne m c main_arg0 (by decide)).trans <|
    (W7_of m c main_arg0 (by decide)).trans <| (W6_of_ne m c main_arg0 (by decide)).trans <|
    V5_launch m c main_arg0 (by decide) (by decide) (by decide) (by decide) (by decide)
theorem W10_main_arg1 (c : Dev nD) : W10 m c main_arg1 = m ((c : Thread nD τ).loc main_arg1) :=
  (W10_of m c main_arg1 (by decide)).trans <| (W9_of_ne m c main_arg1 (by decide)).trans <| (W8_of_ne m c main_arg1 (by decide)).trans <|
    (W7_of m c main_arg1 (by decide)).trans <| (W6_of_ne m c main_arg1 (by decide)).trans <|
    V5_launch m c main_arg1 (by decide) (by decide) (by decide) (by decide) (by decide)
/-- The second region reads the two weight arrays through input windows: it leaves them as it found them. -/
theorem W8_main_arg2 (c : Dev nD) : W8 m c main_arg2 = W7 m c main_arg2 :=
  (W8_arr m c 1).trans (((dat1 (Vr1 m) c).arrAt_in 1 rfl _).trans (A_eq1 (Vr1 m) c 1))
theorem W8_main_arg3 (c : Dev nD) : W8 m c main_arg3 = W7 m c main_arg3 :=
  (W8_arr m c 2).trans (((dat1 (Vr1 m) c).arrAt_in 2 rfl _).trans (A_eq1 (Vr1 m) c 2))
theorem W10_main_arg2 (c : Dev nD) : W10 m c main_arg2 = m ((c : Thread nD τ).loc main_arg2) :=
  (W10_of m c main_arg2 (by decide)).trans <| (W9_of_ne m c main_arg2 (by decide)).trans <| (W8_main_arg2 m c).trans <|
    (W7_of m c main_arg2 (by decide)).trans <| (W6_of_ne m c main_arg2 (by decide)).trans <|
    V5_launch m c main_arg2 (by decide) (by decide) (by decide) (by decide) (by decide)
theorem W10_main_arg3 (c : Dev nD) : W10 m c main_arg3 = m ((c : Thread nD τ).loc main_arg3) :=
  (W10_of m c main_arg3 (by decide)).trans <| (W9_of_ne m c main_arg3 (by decide)).trans <| (W8_main_arg3 m c).trans <|
    (W7_of m c main_arg3 (by decide)).trans <| (W6_of_ne m c main_arg3 (by decide)).trans <|
    V5_launch m c main_arg3 (by decide) (by decide) (by decide) (by decide) (by decide)

/-- THE RUN with the result named and the arguments read back: every weakly fair execution terminates, the result
    buffer holds the last boundary's contents and each argument array its launch contents. -/
theorem run_named : θ_run defs (onTc (τ := τ) (main (F := F))) ⟨m, fun _ => 0, ρ⟩ (fun r => ∀ c : Dev nD,
      r.2.mem ((c.tc : Thread nD τ).loc main_v15) = W10 m c main_v15
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun r h c =>
    ⟨h c _ (mem_uc main_v15 (by decide)),
     (h c _ (mem_uc main_arg0 (by decide))).trans (W10_main_arg0 m c),
     (h c _ (mem_uc main_arg1 (by decide))).trans (W10_main_arg1 m c),
     (h c _ (mem_uc main_arg2 (by decide))).trans (W10_main_arg2 m c),
     (h c _ (mem_uc main_arg3 (by decide))).trans (W10_main_arg3 m c)⟩) (run_all m ρ)

/-- THE FRAME: the program runs to the end, nothing faulting, and its argument arrays end as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun r h c => (h c).2) (run_named m ρ)

end Cert.KernelIdeal.Hand

end
-- ==== Proof.Val.RefTerm.lean ====
/- The reference's result as one term of its four arguments, cut into named stages: the segment sums of the rows
   (a scatter-add from zero), their division by the clamped segment counts, the two-layer network with its
   logistic written out, the graph ids wrapped where negative, and the rows times the gathered scale. The
   reference's run ends at exactly this term. -/
import proofs.«417222_j31860067402236_1_alg».proof.Proof.Gen.ReferenceIdeal.Run

noncomputable section

namespace Cert.Hand.Ref

open Cert.ReferenceIdeal Cert.ReferenceIdeal.Gen Idealize.ShloMosaic Idealize.ShloMosaic.TcCoe Idealize.SL.Sem Idealize.ShloMosaic.StableHlo

variable {F : FTy → Type} [FloatOps F]

/-- The per-graph sums of the rows: a scatter-add of the rows into zeros at the graph ids. -/
def segOf (x : FVec F S500000x256 .f32) (b : IVec S500000 32) : FVec F S512x256 .f32 :=
  Host.scatterAdd scatter_S512x256_S500000x1_S500000x256_1_0_0_1
    (broadcastInDim S512x256 ![] bcast_S_S512x256 (constant S_ .f32 0x00000000#32))
    (broadcastInDim S500000x1 ![0] bcast_S500000_S500000x1_0 b) x

/-- The sums divided by the graph sizes (at least one): the mean pool. -/
def meanOf (S : FVec F S512x256 .f32) (b : IVec S500000 32) : FVec F S512x256 .f32 :=
  Host.divf S
    (broadcastInDim S512x256 ![0, 1] bcast_S512x1_S512x256_0_1
      (broadcastInDim S512x1 ![0] bcast_S512_S512x1_0
        (maximumf
          (Host.scatterAdd scatter_S512_S500000x1_S500000_n_0_0_1
            (broadcastInDim S512 ![] bcast_S_S512 (constant S_ .f32 0x00000000#32))
            (broadcastInDim S500000x1 ![0] bcast_S500000_S500000x1_0 b)
            (broadcastInDim S500000 ![] bcast_S_S500000 (constant S_ .f32 0x3F800000#32)))
          (broadcastInDim S512 ![] bcast_S_S512 (constant S_ .f32 0x3F800000#32)))))

/-- The squeeze-excite network on the mean pool: two matrix products with a rectifier between, then the logistic
    written as one over one plus the exponential of the negative. -/
def scaleOf (M : FVec F S512x256 .f32) (W1 : FVec F S256x16 .f32) (W2 : FVec F S16x256 .f32) : FVec F S512x256 .f32 :=
  Host.divf (broadcastInDim S512x256 ![] bcast_S_S512x256 (constant S_ .f32 0x3F800000#32))
    (addf (broadcastInDim S512x256 ![] bcast_S_S512x256 (constant S_ .f32 0x3F800000#32))
      (Host.exp (Host.negf
        (Host.dotGeneral dot_S512x16_S16x256_S512x256_1_0_0_1_n_n none
          (maximumf (Host.dotGeneral dot_S512x256_S256x16_S512x16_1_0_0_1_n_n none M W1)
            (broadcastInDim S512x16 ![] bcast_S_S512x16 (constant S_ .f32 0x00000000#32)))
          W2))))

/-- The graph ids with the negative ones wrapped by the number of graphs. -/
def wrapOf (b : IVec S500000 32) : IVec S500000 32 :=
  select (cmpi .slt b (broadcastInDim S500000 ![] bcast_S_S500000 (constantI S_ 32 0#32)))
    (addi b (broadcastInDim S500000 ![] bcast_S_S500000 (constantI S_ 32 512#32))) b

/-- The reference's result: each row times its graph's scale row. -/
def refOut (x : FVec F S500000x256 .f32) (b : IVec S500000 32) (W1 : FVec F S256x16 .f32) (W2 : FVec F S16x256 .f32) :
    FVec F S500000x256 .f32 :=
  mulf x (Host.gather gather_S512x256_S500000x1_S500000x256_1_0_n_n_0_1_1256
    (scaleOf (meanOf (segOf x b) b) W1 W2)
    (broadcastInDim S500000x1 ![0] bcast_S500000_S500000x1_0 (wrapOf b)))

/-- The reference's run, its result named. -/
theorem refRun (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v28)
          = refOut (m ((c.tc : Thread nD τ).loc main_arg0)) (m ((c.tc : Thread nD τ).loc main_arg1))
              (m ((c.tc : Thread nD τ).loc main_arg2)) (m ((c.tc : Thread nD τ).loc main_arg3))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  Cert.ReferenceIdeal.Value.run m ρ

end Cert.Hand.Ref

end
-- ==== Proof.Val.HostK.lean ====
/- What the kernel program's host stretches compute, at the ideal instance. Before the first launch the rows
   [500000, 256] are padded along the row axis to 501760 rows with the number 0 (the word 0 converted to a float),
   and the graph ids [500000] are padded to 501760 entries with the id 512 and then read as a column [501760, 1]:
   so a padded row below 500000 is the argument's row and a row from 500000 on is zero, and a padded id below 500000
   is the argument's id and an id from 500000 on is 512. Between the first and the second launch the host counts the
   rows of every graph (a scatter-add of ones into zeros at the ids), clamps the counts below by one, broadcasts them
   along the 256 columns and divides the first launch's result by them: operation for operation the reference's mean
   pool. After the last launch the host keeps the first 500000 rows of the result. -/
import proofs.«417222_j31860067402236_1_alg».proof.Proof.Gen.KernelIdeal.Regions
import proofs.«417222_j31860067402236_1_alg».proof.Proof.Val.RefTerm
import Idealize.ShloMosaic.Lib.StableHlo.Run
import Idealize.ShloMosaic.Lib.ValueIdx
import Idealize.ShloMosaic.Lib.ValueLayout
import Idealize.ShloMosaic.Lib.Pipeline.Value
import Idealize.ShloMosaic.Lib.KernelVsHost

noncomputable section

namespace Cert.KernelIdeal.Val

open Cert.KernelIdeal Cert.KernelIdeal.Gen Idealize.ShloMosaic Idealize.ShloMosaic.ValueIdx Idealize.ShloMosaic.TcCoe Idealize.SL.Sem

variable (m : (ℓ : Loc nD τ sig) → Buf (Elt Ideal) ℓ) (c : Dev nD)

/-- The padded rows: the argument's row below row 500000, zero from row 500000 on. -/
theorem V5_rows (n : Fin 501760) (k : Fin 256) : (V5 (F := Ideal) m c main_v0 : S501760x256.Idx → EReal) (ix2 n k)
      = if h : n.val < 500000 then (m ((c : Thread nD τ).loc main_arg0) : S500000x256.Idx → EReal) (ix2 ⟨n.val, h⟩ k) else (0 : EReal) := by
  have e : (V5 (F := Ideal) m c main_v0 : S501760x256.Idx → EReal)
      = pad S501760x256 ![0, 0] ![1760, 0] ![0, 0] (m ((c : Thread nD τ).loc main_arg0) : S500000x256.Idx → EReal)
          (sitofp (F := Ideal) .f32 (constantI S_ 32 0#32)) pads_S500000x256_S501760x256_017600_000 h_S_ := by
    rw [V5_of m c main_v0 (by decide), V4_of m c main_v0 (by decide), V3_of m c main_v0 (by decide)]
    dsimp only [V2, V1, V0, hostOps0_1, hostOps0]
    after_results_simp <;> rfl
  rw [e]
  by_cases hn : n.val < 500000
  · -- inside the operand: row n of the padded array is row n of the argument
    rw [dif_pos hn]
    refine pad_apply_of_inside _ _ _ _ _ _ _ _ (ix2 (⟨n.val, hn⟩ : Fin 500000) k) (fun a => ?_)
    match a with
    | ⟨0, _⟩ => show n.val = 0 + n.val * (0 + 1); omega
    | ⟨1, _⟩ => show k.val = 0 + k.val * (0 + 1); omega
  · -- in the high padding of the row axis: the padding value, the integer 0 as a float
    rw [dif_neg hn]
    refine (pad_apply_of_not_inside _ _ _ _ _ _ _ _ (0 : Fin 2) ?_).trans ?_
    · show ¬ (0 ≤ n.val ∧ (n.val - 0) % (0 + 1) = 0 ∧ (n.val - 0) / (0 + 1) < 500000)
      omega
    · show (((0#32 : BitVec 32).toInt : ℝ) : EReal) = 0
      simp

/-- The padded ids as a column: the argument's id below row 500000, the id 512 from row 500000 on. -/
theorem V5_ids (n : Fin 501760) : (V5 (F := Ideal) m c main_v2 : S501760x1.Idx → BitVec 32) (ix2 n (0 : Fin 1))
      = if h : n.val < 500000 then (m ((c : Thread nD τ).loc main_arg1) : S500000.Idx → BitVec 32) (ix1 ⟨n.val, h⟩) else 512#32 := by
  have e : (V5 (F := Ideal) m c main_v2 : S501760x1.Idx → BitVec 32)
      = shapeCast S501760x1 (pad S501760 ![0] ![1760] ![0] (m ((c : Thread nD τ).loc main_arg1) : S500000.Idx → BitVec 32)
          (constantI S_ 32 512#32) pads_S500000_S501760_017600 h_S_) shapeCasts_S501760_S501760x1 := by
    dsimp only [V5, V4, V3, V2, V1, V0, hostOps0_4, hostOps0_3, hostOps0_2, hostOps0_1, hostOps0]
    after_results_simp <;> rfl
  rw [e]
  -- entry (n, 0) of the column is entry n of the vector: the same row-major position
  refine (shapeCast_apply _ _ _ (ix1 n) ?_).trans ?_
  · rw [Shape.rowMajor_val_one, Shape.rowMajor_val_two]
    show n.val = n.val * 1 + 0
    omega
  by_cases hn : n.val < 500000
  · rw [dif_pos hn]
    refine pad_apply_of_inside _ _ _ _ _ _ _ _ (ix1 (⟨n.val, hn⟩ : Fin 500000)) (fun a => ?_)
    match a with
    | ⟨0, _⟩ => show n.val = 0 + n.val * (0 + 1); omega
  · rw [dif_neg hn]
    refine (pad_apply_of_not_inside _ _ _ _ _ _ _ _ (0 : Fin 1) ?_).trans rfl
    show ¬ (0 ≤ n.val ∧ (n.val - 0) % (0 + 1) = 0 ∧ (n.val - 0) / (0 + 1) < 500000)
    omega

/-- The host's stretch between the first two launches divides the first launch's result by the clamped graph sizes:
    the reference's mean pool of that result and the ids. -/
theorem after_hostOps1_mean (W : Valuation τ sig (Elt Ideal)) :
    (StableHlo.after (hostOps1 (F := Ideal)) W main_v12 : S512x256.Idx → EReal)
      = Cert.Hand.Ref.meanOf (F := Ideal) (W main_v3) (W main_arg1) := by
  dsimp only [hostOps1]
  after_results_simp
  rfl

/-- The host's last stretch keeps the first 500000 rows: row r of its result is row r of the last launch's. -/
theorem after_hostOps3_slice (W : Valuation τ sig (Elt Ideal)) (r : Fin 500000) (k : Fin 256) :
    (StableHlo.after (hostOps3 (F := Ideal)) W main_v15 : S500000x256.Idx → EReal) (ix2 r k)
      = (W main_v14 : S501760x256.Idx → EReal) (ix2 (⟨r.val, by have := r.isLt; omega⟩ : Fin 501760) k) := by
  have e : (StableHlo.after (hostOps3 (F := Ideal)) W main_v15 : S500000x256.Idx → EReal)
      = extractStridedSlice S500000x256 ![0, 0] (W main_v14 : S501760x256.Idx → EReal) slices_S501760x256_S500000x256_0_0 := by
    dsimp only [hostOps3]; after_results
  rw [e]
  refine extractStridedSlice_apply _ _ _ _ _ (fun a => ?_)
  match a with
  | ⟨0, _⟩ => show r.val = 0 + r.val; omega
  | ⟨1, _⟩ => show k.val = 0 + k.val; omega

end Cert.KernelIdeal.Val

end
-- ==== Proof.Val.Hot.lean ====
/- The one-hot weight both gathers of the kernel are written with: a row's graph id compared with a column of the
   graph axis, read as a number. -/
import Idealize.ShloMosaic.PureOps.Ideal

noncomputable section

namespace Cert.Hand

open Idealize.ShloMosaic

/-- One where the graph id `a` is the column `g`, zero elsewhere. -/
def hot (a g : BitVec 32) : EReal := if a = g then 1 else 0

theorem hot_self (a : BitVec 32) : hot a a = 1 := if_pos rfl
theorem hot_ne {a g : BitVec 32} (h : a ≠ g) : hot a g = 0 := if_neg h

end Cert.Hand

end
-- ==== Proof.Val.Pay0.lean ====
/- The two values the segment-sum kernel body stores, read at an index over the extended reals.
   The first is the zero block the accumulator is reset to: zero at every index.
   The second is the accumulator block plus the product of the transposed one-hot matrix of the
   graph ids with the row block: at (g, c) it is the accumulator's entry at (g, c) plus the sum over
   the rows r of [id r = g] * row r's entry at column c. The one-hot entry at (r, g) compares the id of
   row r, broadcast along the graph axis, with the count g along that axis, widens the resulting bit
   and reads it as a number: one where they agree, zero elsewhere. Narrowing a number to a shorter
   format is the identity over the extended reals, casting a block to its own shape is the identity, and the
   product contracts the row axis of both operands into a zero accumulator, so it is the plain sum
   of the products of the entries. -/
import proofs.«417222_j31860067402236_1_alg».proof.Proof.Gen.KernelIdeal.Skeleton
import proofs.«417222_j31860067402236_1_alg».proof.Proof.Val.Hot
import Idealize.ShloMosaic.Lib.ValueIdx
import Idealize.ShloMosaic.Lib.ValueLayout
import Idealize.ShloMosaic.Lib.Pipeline.Value
import Idealize.ShloMosaic.PureOps.Ideal.Laws
noncomputable section
namespace Cert.KernelIdeal.Val
open Cert.KernelIdeal Cert.KernelIdeal.Gen Idealize.ShloMosaic Idealize.ShloMosaic.ValueIdx Cert.Hand
open scoped BigOperators

/-- The reset block is zero everywhere. -/
theorem k0_pay1_apply (j : S512x256.Idx) : (k0_pay1 (F := Ideal)) j = 0 := by
  unfold k0_pay1
  rw [shapeCast_self]
  exact Ideal.ofBits_zero_f32

/-- The compared bit, widened and read as a signed number, is the one-hot weight. -/
theorem sitofp_cmpi_eq (a b : BitVec 32) :
    (FloatOps.sitofp (F := Ideal) .f32 ((IntOp.cmpi .eq a b).setWidth 32) : EReal) = hot a b := by
  unfold hot IntOp.cmpi
  by_cases h : a = b
  · subst h
    rw [if_pos rfl]
    show (((((BitVec.ofBool (a == a)).setWidth 32).toInt : ℝ)) : EReal) = 1
    simp
  · rw [if_neg h]
    have hb : (a == b) = false := by simpa using h
    show (((((BitVec.ofBool (a == b)).setWidth 32).toInt : ℝ)) : EReal) = 0
    rw [hb]
    simp

/-- The updated accumulator at (g, c): the old entry plus the sum over the rows of the one-hot weight of the row's
    graph id at g times the row's entry at column c. -/
theorem k0_pay2_apply (v3 : Vec Ideal S2048x1 .i32) (v11 : Vec Ideal S2048x256 .f32) (v15 : Vec Ideal S512x256 .f32) (g : Fin 512) (c : Fin 256) :
    k0_pay2 (F := Ideal) v3 v11 v15 (ix2 g c) = v15 (ix2 g c) + ∑ r : Fin 2048, hot (v3 (ix2 r (0 : Fin 1))) (BitVec.ofNat 32 g.val) * v11 (ix2 r c) := by
  unfold k0_pay2
  simp only [shapeCast_self]
  rw [addf_apply]
  congr 1
  refine (Ideal.matmul_constant_zero_apply _ none _ _ _).trans ?_
  rw [← Equiv.sum_comp (contrEquiv1 dot_S2048x512_S2048x256_S512x256_0_0_1_1_n_n 2048 rfl rfl).symm]
  refine Finset.sum_congr rfl fun r _ => ?_
  have c2 := contrEquiv1_symm_val dot_S2048x512_S2048x256_S512x256_0_0_1_1_n_n 2048 rfl rfl r
  have l2 : dot_S2048x512_S2048x256_S512x256_0_0_1_1_n_n.lhsIdx (ix2 g c)
      ((contrEquiv1 dot_S2048x512_S2048x256_S512x256_0_0_1_1_n_n 2048 rfl rfl).symm r) = ix2 r g := by
    funext ax; apply Fin.ext
    match ax with
    | ⟨0, _⟩ => simp [DotDims.lhsIdx, dot_S2048x512_S2048x256_S512x256_0_0_1_1_n_n]; exact c2
    | ⟨1, _⟩ => simp [DotDims.lhsIdx, dot_S2048x512_S2048x256_S512x256_0_0_1_1_n_n]; rfl
  have r2 : dot_S2048x512_S2048x256_S512x256_0_0_1_1_n_n.rhsIdx (ix2 g c)
      ((contrEquiv1 dot_S2048x512_S2048x256_S512x256_0_0_1_1_n_n 2048 rfl rfl).symm r) = ix2 r c := by
    funext ax; apply Fin.ext
    match ax with
    | ⟨0, _⟩ => simp [DotDims.rhsIdx, dot_S2048x512_S2048x256_S512x256_0_0_1_1_n_n]; exact c2
    | ⟨1, _⟩ => simp [DotDims.rhsIdx, dot_S2048x512_S2048x256_S512x256_0_0_1_1_n_n]; rfl
  rw [l2, r2]
  rw [truncf_apply, truncf_apply, sitofp_apply, extui_apply]
  have hb : broadcastTo S2048x512 v3 broadcasts_S2048x1_S2048x512 (ix2 r g) = v3 (ix2 r (0 : Fin 1)) := by
    refine broadcastTo_apply _ _ _ _ fun a => ?_
    match a with
    | ⟨0, _⟩ => rfl
    | ⟨1, _⟩ => rfl
  have hi : iota .tc S2048x512 32 [1] iota_S2048x512_d1_w32 (ix2 r g) = BitVec.ofNat 32 g.val := by
    unfold iota
    simp
  show FloatOps.sitofp (F := Ideal) .f32 ((IntOp.cmpi .eq (broadcastTo S2048x512 v3 broadcasts_S2048x1_S2048x512 (ix2 r g))
      (iota .tc S2048x512 32 [1] iota_S2048x512_d1_w32 (ix2 r g))).setWidth 32) * v11 (ix2 r c) = _
  rw [hb, hi, sitofp_cmpi_eq]

end Cert.KernelIdeal.Val
end
-- ==== Proof.Val.Sums.lean ====
/- Finite-sum algebra over the extended reals (a commutative monoid under addition in which 0 * x = 0 and
   1 * x = x for every x, infinite or not).  (i) A double sum over 245 tiles of 2048 rows each, the row of
   tile t at offset r being row 2048 * t + r, is the single sum over all 501760 rows.  (ii) If every row from
   500000 on contributes zero, the sum over the 501760 rows is the sum over the first 500000.  (iii) A sum
   weighted by a one-hot (one where a row's id equals a fixed id, zero elsewhere) is the sum over exactly the
   rows whose id equals that id.  (iv) A one-hot-weighted sum over the 512 columns picks the single entry at
   the id when the id is below 512, and is zero when the id is 512 or more.  (v) A sequence that starts at the
   first term and adds the next term at every step is the sum of the terms so far. -/
import proofs.«417222_j31860067402236_1_alg».proof.Proof.Val.Hot
import Mathlib.Algebra.BigOperators.Fin
import Mathlib.Algebra.BigOperators.Intervals
import Mathlib.Data.EReal.Basic

noncomputable section

namespace Cert.Hand

open scoped BigOperators

/-- The pairs (tile, offset) are in bijection with the rows, the pair (t, r) being row 2048 * t + r. -/
theorem tiles_sum (w : Fin 501760 → EReal) :
    (∑ t : Fin 245, ∑ r : Fin 2048, w ⟨2048 * t.val + r.val, by have := t.isLt; have := r.isLt; omega⟩) = ∑ n : Fin 501760, w n := by
  let e : Fin 245 × Fin 2048 ≃ Fin 501760 := finProdFinEquiv (m := 245) (n := 2048)
  have he : ∀ p : Fin 245 × Fin 2048, (e p).val = p.2.val + 2048 * p.1.val := fun p => rfl
  rw [← Fintype.sum_prod_type (f := fun p : Fin 245 × Fin 2048 =>
    w ⟨2048 * p.1.val + p.2.val, by have := p.1.isLt; have := p.2.isLt; omega⟩)]
  refine Fintype.sum_equiv e _ _ (fun p => ?_)
  congr 1
  apply Fin.ext
  rw [he p]
  exact Nat.add_comm _ _

/-- Rows from 500000 on contribute zero, so only the first 500000 rows remain. -/
theorem pad_sum (w : Fin 501760 → EReal) (hz : ∀ n : Fin 501760, 500000 ≤ n.val → w n = 0) :
    (∑ n : Fin 501760, w n) = ∑ m : Fin 500000, w ⟨m.val, by have := m.isLt; omega⟩ := by
  have hsplit := Fin.sum_univ_add (M := EReal) (a := 500000) (b := 1760) w
  have htail : (∑ i : Fin 1760, w (Fin.natAdd 500000 i)) = 0 :=
    Finset.sum_eq_zero (fun i _ => hz _ (by simp [Fin.natAdd]))
  rw [htail, add_zero] at hsplit
  exact hsplit

/-- A one-hot weight keeps exactly the rows whose id is the fixed id. -/
theorem hot_sum {n : ℕ} (a : Fin n → BitVec 32) (g : BitVec 32) (x : Fin n → EReal) :
    (∑ k : Fin n, hot (a k) g * x k) = ∑ k ∈ Finset.univ.filter (fun k : Fin n => a k = g), x k := by
  rw [Finset.sum_filter]
  refine Finset.sum_congr rfl (fun k _ => ?_)
  by_cases hk : a k = g
  · rw [if_pos hk, hk, hot_self, one_mul]
  · rw [if_neg hk, hot_ne hk, zero_mul]

/-- A column below 512, read as a 32-bit number, is the id exactly when it is the id's value. -/
theorem ofNat_eq_iff (a : BitVec 32) (g : Fin 512) : a = BitVec.ofNat 32 g.val ↔ g.val = a.toNat := by
  have hg := g.isLt
  constructor
  · intro hEq
    have h1 := congrArg BitVec.toNat hEq
    rw [BitVec.toNat_ofNat] at h1
    rw [h1]
    exact (Nat.mod_eq_of_lt (by omega)).symm
  · intro hEq
    apply BitVec.eq_of_toNat_eq
    rw [BitVec.toNat_ofNat, hEq]
    exact (Nat.mod_eq_of_lt a.isLt).symm

/-- An id below 512 picks its own column. -/
theorem hot_pick (a : BitVec 32) (h : a.toNat < 512) (s : Fin 512 → EReal) :
    (∑ g : Fin 512, hot a (BitVec.ofNat 32 g.val) * s g) = s ⟨a.toNat, h⟩ := by
  rw [Finset.sum_eq_single (⟨a.toNat, h⟩ : Fin 512)]
  · have hEq : a = BitVec.ofNat 32 (⟨a.toNat, h⟩ : Fin 512).val := (ofNat_eq_iff a ⟨a.toNat, h⟩).2 rfl
    rw [← hEq, hot_self, one_mul]
  · intro g _ hg
    have hne : a ≠ BitVec.ofNat 32 g.val := by
      intro hEq
      exact hg (Fin.ext ((ofNat_eq_iff a g).1 hEq))
    rw [hot_ne hne, zero_mul]
  · intro h'
    exact absurd (Finset.mem_univ _) h'

/-- An id of 512 or more matches no column. -/
theorem hot_none (a : BitVec 32) (h : 512 ≤ a.toNat) (s : Fin 512 → EReal) :
    (∑ g : Fin 512, hot a (BitVec.ofNat 32 g.val) * s g) = 0 := by
  refine Finset.sum_eq_zero (fun g _ => ?_)
  have hne : a ≠ BitVec.ofNat 32 g.val := by
    intro hEq
    have h1 := (ofNat_eq_iff a g).1 hEq
    have hg := g.isLt
    omega
  rw [hot_ne hne, zero_mul]

/-- A running sum is the sum of the terms so far. -/
theorem run_sum (T : ℕ → EReal) (acc : ℕ → EReal) (h0 : acc 0 = T 0) (hs : ∀ n, acc (n + 1) = acc n + T (n + 1)) (n : ℕ) :
    acc n = ∑ t ∈ Finset.range (n + 1), T t := by
  induction n with
  | zero => rw [h0]; simp
  | succ k ih => rw [hs k, ih, Finset.sum_range_succ (fun t => T t) (k + 1)]

/-- The tiled one-hot-weighted sum over the padded rows, whose pad rows carry zero, is the sum over the true rows
    whose id is the fixed id. -/
theorem seg_total (bp : Fin 501760 → BitVec 32) (xp : Fin 501760 → EReal) (b : Fin 500000 → BitVec 32) (x : Fin 500000 → EReal)
    (hb : ∀ m : Fin 500000, bp ⟨m.val, by have := m.isLt; omega⟩ = b m) (hx : ∀ m : Fin 500000, xp ⟨m.val, by have := m.isLt; omega⟩ = x m)
    (hpad : ∀ n : Fin 501760, 500000 ≤ n.val → xp n = 0) (g : BitVec 32) :
    (∑ t : Fin 245, ∑ r : Fin 2048, hot (bp ⟨2048 * t.val + r.val, by have := t.isLt; have := r.isLt; omega⟩) g * xp ⟨2048 * t.val + r.val, by have := t.isLt; have := r.isLt; omega⟩)
      = ∑ m ∈ Finset.univ.filter (fun m : Fin 500000 => b m = g), x m := by
  refine (tiles_sum (fun n => hot (bp n) g * xp n)).trans ?_
  refine (pad_sum (fun n => hot (bp n) g * xp n) (fun n hn => ?_)).trans ?_
  · show hot (bp n) g * xp n = 0
    rw [hpad n hn, mul_zero]
  · refine Eq.trans (Finset.sum_congr rfl (fun m _ => ?_)) (hot_sum b g x)
    show hot (bp ⟨m.val, _⟩) g * xp ⟨m.val, _⟩ = hot (b m) g * x m
    rw [hb m, hx m]

/-- A sum over the first n naturals is the sum over the n indices below n. -/
theorem range_sum_fin (T : ℕ → EReal) (n : ℕ) : (∑ t ∈ Finset.range n, T t) = ∑ t : Fin n, T t.val :=
  Finset.sum_range T

end Cert.Hand

end
-- ==== Proof.Val.Acc.lean ====
/- The segment-sum accumulator after the last tile, and the middle region's output array.
   (1) A family of [512,256] blocks that starts at the update of the zero block by tile 0 and whose every next
   member is the update of the one before by the next tile is, after tile 244, at (g, k) the double sum over
   the tiles and their rows of [id of the row = g] * the row's entry at column k: each update adds its tile's
   one-hot-weighted sum, so the members are the running sums of those terms.
   (2) The middle region has one grid point and every window's block is its whole array, so the array its output
   window holds after the region is the body's one stored value, computed from the three input arrays as the
   region finds them. -/
import proofs.«417222_j31860067402236_1_alg».proof.Proof.Val.Pay0
import proofs.«417222_j31860067402236_1_alg».proof.Proof.Val.Sums
import proofs.«417222_j31860067402236_1_alg».proof.Proof.KI.Reg1
import Idealize.ShloMosaic.Lib.Pipeline.Value
noncomputable section
namespace Cert.KernelIdeal.Val
open Cert.KernelIdeal Cert.KernelIdeal.Gen Idealize.ShloMosaic Idealize.ShloMosaic.ValueIdx Cert.Hand
open scoped BigOperators

/-- The accumulator after the last tile is the double sum over tiles and rows of the one-hot-weighted entries. -/
theorem acc_total (idb : Fin 245 → Vec Ideal S2048x1 .i32) (xb : Fin 245 → Vec Ideal S2048x256 .f32)
    (acc : (n : ℕ) → n < 245 → Vec Ideal S512x256 .f32)
    (h0 : acc 0 (by norm_num) = k0_pay2 (F := Ideal) (idb ⟨0, by norm_num⟩) (xb ⟨0, by norm_num⟩) (k0_pay1 (F := Ideal)))
    (hs : ∀ (n : ℕ) (h : n + 1 < 245), acc (n + 1) h = k0_pay2 (F := Ideal) (idb ⟨n + 1, h⟩) (xb ⟨n + 1, h⟩) (acc n (Nat.lt_of_succ_lt h)))
    (g : Fin 512) (k : Fin 256) :
    acc 244 (by norm_num) (ix2 g k) = ∑ t : Fin 245, ∑ r : Fin 2048, hot (idb t (ix2 r (0 : Fin 1))) (BitVec.ofNat 32 g.val) * xb t (ix2 r k) := by
  let T : ℕ → EReal := fun t =>
    if h : t < 245 then ∑ r : Fin 2048, hot (idb ⟨t, h⟩ (ix2 r (0 : Fin 1))) (BitVec.ofNat 32 g.val) * xb ⟨t, h⟩ (ix2 r k) else 0
  have hT : ∀ (t : ℕ) (h : t < 245), T t = ∑ r : Fin 2048, hot (idb ⟨t, h⟩ (ix2 r (0 : Fin 1))) (BitVec.ofNat 32 g.val) * xb ⟨t, h⟩ (ix2 r k) :=
    fun t h => dif_pos h
  have key : ∀ (n : ℕ) (h : n < 245), acc n h (ix2 g k) = ∑ t ∈ Finset.range (n + 1), T t := by
    intro n
    induction n with
    | zero =>
      intro h
      rw [h0, k0_pay2_apply, k0_pay1_apply, zero_add, Finset.sum_range_one, hT 0 h]
    | succ m ih =>
      intro h
      rw [hs m h, k0_pay2_apply, ih (Nat.lt_of_succ_lt h), Finset.sum_range_succ (fun t => T t) (m + 1), hT (m + 1) h]
  rw [key 244 (by norm_num), range_sum_fin]
  exact Finset.sum_congr rfl fun t _ => hT t.val t.isLt

open Idealize.ShloMosaic.TcCoe Idealize.SL.Sem
open Idealize.ShloMosaic.Pipeline (Dat)
open Cert.KernelIdeal.Hand

/-- The zero offsets of a whole-buffer rectangle. -/
theorem reg1_zero_offsets : (![0, 0] : Fin 2 → Nat) = fun _ => 0 := funext fun a => by fin_cases a <;> rfl

/-- What the one grid point writes back through the output window is the stored value of the three input arrays as the
    region finds them: every block is its whole array, read at zero offsets. -/
theorem reg1_flushed_eq (V : (c : Dev nD) → (b : Ref sig .tc) → Buf (Elt Ideal) ((c : Thread nD τ).loc b)) (c : Dev nD) (t : Fin cfg1.N) :
    (dat1 (F := Ideal) V c).flushed 3 t = ((cfg1.win 3).blk t).view.read (Elt Ideal) (k1_pay1 (F := Ideal) (V c main_v12) (V c main_arg2) (V c main_arg3)) := by
  obtain rfl : t = t1_0 := fin_N1 t
  show (cfg1.win 3).cut (grid1.coords t1_0) ((dat1 V c).after 3 t1_0) = _
  rw [after1_3]
  unfold out1_3
  rw [View.canon_unit_zero reg1_zero_offsets]
  simp only [View.ld_unit_zero (S := S512x256) reg1_zero_offsets, View.ld_unit_zero (S := S256x16) reg1_zero_offsets, View.ld_unit_zero (S := S16x256) reg1_zero_offsets]
  have hz0 : (fun a => win1_0.index t1_0 a * main_v12.ty.shape.size a) = fun _ => 0 := funext fun a => by fin_cases a <;> decide
  have hz1 : (fun a => win1_1.index t1_0 a * main_arg2.ty.shape.size a) = fun _ => 0 := funext fun a => by fin_cases a <;> decide
  have hz2 : (fun a => win1_2.index t1_0 a * main_arg3.ty.shape.size a) = fun _ => 0 := funext fun a => by fin_cases a <;> decide
  have hz3 : (fun a => win1_3.index t1_0 a * main_v13.ty.shape.size a) = fun _ => 0 := funext fun a => by fin_cases a <;> decide
  have i0 : iblk1 V c 0 t1_0 = V c main_v12 :=
    Memref.read_access_unit_zero (Elt Ideal) main_v12 hz0 (fun a => by rw [congrFun hz0 a]; simp) (V c main_v12)
  have i1 : iblk1 V c 1 t1_0 = V c main_arg2 :=
    Memref.read_access_unit_zero (Elt Ideal) main_arg2 hz1 (fun a => by rw [congrFun hz1 a]; simp) (V c main_arg2)
  have i2 : iblk1 V c 2 t1_0 = V c main_arg3 :=
    Memref.read_access_unit_zero (Elt Ideal) main_arg3 hz2 (fun a => by rw [congrFun hz2 a]; simp) (V c main_arg3)
  rw [i0, i1, i2]
  exact (Memref.read_access_unit_zero (Elt Ideal) main_v13 hz3 (fun a => by rw [congrFun hz3 a]; simp)
    (k1_pay1 (F := Ideal) (V c main_v12) (V c main_arg2) (V c main_arg3))).symm

/-- The output window's array after the region: the one point's block covers it, so it holds the stored value. -/
theorem arr1_final (V : (c : Dev nD) → (b : Ref sig .tc) → Buf (Elt Ideal) ((c : Thread nD τ).loc b)) (c : Dev nD) :
    (Cert.KernelIdeal.Hand.dat1 (F := Ideal) V c).arrAt 3 cfg1.N = k1_pay1 (F := Ideal) (V c main_v12) (V c main_arg2) (V c main_arg3) :=
  (dat1 (F := Ideal) V c).arrAt_eq_of_cover 3 (k1_pay1 (F := Ideal) (V c main_v12) (V c main_arg2) (V c main_arg3))
    (fun t _ => reg1_flushed_eq V c t) fun i =>
    ⟨t1_0, flush1_3 t1_0, by
      show i ∈ ((View.whole main_v13).slice (win1_3.rect t1_0)).set
      rw [View.set_slice_whole, Rect.mem_set_unit]
      intro a
      have h0 : (i 0 : Nat) < 512 := (i 0).isLt
      have h1 : (i 1 : Nat) < 256 := (i 1).isLt
      match a with
      | ⟨0, _⟩ =>
        show win1_3.index t1_0 0 * win1_3.size 0 ≤ (i 0 : Nat) ∧ (i 0 : Nat) < win1_3.index t1_0 0 * win1_3.size 0 + win1_3.xsize (grid1.coords t1_0) 0
        rw [show win1_3.index t1_0 0 * win1_3.size 0 = 0 from by decide +kernel, show win1_3.xsize (grid1.coords t1_0) 0 = 512 from by decide +kernel]; omega
      | ⟨1, _⟩ =>
        show win1_3.index t1_0 1 * win1_3.size 1 ≤ (i 1 : Nat) ∧ (i 1 : Nat) < win1_3.index t1_0 1 * win1_3.size 1 + win1_3.xsize (grid1.coords t1_0) 1
        rw [show win1_3.index t1_0 1 * win1_3.size 1 = 0 from by decide +kernel, show win1_3.xsize (grid1.coords t1_0) 1 = 256 from by decide +kernel]; omega⟩

end Cert.KernelIdeal.Val
end
-- ==== Proof.Val.Pay2.lean ====
/- The multiply kernel's body, read at an index at the ideal values. Its one stored value is the row block
   times a matrix product: the left factor of the product is the one-hot matrix of the block's graph ids (row r,
   column g holds one when the id of row r is g and zero otherwise: a comparison of the id column, repeated along
   the 512 columns, with the column counter, read as a number), the right factor is the scale table of 512 rows; the
   product contracts the 512 columns of the one-hot with the 512 rows of the table into a zero accumulator, and the
   changes of float format on the way are the identity. So at row r and column c the body is
   (row block)(r,c) * sum over g < 512 of [id(r) = g] * table(g,c). -/
import proofs.«417222_j31860067402236_1_alg».proof.Proof.Gen.KernelIdeal.Skeleton
import proofs.«417222_j31860067402236_1_alg».proof.Proof.Val.Hot
import Idealize.ShloMosaic.Lib.ValueIdx
import Idealize.ShloMosaic.Lib.ValueLayout
import Idealize.ShloMosaic.Lib.Pipeline.Value
import Idealize.ShloMosaic.PureOps.Ideal.Laws
noncomputable section
namespace Cert.KernelIdeal.Val
open Cert.KernelIdeal Cert.KernelIdeal.Gen Idealize.ShloMosaic Idealize.ShloMosaic.ValueIdx Cert.Hand
open scoped BigOperators

/-- The column counter along axis 1 at (r, g) is the word of g. -/
theorem pay2_iota_apply (h : S2048x512.Iotas .tc 32 [1]) (r : Fin 2048) (g : Fin 512) :
    iota .tc S2048x512 32 [1] h (ix2 r g) = BitVec.ofNat 32 g.val := by
  show BitVec.ofNat 32 (0 * 512 + g.val) = BitVec.ofNat 32 g.val
  rw [Nat.zero_mul, Nat.zero_add]

/-- The id column repeated along the 512 columns reads, at (r, g), the id of row r. -/
theorem pay2_bcast_apply (h : S2048x1.Broadcasts S2048x512) (x : IVec S2048x1 32) (r : Fin 2048) (g : Fin 512) :
    broadcastTo S2048x512 x h (ix2 r g) = x (ix2 r (0 : Fin 1)) :=
  broadcastTo_apply x h (ix2 r g) (ix2 r (0 : Fin 1)) (fun a => match a with
    | ⟨0, _⟩ => by show r.val = if (2048 : Nat) = 1 then 0 else r.val; rw [if_neg (by decide)]
    | ⟨1, _⟩ => by show 0 = if (1 : Nat) = 1 then 0 else g.val; rw [if_pos rfl])

/-- The comparison bit of two words, widened to a word and read as a signed number, is the one-hot weight. -/
theorem pay2_onehot (a g : BitVec 32) :
    (FloatOps.sitofp (F := Ideal) .f32 ((IntOp.cmpi .eq a g).setWidth 32) : EReal) = hot a g := by
  show (((((IntOp.cmpi .eq a g).setWidth 32).toInt : ℝ)) : EReal) = hot a g
  by_cases h : a = g
  · have e : IntOp.cmpi .eq a g = 1#1 := by simp [IntOp.cmpi, h]
    have e1 : ((1#1 : BitVec 1).setWidth 32).toInt = 1 := by decide
    rw [e, e1, hot, if_pos h, Int.cast_one, EReal.coe_one]
  · have e : IntOp.cmpi .eq a g = 0#1 := by
      show BitVec.ofBool (a == g) = 0#1
      rw [beq_eq_false_iff_ne.mpr h]; rfl
    have e1 : ((0#1 : BitVec 1).setWidth 32).toInt = 0 := by decide
    rw [e, e1, hot, if_neg h, Int.cast_zero, EReal.coe_zero]

theorem pay2_lhs_0 (i : S2048x256.Idx) (q : dot_S2048x512_S512x256_S2048x256_1_0_0_1_n_n.contr.Idx) :
    (dot_S2048x512_S512x256_S2048x256_1_0_0_1_n_n.lhsIdx i q 0).val = (i 0).val := by
  unfold DotDims.lhsIdx
  rw [dif_neg (show ¬(0 : Fin S2048x512.rank) ∈ dot_S2048x512_S512x256_S2048x256_1_0_0_1_n_n.lhsBatch by decide), dif_pos (show (0 : Fin S2048x512.rank) ∈ dot_S2048x512_S512x256_S2048x256_1_0_0_1_n_n.lhsNonContracting by decide)]
  rfl
theorem pay2_lhs_1 (i : S2048x256.Idx) (q : dot_S2048x512_S512x256_S2048x256_1_0_0_1_n_n.contr.Idx) :
    (dot_S2048x512_S512x256_S2048x256_1_0_0_1_n_n.lhsIdx i q 1).val = (q ⟨0, by decide⟩).val :=
  dot_S2048x512_S512x256_S2048x256_1_0_0_1_n_n.lhsIdx_val_of_single rfl i q
theorem pay2_rhs_0 (i : S2048x256.Idx) (q : dot_S2048x512_S512x256_S2048x256_1_0_0_1_n_n.contr.Idx) :
    (dot_S2048x512_S512x256_S2048x256_1_0_0_1_n_n.rhsIdx i q 0).val = (q ⟨0, by decide⟩).val :=
  dot_S2048x512_S512x256_S2048x256_1_0_0_1_n_n.rhsIdx_val_of_single rfl i q
theorem pay2_rhs_1 (i : S2048x256.Idx) (q : dot_S2048x512_S512x256_S2048x256_1_0_0_1_n_n.contr.Idx) :
    (dot_S2048x512_S512x256_S2048x256_1_0_0_1_n_n.rhsIdx i q 1).val = (i 1).val := by
  unfold DotDims.rhsIdx
  rw [dif_neg (show ¬(1 : Fin S512x256.rank) ∈ dot_S2048x512_S512x256_S2048x256_1_0_0_1_n_n.rhsBatch by decide), dif_pos (show (1 : Fin S512x256.rank) ∈ dot_S2048x512_S512x256_S2048x256_1_0_0_1_n_n.rhsNonContracting by decide)]
  rfl

/-- The product of a [2048,512] matrix by a [512,256] matrix into the zero accumulator, at (r, c), is the sum over
    the 512 contracted positions of the products of the entries. -/
theorem pay2_matmul_apply {φ₁ φ₂ : FTy} (A : FVec Ideal S2048x512 φ₁) (B : FVec Ideal S512x256 φ₂) (r : Fin 2048) (c : Fin 256) :
    FloatOps.matmul dot_S2048x512_S512x256_S2048x256_1_0_0_1_n_n none A B (constant (F := Ideal) S2048x256 .f32 0x00000000#32) (ix2 r c)
      = ∑ g : Fin 512, A (ix2 r g) * B (ix2 g c) := by
  rw [Ideal.matmul_constant_zero_apply, ← Equiv.sum_comp (ValueIdx.contrEquiv1 dot_S2048x512_S512x256_S2048x256_1_0_0_1_n_n 512 rfl rfl).symm]
  refine Finset.sum_congr rfl fun k _ => ?_
  have hk := ValueIdx.contrEquiv1_symm_val dot_S2048x512_S512x256_S2048x256_1_0_0_1_n_n 512 rfl rfl k
  have el : dot_S2048x512_S512x256_S2048x256_1_0_0_1_n_n.lhsIdx (ix2 r c) ((ValueIdx.contrEquiv1 dot_S2048x512_S512x256_S2048x256_1_0_0_1_n_n 512 rfl rfl).symm k) = ix2 r k := funext fun a => Fin.ext (by
    match a with
    | ⟨0, _⟩ => exact pay2_lhs_0 _ _
    | ⟨1, _⟩ => exact (pay2_lhs_1 _ _).trans hk)
  have er : dot_S2048x512_S512x256_S2048x256_1_0_0_1_n_n.rhsIdx (ix2 r c) ((ValueIdx.contrEquiv1 dot_S2048x512_S512x256_S2048x256_1_0_0_1_n_n 512 rfl rfl).symm k) = ix2 k c := funext fun a => Fin.ext (by
    match a with
    | ⟨0, _⟩ => exact (pay2_rhs_0 _ _).trans hk
    | ⟨1, _⟩ => exact pay2_rhs_1 _ _)
  rw [el, er]

/-- The one-hot matrix of the id column at (r, g). -/
theorem pay2_hot_apply (hi : S2048x512.Iotas .tc 32 [1]) (hb : S2048x1.Broadcasts S2048x512) (hw : 1 < 32)
    (x : IVec S2048x1 32) (r : Fin 2048) (g : Fin 512) :
    (sitofp .f32 (extui 32 (cmpi .eq (broadcastTo S2048x512 x hb) (iota .tc S2048x512 32 [1] hi)) hw) : FVec Ideal S2048x512 .f32) (ix2 r g)
      = hot (x (ix2 r (0 : Fin 1))) (BitVec.ofNat 32 g.val) := by
  show FloatOps.sitofp (F := Ideal) .f32 ((IntOp.cmpi .eq (broadcastTo S2048x512 x hb (ix2 r g)) (iota .tc S2048x512 32 [1] hi (ix2 r g))).setWidth 32) = _
  rw [pay2_bcast_apply, pay2_iota_apply]
  exact pay2_onehot _ _

theorem k2_pay1_apply (v0 : Vec Ideal S2048x1 .i32) (v8 : Vec Ideal S512x256 .f32) (v12 : Vec Ideal S2048x256 .f32) (r : Fin 2048) (c : Fin 256) :
    k2_pay1 (F := Ideal) v0 v8 v12 (ix2 r c) = v12 (ix2 r c) * ∑ g : Fin 512, hot (v0 (ix2 r (0 : Fin 1))) (BitVec.ofNat 32 g.val) * v8 (ix2 g c) := by
  unfold k2_pay1
  simp only [shapeCast_self]
  refine (mulf_apply _ _ _).trans ?_
  refine congrArg (v12 (ix2 r c) * ·) ?_
  refine (pay2_matmul_apply _ _ r c).trans ?_
  refine Finset.sum_congr rfl fun g _ => ?_
  refine congrArg₂ (· * ·) ?_ ?_
  · exact pay2_hot_apply _ _ _ v0 r g
  · rfl

end Cert.KernelIdeal.Val

end
-- ==== Proof.Val.Arr2.lean ====
/- The last kernel region's output array, and the first region's row blocks. The last region runs 245 points; point t
   reads rows 2048 t .. 2048 t + 2047 of the row array [501760,256] and of the graph-id column [501760,1], and the whole
   scale table [512,256], and writes back the same rows of the output: at (r, k) the row entry times the sum over the 512
   graphs g of [id(r) = g] * table(g, k). The 245 blocks of 2048 rows tile the 501760 rows (row n lies in block
   n / 2048), so the output array ends holding, at every (n, k), row(n, k) * sum over g of [id(n) = g] * table(g, k) of the
   arrays as the region finds them. The first region's two row windows cut their arrays into the same blocks. -/
import proofs.«417222_j31860067402236_1_alg».proof.Proof.KI.Reg2
import proofs.«417222_j31860067402236_1_alg».proof.Proof.Val.Pay2
noncomputable section
namespace Cert.KernelIdeal.Val
open Cert.KernelIdeal Cert.KernelIdeal.Gen Idealize.ShloMosaic Idealize.ShloMosaic.ValueIdx Cert.Hand
open Cert.KernelIdeal.Hand
open Idealize.ShloMosaic.TcCoe Idealize.SL.Sem
open Idealize.ShloMosaic.Pipeline (Dat Cfg Window)
open scoped BigOperators

/-- The offsets of every whole-buffer access are zero. -/
theorem arr2_hz : (![0, 0] : Fin 2 → Nat) = fun _ => 0 := funext fun a => by fin_cases a <;> rfl

/-- At each of the last region's 245 points t the three row windows sit at block (t, 0) of their arrays and the table's
    window at block (0, 0). -/
theorem arr2_idx : ∀ t : Fin cfg2.N, win2_0.index t (0 : Fin 2) = t.val ∧ win2_0.index t (1 : Fin 2) = 0
    ∧ win2_1.index t (0 : Fin 2) = t.val ∧ win2_1.index t (1 : Fin 2) = 0
    ∧ win2_2.index t (0 : Fin 2) = 0 ∧ win2_2.index t (1 : Fin 2) = 0
    ∧ win2_3.index t (0 : Fin 2) = t.val ∧ win2_3.index t (1 : Fin 2) = 0 :=
  (by decide +kernel : ∀ t : Fin grid2.N, _)

/-- At each of the first region's 245 points t its two row windows sit at block (t, 0) of their arrays. -/
theorem arr0_idx : ∀ t : Fin cfg0.N, win0_0.index t (0 : Fin 2) = t.val ∧ win0_0.index t (1 : Fin 2) = 0
    ∧ win0_1.index t (0 : Fin 2) = t.val ∧ win0_1.index t (1 : Fin 2) = 0 :=
  (by decide +kernel : ∀ t : Fin grid0.N, _)

/-- What the last region's output array ends holding, index by index: the row entry times the scale of the row's
    graph, the scale picked out of the 512-row table by the one-hot weights of the row's graph id. -/
abbrev arr2_G (A : Vec Ideal S501760x256 .f32) (B : Vec Ideal S501760x1 .i32) (T : Vec Ideal S512x256 .f32) : Vec Ideal S501760x256 .f32 :=
  fun i => A i * ∑ g : Fin 512, hot (B (ix2 (⟨(i 0).val, (i 0).isLt⟩ : Fin 501760) (0 : Fin 1))) (BitVec.ofNat 32 g.val) * T (ix2 g (⟨(i 1).val, (i 1).isLt⟩ : Fin 256))

theorem arr2_G_apply (A : Vec Ideal S501760x256 .f32) (B : Vec Ideal S501760x1 .i32) (T : Vec Ideal S512x256 .f32) (n : Fin 501760) (k : Fin 256) :
    arr2_G A B T (ix2 n k) = A (ix2 n k) * ∑ g : Fin 512, hot (B (ix2 n (0 : Fin 1))) (BitVec.ofNat 32 g.val) * T (ix2 g k) := rfl

/-- The body's one store at (r, k), over any three input blocks. -/
theorem arr2_out_apply (x0 : Vec Ideal S2048x256 .f32) (x1 : Vec Ideal S2048x1 .i32) (x2 : Vec Ideal S512x256 .f32) (r : Fin 2048) (k : Fin 256) :
    out2_3 x0 x1 x2 (ix2 r k) = x0 (ix2 r k) * ∑ g : Fin 512, hot (x1 (ix2 r (0 : Fin 1))) (BitVec.ofNat 32 g.val) * x2 (ix2 g k) := by
  unfold out2_3
  rw [View.canon_unit_zero arr2_hz]
  simp only [View.ld_unit_zero (S := S2048x256) arr2_hz, View.ld_unit_zero (S := S2048x1) arr2_hz, View.ld_unit_zero (S := S512x256) arr2_hz]
  exact k2_pay1_apply x1 x2 x0 r k

/-- Block t of a [501760,256] array in the first region's window 0: rows 2048 t .. 2048 t + 2047. -/
theorem blk0_0_read {F : FTy → Type} [FloatOps F] (A : Vec F S501760x256 .f32) (t : Fin cfg0.N) (r : Fin 2048) (k : Fin 256) :
    ((cfg0.win 0).blk t).view.read (Elt F) A (ix2 r k) = A (ix2 (⟨2048 * t.val + r.val, by have := t.isLt; have := r.isLt; have : cfg0.N = 245 := Gen.N_0; omega⟩ : Fin 501760) k) := by
  obtain ⟨e0, e1, -, -⟩ := arr0_idx t
  rw [View.read_apply]
  refine congrArg A (funext fun a => Fin.ext ?_)
  match a with
  | ⟨0, _⟩ => show win0_0.index t (0 : Fin 2) * 2048 + 1 * r.val = 2048 * t.val + r.val; rw [e0]; omega
  | ⟨1, _⟩ => show win0_0.index t (1 : Fin 2) * 256 + 1 * k.val = k.val; rw [e1]; omega

/-- Block t of a [501760,1] array in the first region's window 1: rows 2048 t .. 2048 t + 2047. -/
theorem blk0_1_read {F : FTy → Type} [FloatOps F] (A : Vec F S501760x1 .i32) (t : Fin cfg0.N) (r : Fin 2048) :
    ((cfg0.win 1).blk t).view.read (Elt F) A (ix2 r (0 : Fin 1)) = A (ix2 (⟨2048 * t.val + r.val, by have := t.isLt; have := r.isLt; have : cfg0.N = 245 := Gen.N_0; omega⟩ : Fin 501760) (0 : Fin 1)) := by
  obtain ⟨-, -, e0, e1⟩ := arr0_idx t
  rw [View.read_apply]
  refine congrArg A (funext fun a => Fin.ext ?_)
  match a with
  | ⟨0, _⟩ => show win0_1.index t (0 : Fin 2) * 2048 + 1 * r.val = 2048 * t.val + r.val; rw [e0]; omega
  | ⟨1, _⟩ => show win0_1.index t (1 : Fin 2) * 1 + 1 * (0 : Fin 1).val = (0 : Fin 1).val; rw [e1]; rfl

/-- Row r of block t is row 2048 t + r of the array. -/
abbrev arr2_row (t : Fin cfg2.N) (r : Fin 2048) : Fin 501760 :=
  ⟨2048 * t.val + r.val, by have := t.isLt; have := r.isLt; have : cfg2.N = 245 := Gen.N_2; omega⟩

/-- Block t of a [501760,256] array in the last region's window 0: rows 2048 t .. 2048 t + 2047. -/
theorem arr2_blk0_read {F : FTy → Type} [FloatOps F] (A : Vec F S501760x256 .f32) (t : Fin cfg2.N) (r : Fin 2048) (k : Fin 256) :
    ((cfg2.win 0).blk t).view.read (Elt F) A (ix2 r k) = A (ix2 (arr2_row t r) k) := by
  obtain ⟨e0, e1, -⟩ := arr2_idx t
  rw [View.read_apply]
  refine congrArg A (funext fun a => Fin.ext ?_)
  match a with
  | ⟨0, _⟩ => show win2_0.index t (0 : Fin 2) * 2048 + 1 * r.val = 2048 * t.val + r.val; rw [e0]; omega
  | ⟨1, _⟩ => show win2_0.index t (1 : Fin 2) * 256 + 1 * k.val = k.val; rw [e1]; omega

/-- Block t of a [501760,1] array in the last region's window 1: rows 2048 t .. 2048 t + 2047. -/
theorem arr2_blk1_read {F : FTy → Type} [FloatOps F] (A : Vec F S501760x1 .i32) (t : Fin cfg2.N) (r : Fin 2048) :
    ((cfg2.win 1).blk t).view.read (Elt F) A (ix2 r (0 : Fin 1)) = A (ix2 (arr2_row t r) (0 : Fin 1)) := by
  obtain ⟨-, -, e0, e1, -⟩ := arr2_idx t
  rw [View.read_apply]
  refine congrArg A (funext fun a => Fin.ext ?_)
  match a with
  | ⟨0, _⟩ => show win2_1.index t (0 : Fin 2) * 2048 + 1 * r.val = 2048 * t.val + r.val; rw [e0]; omega
  | ⟨1, _⟩ => show win2_1.index t (1 : Fin 2) * 1 + 1 * (0 : Fin 1).val = (0 : Fin 1).val; rw [e1]; rfl

/-- The one block of the [512,256] table in the last region's window 2 is the table. -/
theorem arr2_blk2_read {F : FTy → Type} [FloatOps F] (A : Vec F S512x256 .f32) (t : Fin cfg2.N) (g : Fin 512) (k : Fin 256) :
    ((cfg2.win 2).blk t).view.read (Elt F) A (ix2 g k) = A (ix2 g k) := by
  obtain ⟨-, -, -, -, e0, e1, -⟩ := arr2_idx t
  rw [View.read_apply]
  refine congrArg A (funext fun a => Fin.ext ?_)
  match a with
  | ⟨0, _⟩ => show win2_2.index t (0 : Fin 2) * 512 + 1 * g.val = g.val; rw [e0]; omega
  | ⟨1, _⟩ => show win2_2.index t (1 : Fin 2) * 256 + 1 * k.val = k.val; rw [e1]; omega

/-- Block t of a [501760,256] array in the last region's output window: rows 2048 t .. 2048 t + 2047. -/
theorem arr2_blk3_read {F : FTy → Type} [FloatOps F] (A : Vec F S501760x256 .f32) (t : Fin cfg2.N) (r : Fin 2048) (k : Fin 256) :
    ((cfg2.win 3).blk t).view.read (Elt F) A (ix2 r k) = A (ix2 (arr2_row t r) k) := by
  obtain ⟨-, -, -, -, -, -, e0, e1⟩ := arr2_idx t
  rw [View.read_apply]
  refine congrArg A (funext fun a => Fin.ext ?_)
  match a with
  | ⟨0, _⟩ => show win2_3.index t (0 : Fin 2) * 2048 + 1 * r.val = 2048 * t.val + r.val; rw [e0]; omega
  | ⟨1, _⟩ => show win2_3.index t (1 : Fin 2) * 256 + 1 * k.val = k.val; rw [e1]; omega

/-- What point t writes back is block t of the whole-array function of the three arrays as the region finds them. -/
theorem arr2_flushed_eq (V : (c : Dev nD) → (b : Ref sig .tc) → Buf (Elt Ideal) ((c : Thread nD τ).loc b)) (c : Dev nD) (t : Fin cfg2.N) :
    (dat2 (F := Ideal) V c).flushed 3 t = ((cfg2.win 3).blk t).view.read (Elt Ideal) (arr2_G (V c main_v0) (V c main_v2) (V c main_v13)) := by
  show (cfg2.win 3).cut (grid2.coords t) ((dat2 (F := Ideal) V c).after 3 t) = _
  rw [after2_3]
  funext j
  obtain ⟨r, k, rfl⟩ : ∃ (r : Fin 2048) (k : Fin 256), j = ix2 r k := ⟨j 0, j 1, eq_ix2 j⟩
  have h0 : iblk2 V c 0 t (ix2 r k) = V c main_v0 (ix2 (arr2_row t r) k) := arr2_blk0_read (V c main_v0) t r k
  have h1 : iblk2 V c 1 t (ix2 r (0 : Fin 1)) = V c main_v2 (ix2 (arr2_row t r) (0 : Fin 1)) := arr2_blk1_read (V c main_v2) t r
  have h2 : ∀ g : Fin 512, iblk2 V c 2 t (ix2 g k) = V c main_v13 (ix2 g k) := fun g => arr2_blk2_read (V c main_v13) t g k
  refine (arr2_out_apply (iblk2 V c 0 t) (iblk2 V c 1 t) (iblk2 V c 2 t) r k).trans ?_
  refine Eq.trans ?_ (arr2_blk3_read (arr2_G (V c main_v0) (V c main_v2) (V c main_v13)) t r k).symm
  rw [arr2_G_apply, h0, h1]
  simp only [h2]

/-- An index of the output array is in point t's block iff each coordinate is in the block's range on its axis. -/
theorem arr2_mem_blk (t : Fin cfg2.N) (i : S501760x256.Idx) :
    i ∈ ((cfg2.win 3).blk t).view.set ↔ ∀ a : Fin 2, win2_3.index t a * S2048x256.size a ≤ (i a).val ∧ (i a).val < win2_3.index t a * S2048x256.size a + S2048x256.size a := by
  show i ∈ ((View.whole main_v14).slice (win2_3.rect t)).set ↔ _
  rw [View.set_slice_whole, Rect.mem_set_unit]
  exact Iff.rfl

/-- Row n of the output array lies in the block of point n / 2048. -/
theorem arr2_cover (i : S501760x256.Idx) : ∃ t : Fin cfg2.N, (cfg2.win 3).flush t = true ∧ i ∈ ((cfg2.win 3).blk t).view.set := by
  have hi0 : (i 0).val < 501760 := (i 0).isLt
  have hi1 : (i 1).val < 256 := (i 1).isLt
  have hN : cfg2.N = 245 := Gen.N_2
  refine ⟨⟨(i 0).val / 2048, by omega⟩, flush2_3 _, ?_⟩
  obtain ⟨-, -, -, -, -, -, e0, e1⟩ := arr2_idx ⟨(i 0).val / 2048, by omega⟩
  rw [arr2_mem_blk]
  intro a
  match a with
  | ⟨0, _⟩ =>
    show win2_3.index ⟨(i 0).val / 2048, _⟩ (0 : Fin 2) * 2048 ≤ (i 0).val ∧ (i 0).val < win2_3.index ⟨(i 0).val / 2048, _⟩ (0 : Fin 2) * 2048 + 2048
    rw [e0]; show (i 0).val / 2048 * 2048 ≤ (i 0).val ∧ (i 0).val < (i 0).val / 2048 * 2048 + 2048; omega
  | ⟨1, _⟩ =>
    show win2_3.index ⟨(i 0).val / 2048, _⟩ (1 : Fin 2) * 256 ≤ (i 1).val ∧ (i 1).val < win2_3.index ⟨(i 0).val / 2048, _⟩ (1 : Fin 2) * 256 + 256
    rw [e1]; omega

/-- The last region's output array after its 245 points: the whole-array function of the three input arrays. -/
theorem arr2_final (V : (c : Dev nD) → (b : Ref sig .tc) → Buf (Elt Ideal) ((c : Thread nD τ).loc b)) (c : Dev nD) :
    (dat2 (F := Ideal) V c).arrAt 3 cfg2.N = arr2_G (V c main_v0) (V c main_v2) (V c main_v13) :=
  (dat2 (F := Ideal) V c).arrAt_eq_of_cover 3 (arr2_G (V c main_v0) (V c main_v2) (V c main_v13)) (fun t _ => arr2_flushed_eq V c t) arr2_cover

/-- The same at an index: the row entry times the one-hot pick of the row's graph out of the table. -/
theorem arr2_final_apply (V : (c : Dev nD) → (b : Ref sig .tc) → Buf (Elt Ideal) ((c : Thread nD τ).loc b)) (c : Dev nD) (n : Fin 501760) (k : Fin 256) :
    (dat2 (F := Ideal) V c).arrAt 3 cfg2.N (ix2 n k)
      = arr2_G (V c main_v0) (V c main_v2) (V c main_v13) (ix2 n k) := by
  rw [arr2_final]

end Cert.KernelIdeal.Val

end
-- ==== Proof.Val.Pay1.lean ====
/- The middle kernel's one stored value is the squeeze-excite network on the whole [512,256] mean pool, and at the
   ideal values it is the reference's network term. Both are: the pool times the first weight matrix (a sum over the
   256 columns), the maximum of that with zero, times the second weight matrix (a sum over the 16 hidden columns),
   and the logistic of the result. A matrix product into a zero accumulator and the host's dot product are the same
   plain sum over the one contracted axis; the two programs' dimension records have the same fields, hence are equal;
   a change of float format is the identity at the ideal values; a shape cast to the same shape is the identity; the
   zero splat and the broadcast scalar zero both read zero's word at every index; and the logistic is by definition
   one over one plus the exponential of the negative, which is how the reference spells it, the word of one reading
   the number one. -/
import proofs.«417222_j31860067402236_1_alg».proof.Proof.Gen.KernelIdeal.Skeleton
import proofs.«417222_j31860067402236_1_alg».proof.Proof.Val.RefTerm
import Idealize.ShloMosaic.Lib.ValueIdx
import Idealize.ShloMosaic.Lib.ValueLayout
import Idealize.ShloMosaic.Lib.Pipeline.Value
import Idealize.ShloMosaic.PureOps.Ideal.Laws
noncomputable section
namespace Cert.KernelIdeal.Val
open Idealize.ShloMosaic Idealize.ShloMosaic.ValueIdx
open scoped BigOperators

/-- The two programs' records of the first product's axes have the same fields. -/
theorem pay1_dot1 : Cert.KernelIdeal.dot_S512x256_S256x16_S512x16_1_0_0_1_n_n
    = Cert.ReferenceIdeal.dot_S512x256_S256x16_S512x16_1_0_0_1_n_n := rfl

/-- The two programs' records of the second product's axes have the same fields. -/
theorem pay1_dot2 : Cert.KernelIdeal.dot_S512x16_S16x256_S512x256_1_0_0_1_n_n
    = Cert.ReferenceIdeal.dot_S512x16_S16x256_S512x256_1_0_0_1_n_n := rfl

/-- A matrix product of two narrowed operands into the zero splat is the host's dot product of the operands: both
    are the sum over the contraction of the operands' products, and narrowing is the identity. -/
theorem pay1_mm_eq {sl sr so : Shape} (d : DotDims sl sr so) (A : FVec Ideal sl .f32) (B : FVec Ideal sr .f32)
    (h : FTy.bits .bf16 < FTy.bits .f32) :
    matmul d none (truncf .bf16 A h) (truncf .bf16 B h) (constant so .f32 0x00000000#32)
      = Host.dotGeneral d none A B := by
  funext j
  simp only [matmul, Host.dotGeneral]
  rw [Ideal.matmul_constant_zero_apply, Ideal.dotGeneral_apply]
  refine Finset.sum_congr rfl fun k _ => ?_
  rw [truncf_apply, truncf_apply]

/-- A scalar constant repeated over a shape reads the constant's word at every index. -/
theorem pay1_bcast_const {t : Shape} (h : Cert.ReferenceIdeal.S_.BroadcastsInDim t ![]) (b : BitVec (FTy.bits .f32))
    (j : t.Idx) :
    broadcastInDim t ![] h (constant (F := Ideal) Cert.ReferenceIdeal.S_ .f32 b) j = Ideal.ofBits .f32 b := by
  rw [broadcastInDim_apply _ h _ j (fun a => a.elim0) (fun a => a.elim0), constant_apply]

/-- The word of one reads the number one. -/
theorem pay1_one : Ideal.ofBits .f32 0x3F800000#32 = 1 := by
  simp [Ideal.ofBits, Ideal.ieee]
  rw [← EReal.coe_mul]
  norm_num

/-- The scalar zero repeated over the hidden layer's shape is the reference's zero splat of that shape. -/
theorem pay1_zero_splat :
    broadcast Cert.KernelIdeal.S512x16 (FloatOps.ofBits (F := Ideal) .f32 0x00000000#32)
      = broadcastInDim Cert.ReferenceIdeal.S512x16 ![] Cert.ReferenceIdeal.Gen.bcast_S_S512x16
          (constant Cert.ReferenceIdeal.S_ .f32 0x00000000#32) := by
  funext i
  rw [pay1_bcast_const]
  rfl

/-- The logistic is one over one plus the exponential of the negative, the ones being the splat of one's word. -/
theorem pay1_logistic (X : FVec Ideal Cert.ReferenceIdeal.S512x256 .f32) :
    logistic X
      = Host.divf (broadcastInDim Cert.ReferenceIdeal.S512x256 ![] Cert.ReferenceIdeal.Gen.bcast_S_S512x256
          (constant Cert.ReferenceIdeal.S_ .f32 0x3F800000#32))
        (addf (broadcastInDim Cert.ReferenceIdeal.S512x256 ![] Cert.ReferenceIdeal.Gen.bcast_S_S512x256
            (constant Cert.ReferenceIdeal.S_ .f32 0x3F800000#32))
          (Host.exp (Host.negf X))) := by
  funext j
  show Ideal.div 1 (1 + Ideal.exp (-(X j)))
    = Ideal.div (broadcastInDim Cert.ReferenceIdeal.S512x256 ![] Cert.ReferenceIdeal.Gen.bcast_S_S512x256
          (constant (F := Ideal) Cert.ReferenceIdeal.S_ .f32 0x3F800000#32) j)
        (broadcastInDim Cert.ReferenceIdeal.S512x256 ![] Cert.ReferenceIdeal.Gen.bcast_S_S512x256
          (constant (F := Ideal) Cert.ReferenceIdeal.S_ .f32 0x3F800000#32) j + Ideal.exp (-(X j)))
  rw [pay1_bcast_const, pay1_one]

theorem k1_pay1_eq (M : Vec Ideal Cert.KernelIdeal.S512x256 .f32) (W1 : Vec Ideal Cert.KernelIdeal.S256x16 .f32) (W2 : Vec Ideal Cert.KernelIdeal.S16x256 .f32) :
    Cert.KernelIdeal.Gen.k1_pay1 (F := Ideal) M W1 W2 = Cert.Hand.Ref.scaleOf (F := Ideal) M W1 W2 := by
  unfold Cert.KernelIdeal.Gen.k1_pay1 Cert.Hand.Ref.scaleOf
  rw [shapeCast_self]
  dsimp only
  rw [pay1_mm_eq, pay1_mm_eq, pay1_dot1, pay1_dot2, pay1_zero_splat]
  exact pay1_logistic _

end Cert.KernelIdeal.Val
end
-- ==== Proof.Val.RefRead.lean ====
/- Two stages of the reference read at an index, at the ideal values. The per-graph sums are a scatter-add of the rows
   into zeros at the graph ids: update (m, c') lands on entry (g, c) exactly when c' = c and the id of row m, read as a
   signed word, is g (an id outside [0, 512) lands nowhere), so entry (g, c) is the sum of x (m, c) over the rows m whose
   id is the word g. The result is each row times a gathered scale row: a graph id that is below 512 as an unsigned word
   is non-negative as a signed one, so the wrap leaves it unchanged, and the gather's clamp into [0, 511] leaves it
   unchanged too; entry (m, c) is then x (m, c) times the scale table's entry at row b[m], column c. -/
import proofs.«417222_j31860067402236_1_alg».proof.Proof.Val.RefTerm
import proofs.«417222_j31860067402236_1_alg».proof.Proof.Gen.ReferenceIdeal.Read
import Idealize.ShloMosaic.Lib.ValueIdx
import Idealize.ShloMosaic.Lib.ValueLayout
import Idealize.ShloMosaic.Lib.Pipeline.Value
import Idealize.ShloMosaic.Lib.StableHlo.Predicate
noncomputable section
namespace Cert.Hand.Ref
open Cert.ReferenceIdeal Idealize.ShloMosaic Idealize.ShloMosaic.ValueIdx
open scoped BigOperators

/-- A 32-bit word reads, signed, as a number below 512 exactly when it is that number's word. -/
theorem ref_word (w : BitVec 32) (g : Nat) (hg : g < 512) : w.toInt = (g : Int) ↔ w = BitVec.ofNat 32 g := by
  constructor
  · intro h
    apply BitVec.eq_of_toNat_eq
    rw [BitVec.toNat_ofNat]
    have hw := w.isLt
    rw [BitVec.toInt_eq_toNat_cond] at h
    split at h <;> omega
  · rintro rfl
    rw [BitVec.toInt_eq_toNat_cond, BitVec.toNat_ofNat]
    have e : g % 2 ^ 32 = g := Nat.mod_eq_of_lt (by omega)
    rw [e, if_pos (by omega)]

/-- The graph ids laid out as a column: entry (m, 0) is the id of row m. -/
theorem ref_bcast_ids (b : IVec S500000 32) (i : S500000x1.Idx) :
    broadcastInDim S500000x1 ![0] Gen.bcast_S500000_S500000x1_0 b i = b (ix1 (i 0)) := by
  refine broadcastInDim_apply _ _ b i (ix1 (i 0)) (fun a => ?_)
  match a with
  | ⟨0, _⟩ => show (i 0).val = if (500000 : Nat) = 1 then 0 else (i 0).val; rw [if_neg (by decide)]

/-- Where an update lands: update (m, c') lands on result entry (g, c) exactly when the start index of row m, read
    signed, is g and c' = c. -/
theorem ref_scatter_hit (idx : IVec S500000x1 32) (j : S500000x256.Idx) (g : Fin 512) (c : Fin 256) :
    scatter_S512x256_S500000x1_S500000x256_1_0_0_1.resultIdx? j idx = some (ix2 g c)
      ↔ (idx (ix2 (j 0) 0)).toInt = (g.val : Int) ∧ j 1 = c := by
  have hs0 : scatter_S512x256_S500000x1_S500000x256_1_0_0_1.start j idx 0 = (idx (ix2 (j 0) 0)).toInt := by
    unfold ScatterDims.start
    rw [dif_pos (show (0 : Fin 2) ∈ scatter_S512x256_S500000x1_S500000x256_1_0_0_1.scatterDimsToOperandDims from
      List.mem_singleton.mpr rfl)]
    congr 2
    funext a; refine Fin.ext ?_
    match a with
    | ⟨0, _⟩ => rfl
    | ⟨1, _⟩ => rfl
  have hs1 : scatter_S512x256_S500000x1_S500000x256_1_0_0_1.start j idx 1 = 0 := by
    unfold ScatterDims.start
    rw [dif_neg (show ¬ (1 : Fin 2) ∈ scatter_S512x256_S500000x1_S500000x256_1_0_0_1.scatterDimsToOperandDims from by decide)]
  have hw0 : scatter_S512x256_S500000x1_S500000x256_1_0_0_1.window j 0 = 0 := by
    unfold ScatterDims.window
    rw [dif_neg (show ¬ (0 : Fin 2) ∈ scatter_S512x256_S500000x1_S500000x256_1_0_0_1.sKept from by decide)]
  have hw1 : scatter_S512x256_S500000x1_S500000x256_1_0_0_1.window j 1 = (j 1).val := by
    unfold ScatterDims.window
    rw [dif_pos (show (1 : Fin 2) ∈ scatter_S512x256_S500000x1_S500000x256_1_0_0_1.sKept from by decide)]
    rfl
  have hc : (j 1).val < 256 := (j 1).isLt
  unfold ScatterDims.resultIdx?
  split
  · rename_i h
    rw [Option.some.injEq]
    constructor
    · intro he
      have e0 := congrArg Fin.val (congrFun he 0)
      have e1 := congrArg Fin.val (congrFun he 1)
      have h0 := h 0
      have h1 := h 1
      simp only [hs0, hw0, hs1, hw1] at e0 e1 h0 h1
      refine ⟨?_, Fin.ext ?_⟩
      · change _ = g.val at e0; omega
      · change _ = c.val at e1; omega
    · rintro ⟨e0, e1⟩
      funext a
      refine Fin.ext ?_
      match a with
      | ⟨0, _⟩ =>
        show (scatter_S512x256_S500000x1_S500000x256_1_0_0_1.start j idx 0
          + scatter_S512x256_S500000x1_S500000x256_1_0_0_1.window j 0).toNat = g.val
        rw [hs0, hw0, e0]; omega
      | ⟨1, _⟩ =>
        show (scatter_S512x256_S500000x1_S500000x256_1_0_0_1.start j idx 1
          + scatter_S512x256_S500000x1_S500000x256_1_0_0_1.window j 1).toNat = c.val
        rw [hs1, hw1, ← e1]; omega
  · rename_i h
    refine iff_of_false (by simp) ?_
    rintro ⟨e0, e1⟩
    refine h (fun a => ?_)
    match a with
    | ⟨0, _⟩ =>
      show 0 ≤ scatter_S512x256_S500000x1_S500000x256_1_0_0_1.start j idx 0
          + scatter_S512x256_S500000x1_S500000x256_1_0_0_1.window j 0 ∧
        scatter_S512x256_S500000x1_S500000x256_1_0_0_1.start j idx 0
          + scatter_S512x256_S500000x1_S500000x256_1_0_0_1.window j 0 < ((512 : Nat) : Int)
      rw [hs0, hw0, e0]; have := g.isLt; omega
    | ⟨1, _⟩ =>
      show 0 ≤ scatter_S512x256_S500000x1_S500000x256_1_0_0_1.start j idx 1
          + scatter_S512x256_S500000x1_S500000x256_1_0_0_1.window j 1 ∧
        scatter_S512x256_S500000x1_S500000x256_1_0_0_1.start j idx 1
          + scatter_S512x256_S500000x1_S500000x256_1_0_0_1.window j 1 < ((256 : Nat) : Int)
      rw [hs1, hw1]; omega

/-- The wrap leaves a graph id below 512 (so non-negative as a signed word) unchanged. -/
theorem ref_wrap (b : IVec S500000 32) (m : Fin 500000) (h : (b (ix1 m)).toNat < 512) :
    wrapOf b (ix1 m) = b (ix1 m) := by
  unfold wrapOf
  rw [select_apply]
  have hlt : ¬ ((b (ix1 m)).toInt < (0#32 : BitVec 32).toInt) := by
    rw [BitVec.toInt_zero, BitVec.toInt_eq_toNat_cond]; split <;> omega
  have hs : (b (ix1 m)).slt 0#32 = false := decide_eq_false hlt
  have hc : cmpi .slt b (broadcastInDim S500000 ![] Gen.bcast_S_S500000 (constantI S_ 32 0#32)) (ix1 m) = 0#1 := by
    show BitVec.ofBool ((b (ix1 m)).slt 0#32) = 0#1
    rw [hs]; rfl
  rw [hc, select_zero]

/-- Which table entry the gather reads: result entry (m, c) reads the table at the start index of row m — read
    signed and clamped into [0, 511], so itself when it is below 512 — and column c. -/
theorem ref_gather_idx (idx : IVec S500000x1 32) (m : Fin 500000) (c : Fin 256) (h : (idx (ix2 m 0)).toNat < 512) :
    gather_S512x256_S500000x1_S500000x256_1_0_n_n_0_1_1256.operandIdx (ix2 m c) idx
      = ix2 ⟨(idx (ix2 m 0)).toNat, h⟩ c := by
  funext a
  refine Fin.ext ?_
  match a with
  | ⟨0, _⟩ =>
    show gather_S512x256_S500000x1_S500000x256_1_0_n_n_0_1_1256.start (ix2 m c) idx 0
        + gather_S512x256_S500000x1_S500000x256_1_0_n_n_0_1_1256.batchCoord (ix2 m c) 0
        + gather_S512x256_S500000x1_S500000x256_1_0_n_n_0_1_1256.offCoord (ix2 m c) 0 = (idx (ix2 m 0)).toNat
    rw [GatherDims.batchCoord_eq_zero _ _ _ List.not_mem_nil,
      GatherDims.offCoord_eq_zero _ _ _ (fun hh => ((GatherDims.mem_sKept _ _).mp hh).1 (List.mem_singleton.mpr rfl))]
    simp only [Nat.add_zero]
    unfold GatherDims.start
    rw [dif_pos (show (0 : Fin 2) ∈ gather_S512x256_S500000x1_S500000x256_1_0_n_n_0_1_1256.startIndexMap from
      List.mem_singleton.mpr rfl)]
    have hsi : gather_S512x256_S500000x1_S500000x256_1_0_n_n_0_1_1256.siIdx (ix2 m c)
        ⟨List.idxOf (0 : Fin 2) gather_S512x256_S500000x1_S500000x256_1_0_n_n_0_1_1256.startIndexMap,
          List.idxOf_lt_length_iff.2 (List.mem_singleton.mpr rfl)⟩ = ix2 m 0 := by
      funext b; refine Fin.ext ?_
      match b with
      | ⟨0, _⟩ => rfl
      | ⟨1, _⟩ => rfl
    rw [hsi]
    show min (idx (ix2 m 0)).toInt.toNat (512 - 1) = (idx (ix2 m 0)).toNat
    rw [BitVec.toInt_eq_toNat_cond]; split <;> omega
  | ⟨1, _⟩ =>
    show gather_S512x256_S500000x1_S500000x256_1_0_n_n_0_1_1256.start (ix2 m c) idx 1
        + gather_S512x256_S500000x1_S500000x256_1_0_n_n_0_1_1256.batchCoord (ix2 m c) 1
        + gather_S512x256_S500000x1_S500000x256_1_0_n_n_0_1_1256.offCoord (ix2 m c) 1 = c.val
    rw [GatherDims.batchCoord_eq_zero _ _ _ List.not_mem_nil]
    have hs : gather_S512x256_S500000x1_S500000x256_1_0_n_n_0_1_1256.start (ix2 m c) idx 1 = 0 := by
      unfold GatherDims.start
      rw [dif_neg (show ¬ (1 : Fin 2) ∈ gather_S512x256_S500000x1_S500000x256_1_0_n_n_0_1_1256.startIndexMap from by decide)]
    have ho : gather_S512x256_S500000x1_S500000x256_1_0_n_n_0_1_1256.offCoord (ix2 m c) 1 = c.val := by
      unfold GatherDims.offCoord
      rw [dif_pos (show (1 : Fin 2) ∈ gather_S512x256_S500000x1_S500000x256_1_0_n_n_0_1_1256.sKept from by decide)]
      rfl
    rw [hs, ho]; omega

/-- The per-graph sums at (g, c): the sum of column c of the rows whose graph id is the word g. -/
theorem segOf_apply (x : FVec Ideal S500000x256 .f32) (b : IVec S500000 32) (g : Fin 512) (c : Fin 256) :
    segOf (F := Ideal) x b (ix2 g c) = ∑ m ∈ Finset.univ.filter (fun m : Fin 500000 => b (ix1 m) = BitVec.ofNat 32 g.val), x (ix2 m c) := by
  unfold segOf Host.scatterAdd
  rw [Ideal.hostScatterAdd_def]
  unfold Ideal.hostScatterAdd
  have hz : broadcastInDim S512x256 ![] Gen.bcast_S_S512x256 (constant (F := Ideal) S_ .f32 0x00000000#32) (ix2 g c) = 0 := by
    show Ideal.ofBits .f32 0x00000000#32 = 0
    exact Ideal.ofBits_zero_f32
  rw [hz, zero_add, Finset.sum_filter, Finset.sum_filter, sum_idx2]
  refine Finset.sum_congr rfl (fun m _ => ?_)
  have key : ∀ c' : Fin 256,
      (scatter_S512x256_S500000x1_S500000x256_1_0_0_1.resultIdx? (ix2 m c')
          (broadcastInDim S500000x1 ![0] Gen.bcast_S500000_S500000x1_0 b) = some (ix2 g c))
        ↔ (b (ix1 m) = BitVec.ofNat 32 g.val ∧ c' = c) := by
    intro c'
    refine (ref_scatter_hit _ _ _ _).trans ?_
    show (broadcastInDim S500000x1 ![0] Gen.bcast_S500000_S500000x1_0 b (ix2 m 0)).toInt = (g.val : Int) ∧ c' = c ↔ _
    rw [ref_bcast_ids, ref_word _ _ g.isLt]
  simp only [key]
  by_cases hq : b (ix1 m) = BitVec.ofNat 32 g.val
  · rw [if_pos hq]
    have e : ∀ c' : Fin 256, (if (b (ix1 m) = BitVec.ofNat 32 g.val ∧ c' = c) then x (ix2 m c') else 0)
        = if c' = c then x (ix2 m c') else 0 := by
      intro c'; simp only [hq, true_and]
    simp only [e]
    rw [Finset.sum_ite_eq', if_pos (Finset.mem_univ _)]
  · rw [if_neg hq]
    refine Finset.sum_eq_zero (fun c' _ => ?_)
    rw [if_neg]
    rintro ⟨h1, _⟩
    exact hq h1

/-- The reference's result at (m, c), for a graph id below 512: the entry of x times the scale table's entry at the
    row of that id. -/
theorem refOut_apply (x : FVec Ideal S500000x256 .f32) (b : IVec S500000 32) (W1 : FVec Ideal S256x16 .f32) (W2 : FVec Ideal S16x256 .f32)
    (m : Fin 500000) (c : Fin 256) (h : (b (ix1 m)).toNat < 512) :
    refOut (F := Ideal) x b W1 W2 (ix2 m c) = x (ix2 m c) * scaleOf (F := Ideal) (meanOf (segOf x b) b) W1 W2 (ix2 ⟨(b (ix1 m)).toNat, h⟩ c) := by
  unfold refOut
  rw [mulf_apply]
  refine congrArg (fun t => x (ix2 m c) * t) ?_
  unfold Host.gather
  have hidx : broadcastInDim S500000x1 ![0] Gen.bcast_S500000_S500000x1_0 (wrapOf b) (ix2 m 0) = b (ix1 m) := by
    rw [ref_bcast_ids]; exact ref_wrap b m h
  have h' : (broadcastInDim S500000x1 ![0] Gen.bcast_S500000_S500000x1_0 (wrapOf b) (ix2 m 0)).toNat < 512 := by
    rw [hidx]; exact h
  rw [ref_gather_idx _ m c h']
  refine congrArg _ ?_
  funext a
  match a with
  | ⟨0, _⟩ => exact Fin.ext (congrArg BitVec.toNat hidx)
  | ⟨1, _⟩ => rfl

end Cert.Hand.Ref

end
-- ==== Proof.Val.Seg.lean ====
/- The first region's accumulated block is the reference's segment sum. The region runs 245 points; point t reads
   rows 2048 t .. 2048 t + 2047 of the padded row array [501760,256] and of the padded graph-id column [501760,1] and
   adds to the accumulator, at (g, k), the sum over its rows r of [id(2048 t + r) = g] * row(2048 t + r, k). So after the
   last point the accumulator at (g, k) is the double sum over the 245 tiles and their 2048 rows of those terms, which is
   the single sum over the 501760 padded rows. The rows from 500000 on carry zero entries (and the id 512, which is no
   graph), so they add nothing, and on the first 500000 rows the padded arrays are the true rows and ids: what remains is
   the sum over the true rows whose id is g of their entries at column k, the reference's segment sum at (g, k). -/
import proofs.«417222_j31860067402236_1_alg».proof.Proof.Val.Acc
import proofs.«417222_j31860067402236_1_alg».proof.Proof.Val.Arr2
import proofs.«417222_j31860067402236_1_alg».proof.Proof.Val.RefRead
import proofs.«417222_j31860067402236_1_alg».proof.Proof.Val.Sums
noncomputable section
namespace Cert.KernelIdeal.Val
open Cert.KernelIdeal Cert.KernelIdeal.Gen Idealize.ShloMosaic Idealize.ShloMosaic.ValueIdx Cert.Hand
open Idealize.ShloMosaic.TcCoe Idealize.SL.Sem
open Idealize.ShloMosaic.Pipeline (Dat)
open Cert.KernelIdeal.Hand
open scoped BigOperators

/-- The accumulator after the last tile is the segment sum of the true rows by their graph ids. -/
theorem seg_eq (V : (c : Dev nD) → (b : Ref sig .tc) → Buf (Elt Ideal) ((c : Thread nD τ).loc b)) (c : Dev nD)
    (acc : (n : ℕ) → n < cfg0.N → Vec Ideal S512x256 .f32)
    (h0 : ∀ h : 0 < cfg0.N, acc 0 h = k0_pay2 (F := Ideal) (((cfg0.win 1).blk ⟨0, h⟩).view.read (Elt Ideal) (V c (Pipeline.arrRef spec0 1))) (((cfg0.win 0).blk ⟨0, h⟩).view.read (Elt Ideal) (V c (Pipeline.arrRef spec0 0))) (k0_pay1 (F := Ideal)))
    (hs : ∀ (n : ℕ) (h : n + 1 < cfg0.N), acc (n + 1) h = k0_pay2 (F := Ideal) (((cfg0.win 1).blk ⟨n + 1, h⟩).view.read (Elt Ideal) (V c (Pipeline.arrRef spec0 1))) (((cfg0.win 0).blk ⟨n + 1, h⟩).view.read (Elt Ideal) (V c (Pipeline.arrRef spec0 0))) (acc n (Nat.lt_of_succ_lt h)))
    (x : FVec Ideal S500000x256 .f32) (b : IVec S500000 32)
    (hx : ∀ (n : Fin 501760) (k : Fin 256), (V c main_v0 : S501760x256.Idx → EReal) (ix2 n k) = if h : n.val < 500000 then x (ix2 ⟨n.val, h⟩ k) else (0 : EReal))
    (hb : ∀ n : Fin 501760, (V c main_v2 : S501760x1.Idx → BitVec 32) (ix2 n (0 : Fin 1)) = if h : n.val < 500000 then b (ix1 ⟨n.val, h⟩) else 512#32) :
    (acc 244 (by have : cfg0.N = 245 := Gen.N_0; omega) : S512x256.Idx → EReal) = Cert.Hand.Ref.segOf (F := Ideal) x b := by
  funext j
  obtain ⟨g, k, rfl⟩ : ∃ (g : Fin 512) (k : Fin 256), j = ix2 g k := ⟨j 0, j 1, eq_ix2 j⟩
  have hN : cfg0.N = 245 := Gen.N_0
  have lt : ∀ t : Fin 245, t.val < cfg0.N := fun t => by rw [hN]; exact t.isLt
  have key := acc_total
    (fun t : Fin 245 => (((cfg0.win 1).blk ⟨t.val, lt t⟩).view.read (Elt Ideal) (V c (Pipeline.arrRef spec0 1)) : Vec Ideal S2048x1 .i32))
    (fun t : Fin 245 => (((cfg0.win 0).blk ⟨t.val, lt t⟩).view.read (Elt Ideal) (V c (Pipeline.arrRef spec0 0)) : Vec Ideal S2048x256 .f32))
    (fun n h => acc n (by rw [hN]; exact h))
    (h0 _) (fun n h => hs n (by rw [hN]; exact h)) g k
  refine key.trans ?_
  refine Eq.trans ?_ (Cert.Hand.Ref.segOf_apply x b g k).symm
  refine Eq.trans ?_ (seg_total (fun n => (V c main_v2 : S501760x1.Idx → BitVec 32) (ix2 n (0 : Fin 1)))
    (fun n => (V c main_v0 : S501760x256.Idx → EReal) (ix2 n k)) (fun m => b (ix1 m)) (fun m => x (ix2 m k))
    (fun m => (hb ⟨m.val, by have := m.isLt; omega⟩).trans (dif_pos m.isLt))
    (fun m => (hx ⟨m.val, by have := m.isLt; omega⟩ k).trans (dif_pos m.isLt))
    (fun n hn => (hx n k).trans (dif_neg (by omega))) (BitVec.ofNat 32 g.val))
  refine Finset.sum_congr rfl fun t _ => ?_
  refine Finset.sum_congr rfl fun r _ => ?_
  refine congrArg₂ (fun p q => hot p (BitVec.ofNat 32 g.val) * q) ?_ ?_
  · exact blk0_1_read (F := Ideal) (V c main_v2) (⟨t.val, lt t⟩ : Fin cfg0.N) r
  · exact blk0_0_read (F := Ideal) (V c main_v0) (⟨t.val, lt t⟩ : Fin cfg0.N) r k

end Cert.KernelIdeal.Val
end
-- ==== Proof.Val.Bridge.lean ====
/- The kernel program's result is the reference's, entry by entry, when every graph id is below 512. The result
   buffer is the slice of the last region's array; that array is, row by row, the row times the one-hot-weighted sum
   of the scale table's rows; the table is the middle region's array, the network applied to the mean pool; the mean
   pool is the first region's accumulated scratch divided by the graph sizes, and the scratch is the reference's
   segment sum. A one-hot-weighted sum over the 512 columns picks the row of the graph id, which is where the
   reference's gather reads when the id is in range. -/
import proofs.«417222_j31860067402236_1_alg».proof.Proof.KI.Run
import proofs.«417222_j31860067402236_1_alg».proof.Proof.Val.HostK
import proofs.«417222_j31860067402236_1_alg».proof.Proof.Val.Acc
import proofs.«417222_j31860067402236_1_alg».proof.Proof.Val.Arr2
import proofs.«417222_j31860067402236_1_alg».proof.Proof.Val.Pay1
import proofs.«417222_j31860067402236_1_alg».proof.Proof.Val.Seg
import proofs.«417222_j31860067402236_1_alg».proof.Proof.Val.RefRead
import proofs.«417222_j31860067402236_1_alg».proof.Proof.Val.Sums

set_option maxRecDepth 16384

noncomputable section

namespace Cert.KernelIdeal.Val

open Cert.KernelIdeal Cert.KernelIdeal.Gen Cert.KernelIdeal.Hand Cert.Hand
open Idealize.ShloMosaic Idealize.ShloMosaic.ValueIdx Idealize.ShloMosaic.TcCoe Idealize.SL.Sem
open Idealize.ShloMosaic.Pipeline (Dat)
open scoped BigOperators

variable (m : (ℓ : Loc nD τ sig) → Buf (Elt Ideal) ℓ) (c : Dev nD)

/-- The four arguments as the launch memory holds them. -/
abbrev xA : FVec Ideal S500000x256 .f32 := m ((c : Thread nD τ).loc main_arg0)
abbrev bA : IVec S500000 32 := m ((c : Thread nD τ).loc main_arg1)
abbrev w1A : FVec Ideal S256x16 .f32 := m ((c : Thread nD τ).loc main_arg2)
abbrev w2A : FVec Ideal S16x256 .f32 := m ((c : Thread nD τ).loc main_arg3)

/-! ## The first region: the accumulated scratch is the segment sum -/

theorem W6_main_v3 : (W6 m c main_v3 : S512x256.Idx → EReal) = Ref.segOf (F := Ideal) (xA m c) (bA m c) :=
  ((W6_arr m c 2).trans (arr0_final (Vr0 m) c)).trans
    (seg_eq (Vr0 m) c (acc0 (Vr0 m) c) (fun h => acc0_zero (Vr0 m) c h) (fun n h => acc0_succ (Vr0 m) c n h)
      (xA m c) (bA m c) (fun n k => V5_rows m c n k) (fun n => V5_ids m c n))

theorem W6_main_arg1 : W6 m c main_arg1 = m ((c : Thread nD τ).loc main_arg1) :=
  (W6_of_ne m c main_arg1 (by decide)).trans (V5_launch m c main_arg1 (by decide) (by decide) (by decide) (by decide) (by decide))

/-! ## The middle region: the scale table -/

theorem W7_main_v12 : (W7 m c main_v12 : S512x256.Idx → EReal)
    = Ref.meanOf (F := Ideal) (Ref.segOf (F := Ideal) (xA m c) (bA m c)) (bA m c) := by
  refine (after_hostOps1_mean (W6 m c)).trans ?_
  rw [W6_main_v3 m c, W6_main_arg1 m c]

theorem W7_main_arg2 : W7 m c main_arg2 = m ((c : Thread nD τ).loc main_arg2) :=
  (W7_of m c main_arg2 (by decide)).trans <| (W6_of_ne m c main_arg2 (by decide)).trans <|
    V5_launch m c main_arg2 (by decide) (by decide) (by decide) (by decide) (by decide)
theorem W7_main_arg3 : W7 m c main_arg3 = m ((c : Thread nD τ).loc main_arg3) :=
  (W7_of m c main_arg3 (by decide)).trans <| (W6_of_ne m c main_arg3 (by decide)).trans <|
    V5_launch m c main_arg3 (by decide) (by decide) (by decide) (by decide) (by decide)

/-- The scale table the last region reads: the network on the mean pool of the segment sums. -/
theorem W8_main_v13 : (W8 m c main_v13 : S512x256.Idx → EReal)
    = Ref.scaleOf (F := Ideal) (Ref.meanOf (F := Ideal) (Ref.segOf (F := Ideal) (xA m c) (bA m c)) (bA m c)) (w1A m c) (w2A m c) := by
  refine (W8_arr m c 3).trans ((arr1_final (Vr1 m) c).trans ?_)
  rw [k1_pay1_eq]
  show Ref.scaleOf (F := Ideal) (W7 m c main_v12) (W7 m c main_arg2) (W7 m c main_arg3) = _
  rw [W7_main_v12 m c, W7_main_arg2 m c, W7_main_arg3 m c]

/-! ## The last region's inputs: the padded rows and ids, as the first region found them -/

theorem W8_main_v0 : W8 m c main_v0 = V5 m c main_v0 :=
  (W8_of_ne m c main_v0 (by decide)).trans <| (W7_of m c main_v0 (by decide)).trans <|
    (W6_arr m c 0).trans (((dat0 (Vr0 m) c).arrAt_in 0 rfl _).trans (A_eq0 (Vr0 m) c 0))
theorem W8_main_v2 : W8 m c main_v2 = V5 m c main_v2 :=
  (W8_of_ne m c main_v2 (by decide)).trans <| (W7_of m c main_v2 (by decide)).trans <|
    (W6_arr m c 1).trans (((dat0 (Vr0 m) c).arrAt_in 1 rfl _).trans (A_eq0 (Vr0 m) c 1))

/-! ## The result -/

/-- Entry by entry the kernel's result is the reference's, where the graph ids are in range. -/
theorem out_apply (hb : ∀ r : Fin 500000, (bA m c (ix1 r)).toNat < 512) (r : Fin 500000) (k : Fin 256) :
    (W10 m c main_v15 : S500000x256.Idx → EReal) (ix2 r k)
      = Ref.refOut (F := Ideal) (xA m c) (bA m c) (w1A m c) (w2A m c) (ix2 r k) := by
  have hr : r.val < 501760 := by have := r.isLt; omega
  have h9 : (W9 m c main_v14 : S501760x256.Idx → EReal) (ix2 (⟨r.val, hr⟩ : Fin 501760) k)
      = arr2_G (Vr2 m c main_v0) (Vr2 m c main_v2) (Vr2 m c main_v13) (ix2 (⟨r.val, hr⟩ : Fin 501760) k) :=
    (congrFun (W9_arr m c 3) _).trans (arr2_final_apply (Vr2 m) c ⟨r.val, hr⟩ k)
  have h0 : (Vr2 m c main_v0 : S501760x256.Idx → EReal) (ix2 (⟨r.val, hr⟩ : Fin 501760) k) = xA m c (ix2 r k) := by
    show (W8 m c main_v0 : S501760x256.Idx → EReal) _ = _
    rw [W8_main_v0 m c, V5_rows m c ⟨r.val, hr⟩ k, dif_pos r.isLt]
  have h2 : (Vr2 m c main_v2 : S501760x1.Idx → BitVec 32) (ix2 (⟨r.val, hr⟩ : Fin 501760) (0 : Fin 1)) = bA m c (ix1 r) := by
    show (W8 m c main_v2 : S501760x1.Idx → BitVec 32) _ = _
    rw [W8_main_v2 m c, V5_ids m c ⟨r.val, hr⟩, dif_pos r.isLt]
  have h13 : (Vr2 m c main_v13 : S512x256.Idx → EReal)
      = Ref.scaleOf (F := Ideal) (Ref.meanOf (F := Ideal) (Ref.segOf (F := Ideal) (xA m c) (bA m c)) (bA m c)) (w1A m c) (w2A m c) :=
    W8_main_v13 m c
  refine (after_hostOps3_slice (W9 m c) r k).trans (h9.trans ?_)
  rw [arr2_G_apply, h0, h2, h13, hot_pick _ (hb r), Ref.refOut_apply (xA m c) (bA m c) (w1A m c) (w2A m c) r k (hb r)]

/-- The kernel's result array is the reference's term of the arguments. -/
theorem out_eq (hb : ∀ r : Fin 500000, (bA m c (ix1 r)).toNat < 512) :
    (W10 m c main_v15 : S500000x256.Idx → EReal) = Ref.refOut (F := Ideal) (xA m c) (bA m c) (w1A m c) (w2A m c) := by
  funext j
  obtain ⟨r, k, rfl⟩ : ∃ (r : Fin 500000) (k : Fin 256), j = ix2 r k := ⟨j 0, j 1, eq_ix2 j⟩
  exact out_apply m c hb r k

end Cert.KernelIdeal.Val

end
-- ==== Proof.Val.PreDecode.lean ====
/- The precondition, read back. The stated precondition is one bit: the conjunction of "every entry of the three real
   arrays is finite" with "every graph id b[m] satisfies 0 ≤ b[m] and b[m] < 512, both compared as signed 32-bit words",
   where each "for every index" is an and-reduction over all indices started from 1, and each bound is a comparison
   against a scalar constant laid out along the row axis. If that bit is 1 then its last conjunct is 1, so the and-reduction
   over the rows is 1, so at every row m both comparison bits are 1: 0 ≤ toInt b[m] and toInt b[m] < 512. A 32-bit word
   whose signed value is non-negative has its top bit clear, so its signed and unsigned values agree; hence, read as an
   unsigned number, b[m] < 512. -/
import proofs.«417222_j31860067402236_1_alg».proof.Pre_finite_inputs
import proofs.«417222_j31860067402236_1_alg».proof.Proof.Gen.Pre_finite_inputs
import Idealize.ShloMosaic.Lib.ValueIdx
import Idealize.ShloMosaic.Lib.ReduceAll
import Idealize.ShloMosaic.Lib.StableHlo.Predicate

noncomputable section

namespace Cert.Hand

open Idealize.ShloMosaic Idealize.ShloMosaic.ValueIdx

/-- A 32-bit word that is non-negative and below 512 as a signed number is below 512 as an unsigned number. -/
theorem pre_word_lt (w : BitVec 32) (h0 : (0 : Int) ≤ w.toInt) (h1 : w.toInt < 512) : w.toNat < 512 := by
  have e := BitVec.toInt_eq_toNat_cond w
  have := w.isLt
  omega

/-- The scalar shape has one index. -/
instance pre_subsingleton_scalar : Subsingleton Cert.Pre_finite_inputs.S_.Idx :=
  ⟨fun _ _ => funext fun d => d.elim0⟩

/-- The graph-id conjunct of the precondition, at one row: both comparison bits are 1. -/
theorem pre_ids_bits {F : FTy → Type} [FloatOps F] (x : FVec F Cert.Pre_finite_inputs.S500000x256 .f32) (b : IVec Cert.Pre_finite_inputs.S500000 32)
    (W1 : FVec F Cert.Pre_finite_inputs.S256x16 .f32) (W2 : FVec F Cert.Pre_finite_inputs.S16x256 .f32)
    (h : Cert.Pre_finite_inputs.fn (F := F) x b W1 W2 = fun _ => 1#1) (m : Fin 500000) :
    IntOp.cmpi .sge (b (ix1 m)) 0#32 = 1#1 ∧ IntOp.cmpi .slt (b (ix1 m)) 512#32 = 1#1 := by
  have h0 := congrFun h ix0
  dsimp only [Cert.Pre_finite_inputs.fn, Cert.Pre_finite_inputs.fn_part1] at h0
  have h1 := (IntOp.andi_eq_one.1 h0).2
  have h2 := Host.reduce_andi_all _ _ _ _ _ h1 (ix1 m)
  exact IntOp.andi_eq_one.1 h2

theorem ids_in_range {F : FTy → Type} [FloatOps F] (x : FVec F Cert.Pre_finite_inputs.S500000x256 .f32) (b : IVec Cert.Pre_finite_inputs.S500000 32)
    (W1 : FVec F Cert.Pre_finite_inputs.S256x16 .f32) (W2 : FVec F Cert.Pre_finite_inputs.S16x256 .f32)
    (h : Cert.Pre_finite_inputs.fn (F := F) x b W1 W2 = fun _ => 1#1) (m : Fin 500000) : (b (ix1 m)).toNat < 512 := by
  obtain ⟨h3, h4⟩ := pre_ids_bits x b W1 W2 h m
  have h5 : (0#32 : BitVec 32).toInt ≤ (b (ix1 m)).toInt := IntOp.cmpi_sge.1 h3
  have h6 : (b (ix1 m)).toInt < (512#32 : BitVec 32).toInt := IntOp.cmpi_slt.1 h4
  have e0 : (0#32 : BitVec 32).toInt = 0 := by decide
  have e1 : (512#32 : BitVec 32).toInt = 512 := by decide
  rw [e0] at h5
  rw [e1] at h6
  exact pre_word_lt _ h5 h6

end Cert.Hand

end
-- ==== Proof.lean ====
/- The kernel (a segment sum over the graph ids by one-hot matrix products accumulated over 245 row tiles, the
   squeeze-excite network on the mean pool, and the gather of each row's scale by a second one-hot product) against
   its reference (scatter-add, the same network, a gather), over the extended reals, where every float input is
   finite and every graph id lies in [0, 512). The two frames of the kernel program are its run through its ten
   segments read at the argument arrays; the reference's frame is its run with the result dropped; the ideal pass
   rewrote nothing; and the two results are one term of the arguments: a one-hot-weighted sum of rows is the sum over
   the rows of that graph, and a one-hot-weighted sum over the graph axis picks the graph's row. -/
import proofs.«417222_j31860067402236_1_alg».proof.Defs
import proofs.«417222_j31860067402236_1_alg».proof.Proof.Gen.Kernel
import proofs.«417222_j31860067402236_1_alg».proof.Proof.Gen.KernelIdeal
import proofs.«417222_j31860067402236_1_alg».proof.Proof.Gen.ReferenceIdeal
import proofs.«417222_j31860067402236_1_alg».proof.Proof.Gen.Pre_finite_inputs
import proofs.«417222_j31860067402236_1_alg».proof.Proof.K.Run
import proofs.«417222_j31860067402236_1_alg».proof.Proof.KI.Run
import proofs.«417222_j31860067402236_1_alg».proof.Proof.Val.Bridge
import proofs.«417222_j31860067402236_1_alg».proof.Proof.Val.PreDecode
import proofs.«417222_j31860067402236_1_alg».proof.Proof.Val.RefTerm
import Idealize.ShloMosaic.Adequacy
import Idealize.ShloMosaic.Init

noncomputable section

namespace Cert.Proof

open Idealize.ShloMosaic Idealize.SL.Sem Idealize.ShloMosaic.ValueIdx

theorem claim : Cert.Claim := ⟨Cert.Kernel.Gen.facts, Cert.KernelIdeal.Gen.facts, Cert.ReferenceIdeal.Gen.facts, Cert.Pre_finite_inputs.Gen.facts,
  fun m ρ _ => Cert.Kernel.Hand.frame m ρ,
  fun m ρ _ => Cert.KernelIdeal.Hand.frame m ρ,
  fun m ρ _ => (θ_run Cert.ReferenceIdeal.defs _ _).mono (fun _ h c => (h c).2) (Cert.Hand.Ref.refRun (F := Ideal) m ρ),
  trivial,
  fun m ρ m' ρ' hpre hagree =>
    ⟨fun c => Cert.Hand.Ref.refOut (F := Ideal) (Cert.KernelIdeal.Val.xA m c) (Cert.KernelIdeal.Val.bA m c)
        (Cert.KernelIdeal.Val.w1A m c) (Cert.KernelIdeal.Val.w2A m c),
     (θ_run Cert.KernelIdeal.defs _ _).mono (fun r h c =>
        ⟨(h c).1.trans (Cert.KernelIdeal.Val.out_eq m c fun r =>
            Cert.Hand.ids_in_range (F := Ideal) (Cert.KernelIdeal.Val.xA m c) (Cert.KernelIdeal.Val.bA m c)
              (Cert.KernelIdeal.Val.w1A m c) (Cert.KernelIdeal.Val.w2A m c) (hpre c) r), (h c).2⟩)
       (Cert.KernelIdeal.Hand.run_named (F := Ideal) m ρ),
     (θ_run Cert.ReferenceIdeal.defs _ _).mono (fun r h c =>
        ⟨by rw [(h c).1, (hagree c).1, (hagree c).2.1, (hagree c).2.2.1, (hagree c).2.2.2], (h c).2⟩)
       (Cert.Hand.Ref.refRun (F := Ideal) m' ρ')⟩⟩

end Cert.Proof

end
